-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v495) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x128x128 : Shape := ⟨4, ![16, 8, 128, 128]⟩
abbrev S16x8x136x136 : Shape := ⟨4, ![16, 8, 136, 136]⟩
abbrev S16x1x128x128x9x9 : Shape := ⟨6, ![16, 1, 128, 128, 9, 9]⟩
abbrev S16x1x128x128 : Shape := ⟨4, ![16, 1, 128, 128]⟩
abbrev S_ : Shape := ⟨0, ![]⟩

class Facts : Prop where
  bcast_S_S16x8x128x128 : S_.BroadcastsInDim S16x8x128x128 (![] : Fin 0 → Fin S16x8x128x128.rank)
  reducesTo_S16x8x128x128_S_d0_1_2_3 : S16x8x128x128.ReducesTo [0, 1, 2, 3] S_
  h_S_ : 0 < S_.numel
  bcast_S_S16x8x136x136 : S_.BroadcastsInDim S16x8x136x136 (![] : Fin 0 → Fin S16x8x136x136.rank)
  reducesTo_S16x8x136x136_S_d0_1_2_3 : S16x8x136x136.ReducesTo [0, 1, 2, 3] S_
  bcast_S_S16x1x128x128x9x9 : S_.BroadcastsInDim S16x1x128x128x9x9 (![] : Fin 0 → Fin S16x1x128x128x9x9.rank)
  reducesTo_S16x1x128x128x9x9_S_d0_1_2_3_4_5 : S16x1x128x128x9x9.ReducesTo [0, 1, 2, 3, 4, 5] S_
  bcast_S_S16x1x128x128 : S_.BroadcastsInDim S16x1x128x128 (![] : Fin 0 → Fin S16x1x128x128.rank)
  reducesTo_S16x1x128x128_S_d0_1_2_3 : S16x1x128x128.ReducesTo [0, 1, 2, 3] S_

variable [Facts]

def fn_part1 {F : FTy → Type} [FloatOps F] (main_v13 : IVec S_ 1) (main_v16 : IVec S16x1x128x128 1) : IVec S_ 1 :=
  let main_c_5 : IVec S_ 1 := constantI S_ 1 1#1
  let main_v17 : IVec S_ 1 := (fun x v => Host.reduce IntOp.andi x v reducesTo_S16x1x128x128_S_d0_1_2_3 h_S_) main_v16 main_c_5
  let main_v18 : IVec S_ 1 := andi main_v13 main_v17
  main_v18

def fn {F : FTy → Type} [FloatOps F] (main_arg0 : FVec F S16x8x128x128 .f32) (main_arg1 : FVec F S16x8x136x136 .f32) (main_arg2 : FVec F S16x1x128x128x9x9 .f32) (main_arg3 : FVec F S16x1x128x128 .f32) : IVec S_ 1 :=
  let main_v0 : FVec F S16x8x128x128 .f32 := Host.absf main_arg0
  let main_cst : FVec F S_ .f32 := constant S_ .f32 0x7F800000#32
  let main_v1 : FVec F S16x8x128x128 .f32 := broadcastInDim S16x8x128x128 ![] bcast_S_S16x8x128x128 main_cst
  let main_v2 : IVec S16x8x128x128 1 := cmpf .olt main_v0 main_v1
  let main_c : IVec S_ 1 := constantI S_ 1 1#1
  let main_v3 : IVec S_ 1 := (fun x v => Host.reduce IntOp.andi x v reducesTo_S16x8x128x128_S_d0_1_2_3 h_S_) main_v2 main_c
  let main_v4 : FVec F S16x8x136x136 .f32 := Host.absf main_arg1
  let main_cst_0 : FVec F S_ .f32 := constant S_ .f32 0x7F800000#32
  let main_v5 : FVec F S16x8x136x136 .f32 := broadcastInDim S16x8x136x136 ![] bcast_S_S16x8x136x136 main_cst_0
  let main_v6 : IVec S16x8x136x136 1 := cmpf .olt main_v4 main_v5
  let main_c_1 : IVec S_ 1 := constantI S_ 1 1#1
  let main_v7 : IVec S_ 1 := (fun x v => Host.reduce IntOp.andi x v reducesTo_S16x8x136x136_S_d0_1_2_3 h_S_) main_v6 main_c_1
  let main_v8 : IVec S_ 1 := andi main_v3 main_v7
  let main_v9 : FVec F S16x1x128x128x9x9 .f32 := Host.absf main_arg2
  let main_cst_2 : FVec F S_ .f32 := constant S_ .f32 0x7F800000#32
  let main_v10 : FVec F S16x1x128x128x9x9 .f32 := broadcastInDim S16x1x128x128x9x9 ![] bcast_S_S16x1x128x128x9x9 main_cst_2
  let main_v11 : IVec S16x1x128x128x9x9 1 := cmpf .olt main_v9 main_v10
  let main_c_3 : IVec S_ 1 := constantI S_ 1 1#1
  let main_v12 : IVec S_ 1 := (fun x v => Host.reduce IntOp.andi x v reducesTo_S16x1x128x128x9x9_S_d0_1_2_3_4_5 h_S_) main_v11 main_c_3
  let main_v13 : IVec S_ 1 := andi main_v8 main_v12
  let main_v14 : FVec F S16x1x128x128 .f32 := Host.absf main_arg3
  let main_cst_4 : FVec F S_ .f32 := constant S_ .f32 0x7F800000#32
  let main_v15 : FVec F S16x1x128x128 .f32 := broadcastInDim S16x1x128x128 ![] bcast_S_S16x1x128x128 main_cst_4
  let main_v16 : IVec S16x1x128x128 1 := cmpf .olt main_v14 main_v15
  fn_part1 (F := F) main_v13 main_v16
-- ==== Kernel.lean ====
abbrev S16x8x128x128 : Shape := ⟨4, ![16, 8, 128, 128]⟩
abbrev S16x8x136x136 : Shape := ⟨4, ![16, 8, 136, 136]⟩
abbrev S16x1x128x128x9x9 : Shape := ⟨6, ![16, 1, 128, 128, 9, 9]⟩
abbrev S16x1x128x128 : Shape := ⟨4, ![16, 1, 128, 128]⟩
abbrev S16x1x128x128x81 : Shape := ⟨5, ![16, 1, 128, 128, 81]⟩
abbrev S16x1x81x128x128 : Shape := ⟨5, ![16, 1, 81, 128, 128]⟩
abbrev S16x1x8 : Shape := ⟨3, ![16, 1, 8]⟩
abbrev S1x1x81x128x128 : Shape := ⟨5, ![1, 1, 81, 128, 128]⟩
abbrev S1x8x136x136 : Shape := ⟨4, ![1, 8, 136, 136]⟩
abbrev S1x8x128x128 : Shape := ⟨4, ![1, 8, 128, 128]⟩
abbrev S1x1x128x128 : Shape := ⟨4, ![1, 1, 128, 128]⟩
abbrev S1x1x8 : Shape := ⟨3, ![1, 1, 8]⟩
abbrev S8x128x128 : Shape := ⟨3, ![8, 128, 128]⟩
abbrev S128x128 : Shape := ⟨2, ![128, 128]⟩
abbrev S1x1x1x128x128 : Shape := ⟨5, ![1, 1, 1, 128, 128]⟩
abbrev S1x128x128 : Shape := ⟨3, ![1, 128, 128]⟩
abbrev S8x128 : Shape := ⟨2, ![8, 128]⟩
abbrev S8 : Shape := ⟨1, ![8]⟩
abbrev S1x8 : Shape := ⟨2, ![1, 8]⟩
abbrev S16x8 : Shape := ⟨2, ![16, 8]⟩
abbrev S_ : Shape := ⟨0, ![]⟩
abbrev S16 : Shape := ⟨1, ![16]⟩

abbrev nBuf : Space → Nat
  | .hbm => 16
  | .vmem => 13
  | .smem => 0
  | _ => 0

abbrev bufTy : (tb : Table) → Fin (tcTables nBuf tb) → BufTy
  | .hbm, ⟨0, _⟩ => ⟨S16x8x128x128, .f32⟩
  | .hbm, ⟨1, _⟩ => ⟨S16x8x136x136, .f32⟩
  | .hbm, ⟨2, _⟩ => ⟨S16x1x128x128x9x9, .f32⟩
  | .hbm, ⟨3, _⟩ => ⟨S16x1x128x128, .f32⟩
  | .hbm, ⟨4, _⟩ => ⟨S16x1x128x128x81, .f32⟩
  | .hbm, ⟨5, _⟩ => ⟨S16x1x81x128x128, .f32⟩
  | .hbm, ⟨6, _⟩ => ⟨S16x1x8, .f32⟩
  | .hbm, ⟨7, _⟩ => ⟨S16x1x8, .f32⟩
  | .hbm, ⟨8, _⟩ => ⟨S16x8, .f32⟩
  | .hbm, ⟨9, _⟩ => ⟨S16x8, .f32⟩
  | .hbm, ⟨10, _⟩ => ⟨S16x8, .f32⟩
  | .hbm, ⟨11, _⟩ => ⟨S_, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .local _ .vmem, ⟨0, _⟩ => ⟨S1x1x81x128x128, .f32⟩
  | .local _ .vmem, ⟨1, _⟩ => ⟨S1x1x81x128x128, .f32⟩
  | .local _ .vmem, ⟨2, _⟩ => ⟨S1x8x136x136, .f32⟩
  | .local _ .vmem, ⟨3, _⟩ => ⟨S1x8x136x136, .f32⟩
  | .local _ .vmem, ⟨4, _⟩ => ⟨S1x8x128x128, .f32⟩
  | .local _ .vmem, ⟨5, _⟩ => ⟨S1x8x128x128, .f32⟩
  | .local _ .vmem, ⟨6, _⟩ => ⟨S1x1x128x128, .f32⟩
  | .local _ .vmem, ⟨7, _⟩ => ⟨S1x1x128x128, .f32⟩
  | .local _ .vmem, ⟨8, _⟩ => ⟨S1x1x8, .f32⟩
  | .local _ .vmem, ⟨9, _⟩ => ⟨S1x1x8, .f32⟩
  | .local _ .vmem, ⟨10, _⟩ => ⟨S1x1x8, .f32⟩
  | .local _ .vmem, ⟨11, _⟩ => ⟨S1x1x8, .f32⟩
  | .local _ .vmem, ⟨12, _⟩ => ⟨S8x128x128, .f32⟩
  | _, _ => ⟨S16x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_off1 (k0_t1 : Fin k0_t1_loop.trips) : Fin 4 → Nat :=
  let c0_21 : Index := 0#32
  let c0_i32 : BitVec 32 := 0#32
  let c1_i32 : BitVec 32 := 1#32
  let arg8 : BitVec 32 := Scf.iv c0_i32 c1_i32 k0_t1
  let v23 : Index := Scalar.indexCast arg8
  let c0_22 : Index := 0#32
  let c0_23 : Index := 0#32
  ![0, v23.toNat, 0, 0]
def k0_off2 (k0_t1 : Fin k0_t1_loop.trips) : Fin 4 → Nat :=
  let c0_29 : Index := 0#32
  let c0_i32 : BitVec 32 := 0#32
  let c1_i32 : BitVec 32 := 1#32
  let arg8 : BitVec 32 := Scf.iv c0_i32 c1_i32 k0_t1
  let v30 : Index := Scalar.indexCast arg8
  let c0_30 : Index := 0#32
  let c1 : Index := 1#32
  ![0, v30.toNat, 0, 1]
def k0_off3 (k0_t1 : Fin k0_t1_loop.trips) : Fin 4 → Nat :=
  let c0_36 : Index := 0#32
  let c0_i32 : BitVec 32 := 0#32
  let c1_i32 : BitVec 32 := 1#32
  let arg8 : BitVec 32 := Scf.iv c0_i32 c1_i32 k0_t1
  let v37 : Index := Scalar.indexCast arg8
  let c0_37 : Index := 0#32
  let c2 : Index := 2#32
  ![0, v37.toNat, 0, 2]
def k0_off4 (k0_t1 : Fin k0_t1_loop.trips) : Fin 4 → Nat :=
  let c0_43 : Index := 0#32
  let c0_i32 : BitVec 32 := 0#32
  let c1_i32 : BitVec 32 := 1#32
  let arg8 : BitVec 32 := Scf.iv c0_i32 c1_i32 k0_t1
  let v44 : Index := Scalar.indexCast arg8
  let c0_44 : Index := 0#32
  let c3 : Index := 3#32
  ![0, v44.toNat, 0, 3]
def k0_off5 (k0_t1 : Fin k0_t1_loop.trips) : Fin 4 → Nat :=
  let c0_50 : Index := 0#32
  let c0_i32 : BitVec 32 := 0#32
  let c1_i32 : BitVec 32 := 1#32
  let arg8 : BitVec 32 := Scf.iv c0_i32 c1_i32 k0_t1
  let v51 : Index := Scalar.indexCast arg8
  let c0_51 : Index := 0#32
  let c4 : Index := 4#32
  ![0, v51.toNat, 0, 4]
def k0_off6 (k0_t1 : Fin k0_t1_loop.trips) : Fin 4 → Nat :=
  let c0_57 : Index := 0#32
  let c0_i32 : BitVec 32 := 0#32
  let c1_i32 : BitVec 32 := 1#32
  let arg8 : BitVec 32 := Scf.iv c0_i32 c1_i32 k0_t1
  let v58 : Index := Scalar.indexCast arg8
  let c0_58 : Index := 0#32
  let c5 : Index := 5#32
  ![0, v58.toNat, 0, 5]
def k0_off7 (k0_t1 : Fin k0_t1_loop.trips) : Fin 4 → Nat :=
  let c0_64 : Index := 0#32
  let c0_i32 : BitVec 32 := 0#32
  let c1_i32 : BitVec 32 := 1#32
  let arg8 : BitVec 32 := Scf.iv c0_i32 c1_i32 k0_t1
  let v65 : Index := Scalar.indexCast arg8
  let c0_65 : Index := 0#32
  let c6 : Index := 6#32
  ![0, v65.toNat, 0, 6]
def k0_off8 (k0_t1 : Fin k0_t1_loop.trips) : Fin 4 → Nat :=
  let c0_71 : Index := 0#32
  let c0_i32 : BitVec 32 := 0#32
  let c1_i32 : BitVec 32 := 1#32
  let arg8 : BitVec 32 := Scf.iv c0_i32 c1_i32 k0_t1
  let v72 : Index := Scalar.indexCast arg8
  let c0_72 : Index := 0#32
  let c7 : Index := 7#32
  ![0, v72.toNat, 0, 7]
def k0_off9 (k0_t1 : Fin k0_t1_loop.trips) : Fin 4 → Nat :=
  let c0_78 : Index := 0#32
  let c0_i32 : BitVec 32 := 0#32
  let c1_i32 : BitVec 32 := 1#32
  let arg8 : BitVec 32 := Scf.iv c0_i32 c1_i32 k0_t1
  let v79 : Index := Scalar.indexCast arg8
  let c0_79 : Index := 0#32
  let c8 : Index := 8#32
  ![0, v79.toNat, 0, 8]
def k0_off10 (k0_t1 : Fin k0_t1_loop.trips) : Fin 4 → Nat :=
  let c0_85 : Index := 0#32
  let c0_i32 : BitVec 32 := 0#32
  let c1_i32 : BitVec 32 := 1#32
  let arg8 : BitVec 32 := Scf.iv c0_i32 c1_i32 k0_t1
  let v86 : Index := Scalar.indexCast arg8
  let c1_86 : Index := 1#32
  let c0_87 : Index := 0#32
  ![0, v86.toNat, 1, 0]
def k0_off11 (k0_t1 : Fin k0_t1_loop.trips) : Fin 4 → Nat :=
  let c0_92 : Index := 0#32
  let c0_i32 : BitVec 32 := 0#32
  let c1_i32 : BitVec 32 := 1#32
  let arg8 : BitVec 32 := Scf.iv c0_i32 c1_i32 k0_t1
  let v93 : Index := Scalar.indexCast arg8
  let c1_93 : Index := 1#32
  let c1_94 : Index := 1#32
  ![0, v93.toNat, 1, 1]
def k0_off12 (k0_t1 : Fin k0_t1_loop.trips) : Fin 4 → Nat :=
  let c0_99 : Index := 0#32
  let c0_i32 : BitVec 32 := 0#32
  let c1_i32 : BitVec 32 := 1#32
  let arg8 : BitVec 32 := Scf.iv c0_i32 c1_i32 k0_t1
  let v100 : Index := Scalar.indexCast arg8
  let c1_100 : Index := 1#32
  let c2_101 : Index := 2#32
  ![0, v100.toNat, 1, 2]
def k0_off13 (k0_t1 : Fin k0_t1_loop.trips) : Fin 4 → Nat :=
  let c0_106 : Index := 0#32
  let c0_i32 : BitVec 32 := 0#32
  let c1_i32 : BitVec 32 := 1#32
  let arg8 : BitVec 32 := Scf.iv c0_i32 c1_i32 k0_t1
  let v107 : Index := Scalar.indexCast arg8
  let c1_107 : Index := 1#32
  let c3_108 : Index := 3#32
  ![0, v107.toNat, 1, 3]
def k0_off14 (k0_t1 : Fin k0_t1_loop.trips) : Fin 4 → Nat :=
  let c0_113 : Index := 0#32
  let c0_i32 : BitVec 32 := 0#32
  let c1_i32 : BitVec 32 := 1#32
  let arg8 : BitVec 32 := Scf.iv c0_i32 c1_i32 k0_t1
  let v114 : Index := Scalar.indexCast arg8
  let c1_114 : Index := 1#32
  let c4_115 : Index := 4#32
  ![0, v114.toNat, 1, 4]
def k0_off15 (k0_t1 : Fin k0_t1_loop.trips) : Fin 4 → Nat :=
  let c0_120 : Index := 0#32
  let c0_i32 : BitVec 32 := 0#32
  let c1_i32 : BitVec 32 := 1#32
  let arg8 : BitVec 32 := Scf.iv c0_i32 c1_i32 k0_t1
  let v121 : Index := Scalar.indexCast arg8
  let c1_121 : Index := 1#32
  let c5_122 : Index := 5#32
  ![0, v121.toNat, 1, 5]
def k0_off16 (k0_t1 : Fin k0_t1_loop.trips) : Fin 4 → Nat :=
  let c0_127 : Index := 0#32
  let c0_i32 : BitVec 32 := 0#32
  let c1_i32 : BitVec 32 := 1#32
  let arg8 : BitVec 32 := Scf.iv c0_i32 c1_i32 k0_t1
  let v128 : Index := Scalar.indexCast arg8
  let c1_128 : Index := 1#32
  let c6_129 : Index := 6#32
  ![0, v128.toNat, 1, 6]
def k0_off17 (k0_t1 : Fin k0_t1_loop.trips) : Fin 4 → Nat :=
  let c0_134 : Index := 0#32
  let c0_i32 : BitVec 32 := 0#32
  let c1_i32 : BitVec 32 := 1#32
  let arg8 : BitVec 32 := Scf.iv c0_i32 c1_i32 k0_t1
  let v135 : Index := Scalar.indexCast arg8
  let c1_135 : Index := 1#32
  let c7_136 : Index := 7#32
  ![0, v135.toNat, 1, 7]
def k0_off18 (k0_t1 : Fin k0_t1_loop.trips) : Fin 4 → Nat :=
  let c0_141 : Index := 0#32
  let c0_i32 : BitVec 32 := 0#32
  let c1_i32 : BitVec 32 := 1#32
  let arg8 : BitVec 32 := Scf.iv c0_i32 c1_i32 k0_t1
  let v142 : Index := Scalar.indexCast arg8
  let c1_142 : Index := 1#32
  let c8_143 : Index := 8#32
  ![0, v142.toNat, 1, 8]
def k0_off19 (k0_t1 : Fin k0_t1_loop.trips) : Fin 4 → Nat :=
  let c0_148 : Index := 0#32
  let c0_i32 : BitVec 32 := 0#32
  let c1_i32 : BitVec 32 := 1#32
  let arg8 : BitVec 32 := Scf.iv c0_i32 c1_i32 k0_t1
  let v149 : Index := Scalar.indexCast arg8
  let c2_149 : Index := 2#32
  let c0_150 : Index := 0#32
  ![0, v149.toNat, 2, 0]
def k0_off20 (k0_t1 : Fin k0_t1_loop.trips) : Fin 4 → Nat :=
  let c0_155 : Index := 0#32
  let c0_i32 : BitVec 32 := 0#32
  let c1_i32 : BitVec 32 := 1#32
  let arg8 : BitVec 32 := Scf.iv c0_i32 c1_i32 k0_t1
  let v156 : Index := Scalar.indexCast arg8
  let c2_156 : Index := 2#32
  let c1_157 : Index := 1#32
  ![0, v156.toNat, 2, 1]
def k0_off21 (k0_t1 : Fin k0_t1_loop.trips) : Fin 4 → Nat :=
  let c0_162 : Index := 0#32
  let c0_i32 : BitVec 32 := 0#32
  let c1_i32 : BitVec 32 := 1#32
  let arg8 : BitVec 32 := Scf.iv c0_i32 c1_i32 k0_t1
  let v163 : Index := Scalar.indexCast arg8
  let c2_163 : Index := 2#32
  let c2_164 : Index := 2#32
  ![0, v163.toNat, 2, 2]
def k0_off22 (k0_t1 : Fin k0_t1_loop.trips) : Fin 4 → Nat :=
  let c0_169 : Index := 0#32
  let c0_i32 : BitVec 32 := 0#32
  let c1_i32 : BitVec 32 := 1#32
  let arg8 : BitVec 32 := Scf.iv c0_i32 c1_i32 k0_t1
  let v170 : Index := Scalar.indexCast arg8
  let c2_170 : Index := 2#32
  let c3_171 : Index := 3#32
  ![0, v170.toNat, 2, 3]
def k0_off23 (k0_t1 : Fin k0_t1_loop.trips) : Fin 4 → Nat :=
  let c0_176 : Index := 0#32
  let c0_i32 : BitVec 32 := 0#32
  let c1_i32 : BitVec 32 := 1#32
  let arg8 : BitVec 32 := Scf.iv c0_i32 c1_i32 k0_t1
  let v177 : Index := Scalar.indexCast arg8
  let c2_177 : Index := 2#32
  let c4_178 : Index := 4#32
  ![0, v177.toNat, 2, 4]
def k0_off24 (k0_t1 : Fin k0_t1_loop.trips) : Fin 4 → Nat :=
  let c0_183 : Index := 0#32
  let c0_i32 : BitVec 32 := 0#32
  let c1_i32 : BitVec 32 := 1#32
  let arg8 : BitVec 32 := Scf.iv c0_i32 c1_i32 k0_t1
  let v184 : Index := Scalar.indexCast arg8
  let c2_184 : Index := 2#32
  let c5_185 : Index := 5#32
  ![0, v184.toNat, 2, 5]
def k0_off25 (k0_t1 : Fin k0_t1_loop.trips) : Fin 4 → Nat :=
  let c0_190 : Index := 0#32
  let c0_i32 : BitVec 32 := 0#32
  let c1_i32 : BitVec 32 := 1#32
  let arg8 : BitVec 32 := Scf.iv c0_i32 c1_i32 k0_t1
  let v191 : Index := Scalar.indexCast arg8
  let c2_191 : Index := 2#32
  let c6_192 : Index := 6#32
  ![0, v191.toNat, 2, 6]
def k0_off26 (k0_t1 : Fin k0_t1_loop.trips) : Fin 4 → Nat :=
  let c0_197 : Index := 0#32
  let c0_i32 : BitVec 32 := 0#32
  let c1_i32 : BitVec 32 := 1#32
  let arg8 : BitVec 32 := Scf.iv c0_i32 c1_i32 k0_t1
  let v198 : Index := Scalar.indexCast arg8
  let c2_198 : Index := 2#32
  let c7_199 : Index := 7#32
  ![0, v198.toNat, 2, 7]
def k0_off27 (k0_t1 : Fin k0_t1_loop.trips) : Fin 4 → Nat :=
  let c0_204 : Index := 0#32
  let c0_i32 : BitVec 32 := 0#32
  let c1_i32 : BitVec 32 := 1#32
  let arg8 : BitVec 32 := Scf.iv c0_i32 c1_i32 k0_t1
  let v205 : Index := Scalar.indexCast arg8
  let c2_205 : Index := 2#32
  let c8_206 : Index := 8#32
  ![0, v205.toNat, 2, 8]
def k0_off28 (k0_t1 : Fin k0_t1_loop.trips) : Fin 4 → Nat :=
  let c0_211 : Index := 0#32
  let c0_i32 : BitVec 32 := 0#32
  let c1_i32 : BitVec 32 := 1#32
  let arg8 : BitVec 32 := Scf.iv c0_i32 c1_i32 k0_t1
  let v212 : Index := Scalar.indexCast arg8
  let c3_212 : Index := 3#32
  let c0_213 : Index := 0#32
  ![0, v212.toNat, 3, 0]
def k0_off29 (k0_t1 : Fin k0_t1_loop.trips) : Fin 4 → Nat :=
  let c0_218 : Index := 0#32
  let c0_i32 : BitVec 32 := 0#32
  let c1_i32 : BitVec 32 := 1#32
  let arg8 : BitVec 32 := Scf.iv c0_i32 c1_i32 k0_t1
  let v219 : Index := Scalar.indexCast arg8
  let c3_219 : Index := 3#32
  let c1_220 : Index := 1#32
  ![0, v219.toNat, 3, 1]
def k0_off30 (k0_t1 : Fin k0_t1_loop.trips) : Fin 4 → Nat :=
  let c0_225 : Index := 0#32
  let c0_i32 : BitVec 32 := 0#32
  let c1_i32 : BitVec 32 := 1#32
  let arg8 : BitVec 32 := Scf.iv c0_i32 c1_i32 k0_t1
  let v226 : Index := Scalar.indexCast arg8
  let c3_226 : Index := 3#32
  let c2_227 : Index := 2#32
  ![0, v226.toNat, 3, 2]
def k0_off31 (k0_t1 : Fin k0_t1_loop.trips) : Fin 4 → Nat :=
  let c0_232 : Index := 0#32
  let c0_i32 : BitVec 32 := 0#32
  let c1_i32 : BitVec 32 := 1#32
  let arg8 : BitVec 32 := Scf.iv c0_i32 c1_i32 k0_t1
  let v233 : Index := Scalar.indexCast arg8
  let c3_233 : Index := 3#32
  let c3_234 : Index := 3#32
  ![0, v233.toNat, 3, 3]
def k0_off32 (k0_t1 : Fin k0_t1_loop.trips) : Fin 4 → Nat :=
  let c0_239 : Index := 0#32
  let c0_i32 : BitVec 32 := 0#32
  let c1_i32 : BitVec 32 := 1#32
  let arg8 : BitVec 32 := Scf.iv c0_i32 c1_i32 k0_t1
  let v240 : Index := Scalar.indexCast arg8
  let c3_240 : Index := 3#32
  let c4_241 : Index := 4#32
  ![0, v240.toNat, 3, 4]
def k0_off33 (k0_t1 : Fin k0_t1_loop.trips) : Fin 4 → Nat :=
  let c0_246 : Index := 0#32
  let c0_i32 : BitVec 32 := 0#32
  let c1_i32 : BitVec 32 := 1#32
  let arg8 : BitVec 32 := Scf.iv c0_i32 c1_i32 k0_t1
  let v247 : Index := Scalar.indexCast arg8
  let c3_247 : Index := 3#32
  let c5_248 : Index := 5#32
  ![0, v247.toNat, 3, 5]
def k0_off34 (k0_t1 : Fin k0_t1_loop.trips) : Fin 4 → Nat :=
  let c0_253 : Index := 0#32
  let c0_i32 : BitVec 32 := 0#32
  let c1_i32 : BitVec 32 := 1#32
  let arg8 : BitVec 32 := Scf.iv c0_i32 c1_i32 k0_t1
  let v254 : Index := Scalar.indexCast arg8
  let c3_254 : Index := 3#32
  let c6_255 : Index := 6#32
  ![0, v254.toNat, 3, 6]
def k0_off35 (k0_t1 : Fin k0_t1_loop.trips) : Fin 4 → Nat :=
  let c0_260 : Index := 0#32
  let c0_i32 : BitVec 32 := 0#32
  let c1_i32 : BitVec 32 := 1#32
  let arg8 : BitVec 32 := Scf.iv c0_i32 c1_i32 k0_t1
  let v261 : Index := Scalar.indexCast arg8
  let c3_261 : Index := 3#32
  let c7_262 : Index := 7#32
  ![0, v261.toNat, 3, 7]
def k0_off36 (k0_t1 : Fin k0_t1_loop.trips) : Fin 4 → Nat :=
  let c0_267 : Index := 0#32
  let c0_i32 : BitVec 32 := 0#32
  let c1_i32 : BitVec 32 := 1#32
  let arg8 : BitVec 32 := Scf.iv c0_i32 c1_i32 k0_t1
  let v268 : Index := Scalar.indexCast arg8
  let c3_268 : Index := 3#32
  let c8_269 : Index := 8#32
  ![0, v268.toNat, 3, 8]
def k0_off37 (k0_t1 : Fin k0_t1_loop.trips) : Fin 4 → Nat :=
  let c0_274 : Index := 0#32
  let c0_i32 : BitVec 32 := 0#32
  let c1_i32 : BitVec 32 := 1#32
  let arg8 : BitVec 32 := Scf.iv c0_i32 c1_i32 k0_t1
  let v275 : Index := Scalar.indexCast arg8
  let c4_275 : Index := 4#32
  let c0_276 : Index := 0#32
  ![0, v275.toNat, 4, 0]
def k0_off38 (k0_t1 : Fin k0_t1_loop.trips) : Fin 4 → Nat :=
  let c0_281 : Index := 0#32
  let c0_i32 : BitVec 32 := 0#32
  let c1_i32 : BitVec 32 := 1#32
  let arg8 : BitVec 32 := Scf.iv c0_i32 c1_i32 k0_t1
  let v282 : Index := Scalar.indexCast arg8
  let c4_282 : Index := 4#32
  let c1_283 : Index := 1#32
  ![0, v282.toNat, 4, 1]
def k0_off39 (k0_t1 : Fin k0_t1_loop.trips) : Fin 4 → Nat :=
  let c0_288 : Index := 0#32
  let c0_i32 : BitVec 32 := 0#32
  let c1_i32 : BitVec 32 := 1#32
  let arg8 : BitVec 32 := Scf.iv c0_i32 c1_i32 k0_t1
  let v289 : Index := Scalar.indexCast arg8
  let c4_289 : Index := 4#32
  let c2_290 : Index := 2#32
  ![0, v289.toNat, 4, 2]
def k0_off40 (k0_t1 : Fin k0_t1_loop.trips) : Fin 4 → Nat :=
  let c0_295 : Index := 0#32
  let c0_i32 : BitVec 32 := 0#32
  let c1_i32 : BitVec 32 := 1#32
  let arg8 : BitVec 32 := Scf.iv c0_i32 c1_i32 k0_t1
  let v296 : Index := Scalar.indexCast arg8
  let c4_296 : Index := 4#32
  let c3_297 : Index := 3#32
  ![0, v296.toNat, 4, 3]
def k0_off41 (k0_t1 : Fin k0_t1_loop.trips) : Fin 4 → Nat :=
  let c0_302 : Index := 0#32
  let c0_i32 : BitVec 32 := 0#32
  let c1_i32 : BitVec 32 := 1#32
  let arg8 : BitVec 32 := Scf.iv c0_i32 c1_i32 k0_t1
  let v303 : Index := Scalar.indexCast arg8
  let c4_303 : Index := 4#32
  let c4_304 : Index := 4#32
  ![0, v303.toNat, 4, 4]
def k0_off42 (k0_t1 : Fin k0_t1_loop.trips) : Fin 4 → Nat :=
  let c0_309 : Index := 0#32
  let c0_i32 : BitVec 32 := 0#32
  let c1_i32 : BitVec 32 := 1#32
  let arg8 : BitVec 32 := Scf.iv c0_i32 c1_i32 k0_t1
  let v310 : Index := Scalar.indexCast arg8
  let c4_310 : Index := 4#32
  let c5_311 : Index := 5#32
  ![0, v310.toNat, 4, 5]
def k0_off43 (k0_t1 : Fin k0_t1_loop.trips) : Fin 4 → Nat :=
  let c0_316 : Index := 0#32
  let c0_i32 : BitVec 32 := 0#32
  let c1_i32 : BitVec 32 := 1#32
  let arg8 : BitVec 32 := Scf.iv c0_i32 c1_i32 k0_t1
  let v317 : Index := Scalar.indexCast arg8
  let c4_317 : Index := 4#32
  let c6_318 : Index := 6#32
  ![0, v317.toNat, 4, 6]
def k0_off44 (k0_t1 : Fin k0_t1_loop.trips) : Fin 4 → Nat :=
  let c0_323 : Index := 0#32
  let c0_i32 : BitVec 32 := 0#32
  let c1_i32 : BitVec 32 := 1#32
  let arg8 : BitVec 32 := Scf.iv c0_i32 c1_i32 k0_t1
  let v324 : Index := Scalar.indexCast arg8
  let c4_324 : Index := 4#32
  let c7_325 : Index := 7#32
  ![0, v324.toNat, 4, 7]
def k0_off45 (k0_t1 : Fin k0_t1_loop.trips) : Fin 4 → Nat :=
  let c0_330 : Index := 0#32
  let c0_i32 : BitVec 32 := 0#32
  let c1_i32 : BitVec 32 := 1#32
  let arg8 : BitVec 32 := Scf.iv c0_i32 c1_i32 k0_t1
  let v331 : Index := Scalar.indexCast arg8
  let c4_331 : Index := 4#32
  let c8_332 : Index := 8#32
  ![0, v331.toNat, 4, 8]
def k0_off46 (k0_t1 : Fin k0_t1_loop.trips) : Fin 4 → Nat :=
  let c0_337 : Index := 0#32
  let c0_i32 : BitVec 32 := 0#32
  let c1_i32 : BitVec 32 := 1#32
  let arg8 : BitVec 32 := Scf.iv c0_i32 c1_i32 k0_t1
  let v338 : Index := Scalar.indexCast arg8
  let c5_338 : Index := 5#32
  let c0_339 : Index := 0#32
  ![0, v338.toNat, 5, 0]
def k0_off47 (k0_t1 : Fin k0_t1_loop.trips) : Fin 4 → Nat :=
  let c0_344 : Index := 0#32
  let c0_i32 : BitVec 32 := 0#32
  let c1_i32 : BitVec 32 := 1#32
  let arg8 : BitVec 32 := Scf.iv c0_i32 c1_i32 k0_t1
  let v345 : Index := Scalar.indexCast arg8
  let c5_345 : Index := 5#32
  let c1_346 : Index := 1#32
  ![0, v345.toNat, 5, 1]
def k0_off48 (k0_t1 : Fin k0_t1_loop.trips) : Fin 4 → Nat :=
  let c0_351 : Index := 0#32
  let c0_i32 : BitVec 32 := 0#32
  let c1_i32 : BitVec 32 := 1#32
  let arg8 : BitVec 32 := Scf.iv c0_i32 c1_i32 k0_t1
  let v352 : Index := Scalar.indexCast arg8
  let c5_352 : Index := 5#32
  let c2_353 : Index := 2#32
  ![0, v352.toNat, 5, 2]
def k0_off49 (k0_t1 : Fin k0_t1_loop.trips) : Fin 4 → Nat :=
  let c0_358 : Index := 0#32
  let c0_i32 : BitVec 32 := 0#32
  let c1_i32 : BitVec 32 := 1#32
  let arg8 : BitVec 32 := Scf.iv c0_i32 c1_i32 k0_t1
  let v359 : Index := Scalar.indexCast arg8
  let c5_359 : Index := 5#32
  let c3_360 : Index := 3#32
  ![0, v359.toNat, 5, 3]
def k0_off50 (k0_t1 : Fin k0_t1_loop.trips) : Fin 4 → Nat :=
  let c0_365 : Index := 0#32
  let c0_i32 : BitVec 32 := 0#32
  let c1_i32 : BitVec 32 := 1#32
  let arg8 : BitVec 32 := Scf.iv c0_i32 c1_i32 k0_t1
  let v366 : Index := Scalar.indexCast arg8
  let c5_366 : Index := 5#32
  let c4_367 : Index := 4#32
  ![0, v366.toNat, 5, 4]
def k0_off51 (k0_t1 : Fin k0_t1_loop.trips) : Fin 4 → Nat :=
  let c0_372 : Index := 0#32
  let c0_i32 : BitVec 32 := 0#32
  let c1_i32 : BitVec 32 := 1#32
  let arg8 : BitVec 32 := Scf.iv c0_i32 c1_i32 k0_t1
  let v373 : Index := Scalar.indexCast arg8
  let c5_373 : Index := 5#32
  let c5_374 : Index := 5#32
  ![0, v373.toNat, 5, 5]
def k0_off52 (k0_t1 : Fin k0_t1_loop.trips) : Fin 4 → Nat :=
  let c0_379 : Index := 0#32
  let c0_i32 : BitVec 32 := 0#32
  let c1_i32 : BitVec 32 := 1#32
  let arg8 : BitVec 32 := Scf.iv c0_i32 c1_i32 k0_t1
  let v380 : Index := Scalar.indexCast arg8
  let c5_380 : Index := 5#32
  let c6_381 : Index := 6#32
  ![0, v380.toNat, 5, 6]
def k0_off53 (k0_t1 : Fin k0_t1_loop.trips) : Fin 4 → Nat :=
  let c0_386 : Index := 0#32
  let c0_i32 : BitVec 32 := 0#32
  let c1_i32 : BitVec 32 := 1#32
  let arg8 : BitVec 32 := Scf.iv c0_i32 c1_i32 k0_t1
  let v387 : Index := Scalar.indexCast arg8
  let c5_387 : Index := 5#32
  let c7_388 : Index := 7#32
  ![0, v387.toNat, 5, 7]
def k0_off54 (k0_t1 : Fin k0_t1_loop.trips) : Fin 4 → Nat :=
  let c0_393 : Index := 0#32
  let c0_i32 : BitVec 32 := 0#32
  let c1_i32 : BitVec 32 := 1#32
  let arg8 : BitVec 32 := Scf.iv c0_i32 c1_i32 k0_t1
  let v394 : Index := Scalar.indexCast arg8
  let c5_394 : Index := 5#32
  let c8_395 : Index := 8#32
  ![0, v394.toNat, 5, 8]
def k0_off55 (k0_t1 : Fin k0_t1_loop.trips) : Fin 4 → Nat :=
  let c0_400 : Index := 0#32
  let c0_i32 : BitVec 32 := 0#32
  let c1_i32 : BitVec 32 := 1#32
  let arg8 : BitVec 32 := Scf.iv c0_i32 c1_i32 k0_t1
  let v401 : Index := Scalar.indexCast arg8
  let c6_401 : Index := 6#32
  let c0_402 : Index := 0#32
  ![0, v401.toNat, 6, 0]
def k0_off56 (k0_t1 : Fin k0_t1_loop.trips) : Fin 4 → Nat :=
  let c0_407 : Index := 0#32
  let c0_i32 : BitVec 32 := 0#32
  let c1_i32 : BitVec 32 := 1#32
  let arg8 : BitVec 32 := Scf.iv c0_i32 c1_i32 k0_t1
  let v408 : Index := Scalar.indexCast arg8
  let c6_408 : Index := 6#32
  let c1_409 : Index := 1#32
  ![0, v408.toNat, 6, 1]
def k0_off57 (k0_t1 : Fin k0_t1_loop.trips) : Fin 4 → Nat :=
  let c0_414 : Index := 0#32
  let c0_i32 : BitVec 32 := 0#32
  let c1_i32 : BitVec 32 := 1#32
  let arg8 : BitVec 32 := Scf.iv c0_i32 c1_i32 k0_t1
  let v415 : Index := Scalar.indexCast arg8
  let c6_415 : Index := 6#32
  let c2_416 : Index := 2#32
  ![0, v415.toNat, 6, 2]
def k0_off58 (k0_t1 : Fin k0_t1_loop.trips) : Fin 4 → Nat :=
  let c0_421 : Index := 0#32
  let c0_i32 : BitVec 32 := 0#32
  let c1_i32 : BitVec 32 := 1#32
  let arg8 : BitVec 32 := Scf.iv c0_i32 c1_i32 k0_t1
  let v422 : Index := Scalar.indexCast arg8
  let c6_422 : Index := 6#32
  let c3_423 : Index := 3#32
  ![0, v422.toNat, 6, 3]
def k0_off59 (k0_t1 : Fin k0_t1_loop.trips) : Fin 4 → Nat :=
  let c0_428 : Index := 0#32
  let c0_i32 : BitVec 32 := 0#32
  let c1_i32 : BitVec 32 := 1#32
  let arg8 : BitVec 32 := Scf.iv c0_i32 c1_i32 k0_t1
  let v429 : Index := Scalar.indexCast arg8
  let c6_429 : Index := 6#32
  let c4_430 : Index := 4#32
  ![0, v429.toNat, 6, 4]
def k0_off60 (k0_t1 : Fin k0_t1_loop.trips) : Fin 4 → Nat :=
  let c0_435 : Index := 0#32
  let c0_i32 : BitVec 32 := 0#32
  let c1_i32 : BitVec 32 := 1#32
  let arg8 : BitVec 32 := Scf.iv c0_i32 c1_i32 k0_t1
  let v436 : Index := Scalar.indexCast arg8
  let c6_436 : Index := 6#32
  let c5_437 : Index := 5#32
  ![0, v436.toNat, 6, 5]
def k0_off61 (k0_t1 : Fin k0_t1_loop.trips) : Fin 4 → Nat :=
  let c0_442 : Index := 0#32
  let c0_i32 : BitVec 32 := 0#32
  let c1_i32 : BitVec 32 := 1#32
  let arg8 : BitVec 32 := Scf.iv c0_i32 c1_i32 k0_t1
  let v443 : Index := Scalar.indexCast arg8
  let c6_443 : Index := 6#32
  let c6_444 : Index := 6#32
  ![0, v443.toNat, 6, 6]
def k0_off62 (k0_t1 : Fin k0_t1_loop.trips) : Fin 4 → Nat :=
  let c0_449 : Index := 0#32
  let c0_i32 : BitVec 32 := 0#32
  let c1_i32 : BitVec 32 := 1#32
  let arg8 : BitVec 32 := Scf.iv c0_i32 c1_i32 k0_t1
  let v450 : Index := Scalar.indexCast arg8
  let c6_450 : Index := 6#32
  let c7_451 : Index := 7#32
  ![0, v450.toNat, 6, 7]
def k0_off63 (k0_t1 : Fin k0_t1_loop.trips) : Fin 4 → Nat :=
  let c0_456 : Index := 0#32
  let c0_i32 : BitVec 32 := 0#32
  let c1_i32 : BitVec 32 := 1#32
  let arg8 : BitVec 32 := Scf.iv c0_i32 c1_i32 k0_t1
  let v457 : Index := Scalar.indexCast arg8
  let c6_457 : Index := 6#32
  let c8_458 : Index := 8#32
  ![0, v457.toNat, 6, 8]
def k0_off64 (k0_t1 : Fin k0_t1_loop.trips) : Fin 4 → Nat :=
  let c0_463 : Index := 0#32
  let c0_i32 : BitVec 32 := 0#32
  let c1_i32 : BitVec 32 := 1#32
  let arg8 : BitVec 32 := Scf.iv c0_i32 c1_i32 k0_t1
  let v464 : Index := Scalar.indexCast arg8
  let c7_464 : Index := 7#32
  let c0_465 : Index := 0#32
  ![0, v464.toNat, 7, 0]
def k0_off65 (k0_t1 : Fin k0_t1_loop.trips) : Fin 4 → Nat :=
  let c0_470 : Index := 0#32
  let c0_i32 : BitVec 32 := 0#32
  let c1_i32 : BitVec 32 := 1#32
  let arg8 : BitVec 32 := Scf.iv c0_i32 c1_i32 k0_t1
  let v471 : Index := Scalar.indexCast arg8
  let c7_471 : Index := 7#32
  let c1_472 : Index := 1#32
  ![0, v471.toNat, 7, 1]
def k0_off66 (k0_t1 : Fin k0_t1_loop.trips) : Fin 4 → Nat :=
  let c0_477 : Index := 0#32
  let c0_i32 : BitVec 32 := 0#32
  let c1_i32 : BitVec 32 := 1#32
  let arg8 : BitVec 32 := Scf.iv c0_i32 c1_i32 k0_t1
  let v478 : Index := Scalar.indexCast arg8
  let c7_478 : Index := 7#32
  let c2_479 : Index := 2#32
  ![0, v478.toNat, 7, 2]
def k0_off67 (k0_t1 : Fin k0_t1_loop.trips) : Fin 4 → Nat :=
  let c0_484 : Index := 0#32
  let c0_i32 : BitVec 32 := 0#32
  let c1_i32 : BitVec 32 := 1#32
  let arg8 : BitVec 32 := Scf.iv c0_i32 c1_i32 k0_t1
  let v485 : Index := Scalar.indexCast arg8
  let c7_485 : Index := 7#32
  let c3_486 : Index := 3#32
  ![0, v485.toNat, 7, 3]
def k0_off68 (k0_t1 : Fin k0_t1_loop.trips) : Fin 4 → Nat :=
  let c0_491 : Index := 0#32
  let c0_i32 : BitVec 32 := 0#32
  let c1_i32 : BitVec 32 := 1#32
  let arg8 : BitVec 32 := Scf.iv c0_i32 c1_i32 k0_t1
  let v492 : Index := Scalar.indexCast arg8
  let c7_492 : Index := 7#32
  let c4_493 : Index := 4#32
  ![0, v492.toNat, 7, 4]
def k0_off69 (k0_t1 : Fin k0_t1_loop.trips) : Fin 4 → Nat :=
  let c0_498 : Index := 0#32
  let c0_i32 : BitVec 32 := 0#32
  let c1_i32 : BitVec 32 := 1#32
  let arg8 : BitVec 32 := Scf.iv c0_i32 c1_i32 k0_t1
  let v499 : Index := Scalar.indexCast arg8
  let c7_499 : Index := 7#32
  let c5_500 : Index := 5#32
  ![0, v499.toNat, 7, 5]
def k0_off70 (k0_t1 : Fin k0_t1_loop.trips) : Fin 4 → Nat :=
  let c0_505 : Index := 0#32
  let c0_i32 : BitVec 32 := 0#32
  let c1_i32 : BitVec 32 := 1#32
  let arg8 : BitVec 32 := Scf.iv c0_i32 c1_i32 k0_t1
  let v506 : Index := Scalar.indexCast arg8
  let c7_506 : Index := 7#32
  let c6_507 : Index := 6#32
  ![0, v506.toNat, 7, 6]
def k0_off71 (k0_t1 : Fin k0_t1_loop.trips) : Fin 4 → Nat :=
  let c0_512 : Index := 0#32
  let c0_i32 : BitVec 32 := 0#32
  let c1_i32 : BitVec 32 := 1#32
  let arg8 : BitVec 32 := Scf.iv c0_i32 c1_i32 k0_t1
  let v513 : Index := Scalar.indexCast arg8
  let c7_513 : Index := 7#32
  let c7_514 : Index := 7#32
  ![0, v513.toNat, 7, 7]
def k0_off72 (k0_t1 : Fin k0_t1_loop.trips) : Fin 4 → Nat :=
  let c0_519 : Index := 0#32
  let c0_i32 : BitVec 32 := 0#32
  let c1_i32 : BitVec 32 := 1#32
  let arg8 : BitVec 32 := Scf.iv c0_i32 c1_i32 k0_t1
  let v520 : Index := Scalar.indexCast arg8
  let c7_520 : Index := 7#32
  let c8_521 : Index := 8#32
  ![0, v520.toNat, 7, 8]
def k0_off73 (k0_t1 : Fin k0_t1_loop.trips) : Fin 4 → Nat :=
  let c0_526 : Index := 0#32
  let c0_i32 : BitVec 32 := 0#32
  let c1_i32 : BitVec 32 := 1#32
  let arg8 : BitVec 32 := Scf.iv c0_i32 c1_i32 k0_t1
  let v527 : Index := Scalar.indexCast arg8
  let c8_527 : Index := 8#32
  let c0_528 : Index := 0#32
  ![0, v527.toNat, 8, 0]
def k0_off74 (k0_t1 : Fin k0_t1_loop.trips) : Fin 4 → Nat :=
  let c0_533 : Index := 0#32
  let c0_i32 : BitVec 32 := 0#32
  let c1_i32 : BitVec 32 := 1#32
  let arg8 : BitVec 32 := Scf.iv c0_i32 c1_i32 k0_t1
  let v534 : Index := Scalar.indexCast arg8
  let c8_534 : Index := 8#32
  let c1_535 : Index := 1#32
  ![0, v534.toNat, 8, 1]
def k0_off75 (k0_t1 : Fin k0_t1_loop.trips) : Fin 4 → Nat :=
  let c0_540 : Index := 0#32
  let c0_i32 : BitVec 32 := 0#32
  let c1_i32 : BitVec 32 := 1#32
  let arg8 : BitVec 32 := Scf.iv c0_i32 c1_i32 k0_t1
  let v541 : Index := Scalar.indexCast arg8
  let c8_541 : Index := 8#32
  let c2_542 : Index := 2#32
  ![0, v541.toNat, 8, 2]
def k0_off76 (k0_t1 : Fin k0_t1_loop.trips) : Fin 4 → Nat :=
  let c0_547 : Index := 0#32
  let c0_i32 : BitVec 32 := 0#32
  let c1_i32 : BitVec 32 := 1#32
  let arg8 : BitVec 32 := Scf.iv c0_i32 c1_i32 k0_t1
  let v548 : Index := Scalar.indexCast arg8
  let c8_548 : Index := 8#32
  let c3_549 : Index := 3#32
  ![0, v548.toNat, 8, 3]
def k0_off77 (k0_t1 : Fin k0_t1_loop.trips) : Fin 4 → Nat :=
  let c0_554 : Index := 0#32
  let c0_i32 : BitVec 32 := 0#32
  let c1_i32 : BitVec 32 := 1#32
  let arg8 : BitVec 32 := Scf.iv c0_i32 c1_i32 k0_t1
  let v555 : Index := Scalar.indexCast arg8
  let c8_555 : Index := 8#32
  let c4_556 : Index := 4#32
  ![0, v555.toNat, 8, 4]
def k0_off78 (k0_t1 : Fin k0_t1_loop.trips) : Fin 4 → Nat :=
  let c0_561 : Index := 0#32
  let c0_i32 : BitVec 32 := 0#32
  let c1_i32 : BitVec 32 := 1#32
  let arg8 : BitVec 32 := Scf.iv c0_i32 c1_i32 k0_t1
  let v562 : Index := Scalar.indexCast arg8
  let c8_562 : Index := 8#32
  let c5_563 : Index := 5#32
  ![0, v562.toNat, 8, 5]
def k0_off79 (k0_t1 : Fin k0_t1_loop.trips) : Fin 4 → Nat :=
  let c0_568 : Index := 0#32
  let c0_i32 : BitVec 32 := 0#32
  let c1_i32 : BitVec 32 := 1#32
  let arg8 : BitVec 32 := Scf.iv c0_i32 c1_i32 k0_t1
  let v569 : Index := Scalar.indexCast arg8
  let c8_569 : Index := 8#32
  let c6_570 : Index := 6#32
  ![0, v569.toNat, 8, 6]
def k0_off80 (k0_t1 : Fin k0_t1_loop.trips) : Fin 4 → Nat :=
  let c0_575 : Index := 0#32
  let c0_i32 : BitVec 32 := 0#32
  let c1_i32 : BitVec 32 := 1#32
  let arg8 : BitVec 32 := Scf.iv c0_i32 c1_i32 k0_t1
  let v576 : Index := Scalar.indexCast arg8
  let c8_576 : Index := 8#32
  let c7_577 : Index := 7#32
  ![0, v576.toNat, 8, 7]
def k0_off81 (k0_t1 : Fin k0_t1_loop.trips) : Fin 4 → Nat :=
  let c0_582 : Index := 0#32
  let c0_i32 : BitVec 32 := 0#32
  let c1_i32 : BitVec 32 := 1#32
  let arg8 : BitVec 32 := Scf.iv c0_i32 c1_i32 k0_t1
  let v583 : Index := Scalar.indexCast arg8
  let c8_583 : Index := 8#32
  let c8_584 : Index := 8#32
  ![0, v583.toNat, 8, 8]
def k0_off82 (k0_t1 : Fin k0_t1_loop.trips) : Fin 3 → Nat :=
  let c0_i32 : BitVec 32 := 0#32
  let c1_i32 : BitVec 32 := 1#32
  let arg8 : BitVec 32 := Scf.iv c0_i32 c1_i32 k0_t1
  let v590 : Index := Scalar.indexCast arg8
  let c0_589 : Index := 0#32
  let c0_590 : Index := 0#32
  ![v590.toNat, 0, 0]
def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x81x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x136x136 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16x1x128x128x9x9_S16x1x128x128x81 : S16x1x128x128x9x9.ShapeCasts S16x1x128x128x81
  transposes_S16x1x128x128x81_S16x1x81x128x128_0_1_4_2_3 : S16x1x128x128x81.Transposes [0, 1, 4, 2, 3] S16x1x81x128x128
  h_S1x1x128x128 : 0 < S1x1x128x128.numel
  shapeCasts_S1x1x128x128_S128x128 : S1x1x128x128.ShapeCasts S128x128
  inb_S1x1x81x128x128_S1x1x1x128x128_0_0_0_0_0 : ∀ a, (![0, 0, 0, 0, 0] : Fin 5 → Nat) a + S1x1x1x128x128.size a ≤ S1x1x81x128x128.size a
  h_S1x1x1x128x128 : 0 < S1x1x1x128x128.numel
  shapeCasts_S1x1x1x128x128_S128x128 : S1x1x1x128x128.ShapeCasts S128x128
  inb_S1x1x81x128x128_S1x1x1x128x128_0_0_1_0_0 : ∀ a, (![0, 0, 1, 0, 0] : Fin 5 → Nat) a + S1x1x1x128x128.size a ≤ S1x1x81x128x128.size a
  inb_S1x1x81x128x128_S1x1x1x128x128_0_0_2_0_0 : ∀ a, (![0, 0, 2, 0, 0] : Fin 5 → Nat) a + S1x1x1x128x128.size a ≤ S1x1x81x128x128.size a
  inb_S1x1x81x128x128_S1x1x1x128x128_0_0_3_0_0 : ∀ a, (![0, 0, 3, 0, 0] : Fin 5 → Nat) a + S1x1x1x128x128.size a ≤ S1x1x81x128x128.size a
  inb_S1x1x81x128x128_S1x1x1x128x128_0_0_4_0_0 : ∀ a, (![0, 0, 4, 0, 0] : Fin 5 → Nat) a + S1x1x1x128x128.size a ≤ S1x1x81x128x128.size a
  inb_S1x1x81x128x128_S1x1x1x128x128_0_0_5_0_0 : ∀ a, (![0, 0, 5, 0, 0] : Fin 5 → Nat) a + S1x1x1x128x128.size a ≤ S1x1x81x128x128.size a
  inb_S1x1x81x128x128_S1x1x1x128x128_0_0_6_0_0 : ∀ a, (![0, 0, 6, 0, 0] : Fin 5 → Nat) a + S1x1x1x128x128.size a ≤ S1x1x81x128x128.size a
  inb_S1x1x81x128x128_S1x1x1x128x128_0_0_7_0_0 : ∀ a, (![0, 0, 7, 0, 0] : Fin 5 → Nat) a + S1x1x1x128x128.size a ≤ S1x1x81x128x128.size a
  inb_S1x1x81x128x128_S1x1x1x128x128_0_0_8_0_0 : ∀ a, (![0, 0, 8, 0, 0] : Fin 5 → Nat) a + S1x1x1x128x128.size a ≤ S1x1x81x128x128.size a
  inb_S1x1x81x128x128_S1x1x1x128x128_0_0_9_0_0 : ∀ a, (![0, 0, 9, 0, 0] : Fin 5 → Nat) a + S1x1x1x128x128.size a ≤ S1x1x81x128x128.size a
  inb_S1x1x81x128x128_S1x1x1x128x128_0_0_10_0_0 : ∀ a, (![0, 0, 10, 0, 0] : Fin 5 → Nat) a + S1x1x1x128x128.size a ≤ S1x1x81x128x128.size a
  inb_S1x1x81x128x128_S1x1x1x128x128_0_0_11_0_0 : ∀ a, (![0, 0, 11, 0, 0] : Fin 5 → Nat) a + S1x1x1x128x128.size a ≤ S1x1x81x128x128.size a
  inb_S1x1x81x128x128_S1x1x1x128x128_0_0_12_0_0 : ∀ a, (![0, 0, 12, 0, 0] : Fin 5 → Nat) a + S1x1x1x128x128.size a ≤ S1x1x81x128x128.size a
  inb_S1x1x81x128x128_S1x1x1x128x128_0_0_13_0_0 : ∀ a, (![0, 0, 13, 0, 0] : Fin 5 → Nat) a + S1x1x1x128x128.size a ≤ S1x1x81x128x128.size a
  inb_S1x1x81x128x128_S1x1x1x128x128_0_0_14_0_0 : ∀ a, (![0, 0, 14, 0, 0] : Fin 5 → Nat) a + S1x1x1x128x128.size a ≤ S1x1x81x128x128.size a
  inb_S1x1x81x128x128_S1x1x1x128x128_0_0_15_0_0 : ∀ a, (![0, 0, 15, 0, 0] : Fin 5 → Nat) a + S1x1x1x128x128.size a ≤ S1x1x81x128x128.size a
  inb_S1x1x81x128x128_S1x1x1x128x128_0_0_16_0_0 : ∀ a, (![0, 0, 16, 0, 0] : Fin 5 → Nat) a + S1x1x1x128x128.size a ≤ S1x1x81x128x128.size a
  inb_S1x1x81x128x128_S1x1x1x128x128_0_0_17_0_0 : ∀ a, (![0, 0, 17, 0, 0] : Fin 5 → Nat) a + S1x1x1x128x128.size a ≤ S1x1x81x128x128.size a
  inb_S1x1x81x128x128_S1x1x1x128x128_0_0_18_0_0 : ∀ a, (![0, 0, 18, 0, 0] : Fin 5 → Nat) a + S1x1x1x128x128.size a ≤ S1x1x81x128x128.size a
  inb_S1x1x81x128x128_S1x1x1x128x128_0_0_19_0_0 : ∀ a, (![0, 0, 19, 0, 0] : Fin 5 → Nat) a + S1x1x1x128x128.size a ≤ S1x1x81x128x128.size a
  inb_S1x1x81x128x128_S1x1x1x128x128_0_0_20_0_0 : ∀ a, (![0, 0, 20, 0, 0] : Fin 5 → Nat) a + S1x1x1x128x128.size a ≤ S1x1x81x128x128.size a
  inb_S1x1x81x128x128_S1x1x1x128x128_0_0_21_0_0 : ∀ a, (![0, 0, 21, 0, 0] : Fin 5 → Nat) a + S1x1x1x128x128.size a ≤ S1x1x81x128x128.size a
  inb_S1x1x81x128x128_S1x1x1x128x128_0_0_22_0_0 : ∀ a, (![0, 0, 22, 0, 0] : Fin 5 → Nat) a + S1x1x1x128x128.size a ≤ S1x1x81x128x128.size a
  inb_S1x1x81x128x128_S1x1x1x128x128_0_0_23_0_0 : ∀ a, (![0, 0, 23, 0, 0] : Fin 5 → Nat) a + S1x1x1x128x128.size a ≤ S1x1x81x128x128.size a
  inb_S1x1x81x128x128_S1x1x1x128x128_0_0_24_0_0 : ∀ a, (![0, 0, 24, 0, 0] : Fin 5 → Nat) a + S1x1x1x128x128.size a ≤ S1x1x81x128x128.size a
  inb_S1x1x81x128x128_S1x1x1x128x128_0_0_25_0_0 : ∀ a, (![0, 0, 25, 0, 0] : Fin 5 → Nat) a + S1x1x1x128x128.size a ≤ S1x1x81x128x128.size a
  inb_S1x1x81x128x128_S1x1x1x128x128_0_0_26_0_0 : ∀ a, (![0, 0, 26, 0, 0] : Fin 5 → Nat) a + S1x1x1x128x128.size a ≤ S1x1x81x128x128.size a
  inb_S1x1x81x128x128_S1x1x1x128x128_0_0_27_0_0 : ∀ a, (![0, 0, 27, 0, 0] : Fin 5 → Nat) a + S1x1x1x128x128.size a ≤ S1x1x81x128x128.size a
  inb_S1x1x81x128x128_S1x1x1x128x128_0_0_28_0_0 : ∀ a, (![0, 0, 28, 0, 0] : Fin 5 → Nat) a + S1x1x1x128x128.size a ≤ S1x1x81x128x128.size a
  inb_S1x1x81x128x128_S1x1x1x128x128_0_0_29_0_0 : ∀ a, (![0, 0, 29, 0, 0] : Fin 5 → Nat) a + S1x1x1x128x128.size a ≤ S1x1x81x128x128.size a
  inb_S1x1x81x128x128_S1x1x1x128x128_0_0_30_0_0 : ∀ a, (![0, 0, 30, 0, 0] : Fin 5 → Nat) a + S1x1x1x128x128.size a ≤ S1x1x81x128x128.size a
  inb_S1x1x81x128x128_S1x1x1x128x128_0_0_31_0_0 : ∀ a, (![0, 0, 31, 0, 0] : Fin 5 → Nat) a + S1x1x1x128x128.size a ≤ S1x1x81x128x128.size a
  inb_S1x1x81x128x128_S1x1x1x128x128_0_0_32_0_0 : ∀ a, (![0, 0, 32, 0, 0] : Fin 5 → Nat) a + S1x1x1x128x128.size a ≤ S1x1x81x128x128.size a
  inb_S1x1x81x128x128_S1x1x1x128x128_0_0_33_0_0 : ∀ a, (![0, 0, 33, 0, 0] : Fin 5 → Nat) a + S1x1x1x128x128.size a ≤ S1x1x81x128x128.size a
  inb_S1x1x81x128x128_S1x1x1x128x128_0_0_34_0_0 : ∀ a, (![0, 0, 34, 0, 0] : Fin 5 → Nat) a + S1x1x1x128x128.size a ≤ S1x1x81x128x128.size a
  inb_S1x1x81x128x128_S1x1x1x128x128_0_0_35_0_0 : ∀ a, (![0, 0, 35, 0, 0] : Fin 5 → Nat) a + S1x1x1x128x128.size a ≤ S1x1x81x128x128.size a
  inb_S1x1x81x128x128_S1x1x1x128x128_0_0_36_0_0 : ∀ a, (![0, 0, 36, 0, 0] : Fin 5 → Nat) a + S1x1x1x128x128.size a ≤ S1x1x81x128x128.size a
  inb_S1x1x81x128x128_S1x1x1x128x128_0_0_37_0_0 : ∀ a, (![0, 0, 37, 0, 0] : Fin 5 → Nat) a + S1x1x1x128x128.size a ≤ S1x1x81x128x128.size a
  inb_S1x1x81x128x128_S1x1x1x128x128_0_0_38_0_0 : ∀ a, (![0, 0, 38, 0, 0] : Fin 5 → Nat) a + S1x1x1x128x128.size a ≤ S1x1x81x128x128.size a
  inb_S1x1x81x128x128_S1x1x1x128x128_0_0_39_0_0 : ∀ a, (![0, 0, 39, 0, 0] : Fin 5 → Nat) a + S1x1x1x128x128.size a ≤ S1x1x81x128x128.size a
  inb_S1x1x81x128x128_S1x1x1x128x128_0_0_40_0_0 : ∀ a, (![0, 0, 40, 0, 0] : Fin 5 → Nat) a + S1x1x1x128x128.size a ≤ S1x1x81x128x128.size a
  inb_S1x1x81x128x128_S1x1x1x128x128_0_0_41_0_0 : ∀ a, (![0, 0, 41, 0, 0] : Fin 5 → Nat) a + S1x1x1x128x128.size a ≤ S1x1x81x128x128.size a
  inb_S1x1x81x128x128_S1x1x1x128x128_0_0_42_0_0 : ∀ a, (![0, 0, 42, 0, 0] : Fin 5 → Nat) a + S1x1x1x128x128.size a ≤ S1x1x81x128x128.size a
  inb_S1x1x81x128x128_S1x1x1x128x128_0_0_43_0_0 : ∀ a, (![0, 0, 43, 0, 0] : Fin 5 → Nat) a + S1x1x1x128x128.size a ≤ S1x1x81x128x128.size a
  inb_S1x1x81x128x128_S1x1x1x128x128_0_0_44_0_0 : ∀ a, (![0, 0, 44, 0, 0] : Fin 5 → Nat) a + S1x1x1x128x128.size a ≤ S1x1x81x128x128.size a
  inb_S1x1x81x128x128_S1x1x1x128x128_0_0_45_0_0 : ∀ a, (![0, 0, 45, 0, 0] : Fin 5 → Nat) a + S1x1x1x128x128.size a ≤ S1x1x81x128x128.size a
  inb_S1x1x81x128x128_S1x1x1x128x128_0_0_46_0_0 : ∀ a, (![0, 0, 46, 0, 0] : Fin 5 → Nat) a + S1x1x1x128x128.size a ≤ S1x1x81x128x128.size a
  inb_S1x1x81x128x128_S1x1x1x128x128_0_0_47_0_0 : ∀ a, (![0, 0, 47, 0, 0] : Fin 5 → Nat) a + S1x1x1x128x128.size a ≤ S1x1x81x128x128.size a
  inb_S1x1x81x128x128_S1x1x1x128x128_0_0_48_0_0 : ∀ a, (![0, 0, 48, 0, 0] : Fin 5 → Nat) a + S1x1x1x128x128.size a ≤ S1x1x81x128x128.size a
  inb_S1x1x81x128x128_S1x1x1x128x128_0_0_49_0_0 : ∀ a, (![0, 0, 49, 0, 0] : Fin 5 → Nat) a + S1x1x1x128x128.size a ≤ S1x1x81x128x128.size a
  inb_S1x1x81x128x128_S1x1x1x128x128_0_0_50_0_0 : ∀ a, (![0, 0, 50, 0, 0] : Fin 5 → Nat) a + S1x1x1x128x128.size a ≤ S1x1x81x128x128.size a
  inb_S1x1x81x128x128_S1x1x1x128x128_0_0_51_0_0 : ∀ a, (![0, 0, 51, 0, 0] : Fin 5 → Nat) a + S1x1x1x128x128.size a ≤ S1x1x81x128x128.size a
  inb_S1x1x81x128x128_S1x1x1x128x128_0_0_52_0_0 : ∀ a, (![0, 0, 52, 0, 0] : Fin 5 → Nat) a + S1x1x1x128x128.size a ≤ S1x1x81x128x128.size a
  inb_S1x1x81x128x128_S1x1x1x128x128_0_0_53_0_0 : ∀ a, (![0, 0, 53, 0, 0] : Fin 5 → Nat) a + S1x1x1x128x128.size a ≤ S1x1x81x128x128.size a
  inb_S1x1x81x128x128_S1x1x1x128x128_0_0_54_0_0 : ∀ a, (![0, 0, 54, 0, 0] : Fin 5 → Nat) a + S1x1x1x128x128.size a ≤ S1x1x81x128x128.size a
  inb_S1x1x81x128x128_S1x1x1x128x128_0_0_55_0_0 : ∀ a, (![0, 0, 55, 0, 0] : Fin 5 → Nat) a + S1x1x1x128x128.size a ≤ S1x1x81x128x128.size a
  inb_S1x1x81x128x128_S1x1x1x128x128_0_0_56_0_0 : ∀ a, (![0, 0, 56, 0, 0] : Fin 5 → Nat) a + S1x1x1x128x128.size a ≤ S1x1x81x128x128.size a
  inb_S1x1x81x128x128_S1x1x1x128x128_0_0_57_0_0 : ∀ a, (![0, 0, 57, 0, 0] : Fin 5 → Nat) a + S1x1x1x128x128.size a ≤ S1x1x81x128x128.size a
  inb_S1x1x81x128x128_S1x1x1x128x128_0_0_58_0_0 : ∀ a, (![0, 0, 58, 0, 0] : Fin 5 → Nat) a + S1x1x1x128x128.size a ≤ S1x1x81x128x128.size a
  inb_S1x1x81x128x128_S1x1x1x128x128_0_0_59_0_0 : ∀ a, (![0, 0, 59, 0, 0] : Fin 5 → Nat) a + S1x1x1x128x128.size a ≤ S1x1x81x128x128.size a
  inb_S1x1x81x128x128_S1x1x1x128x128_0_0_60_0_0 : ∀ a, (![0, 0, 60, 0, 0] : Fin 5 → Nat) a + S1x1x1x128x128.size a ≤ S1x1x81x128x128.size a
  inb_S1x1x81x128x128_S1x1x1x128x128_0_0_61_0_0 : ∀ a, (![0, 0, 61, 0, 0] : Fin 5 → Nat) a + S1x1x1x128x128.size a ≤ S1x1x81x128x128.size a
  inb_S1x1x81x128x128_S1x1x1x128x128_0_0_62_0_0 : ∀ a, (![0, 0, 62, 0, 0] : Fin 5 → Nat) a + S1x1x1x128x128.size a ≤ S1x1x81x128x128.size a
  inb_S1x1x81x128x128_S1x1x1x128x128_0_0_63_0_0 : ∀ a, (![0, 0, 63, 0, 0] : Fin 5 → Nat) a + S1x1x1x128x128.size a ≤ S1x1x81x128x128.size a
  inb_S1x1x81x128x128_S1x1x1x128x128_0_0_64_0_0 : ∀ a, (![0, 0, 64, 0, 0] : Fin 5 → Nat) a + S1x1x1x128x128.size a ≤ S1x1x81x128x128.size a
  inb_S1x1x81x128x128_S1x1x1x128x128_0_0_65_0_0 : ∀ a, (![0, 0, 65, 0, 0] : Fin 5 → Nat) a + S1x1x1x128x128.size a ≤ S1x1x81x128x128.size a
  inb_S1x1x81x128x128_S1x1x1x128x128_0_0_66_0_0 : ∀ a, (![0, 0, 66, 0, 0] : Fin 5 → Nat) a + S1x1x1x128x128.size a ≤ S1x1x81x128x128.size a
  inb_S1x1x81x128x128_S1x1x1x128x128_0_0_67_0_0 : ∀ a, (![0, 0, 67, 0, 0] : Fin 5 → Nat) a + S1x1x1x128x128.size a ≤ S1x1x81x128x128.size a
  inb_S1x1x81x128x128_S1x1x1x128x128_0_0_68_0_0 : ∀ a, (![0, 0, 68, 0, 0] : Fin 5 → Nat) a + S1x1x1x128x128.size a ≤ S1x1x81x128x128.size a
  inb_S1x1x81x128x128_S1x1x1x128x128_0_0_69_0_0 : ∀ a, (![0, 0, 69, 0, 0] : Fin 5 → Nat) a + S1x1x1x128x128.size a ≤ S1x1x81x128x128.size a
  inb_S1x1x81x128x128_S1x1x1x128x128_0_0_70_0_0 : ∀ a, (![0, 0, 70, 0, 0] : Fin 5 → Nat) a + S1x1x1x128x128.size a ≤ S1x1x81x128x128.size a
  inb_S1x1x81x128x128_S1x1x1x128x128_0_0_71_0_0 : ∀ a, (![0, 0, 71, 0, 0] : Fin 5 → Nat) a + S1x1x1x128x128.size a ≤ S1x1x81x128x128.size a
  inb_S1x1x81x128x128_S1x1x1x128x128_0_0_72_0_0 : ∀ a, (![0, 0, 72, 0, 0] : Fin 5 → Nat) a + S1x1x1x128x128.size a ≤ S1x1x81x128x128.size a
  inb_S1x1x81x128x128_S1x1x1x128x128_0_0_73_0_0 : ∀ a, (![0, 0, 73, 0, 0] : Fin 5 → Nat) a + S1x1x1x128x128.size a ≤ S1x1x81x128x128.size a
  inb_S1x1x81x128x128_S1x1x1x128x128_0_0_74_0_0 : ∀ a, (![0, 0, 74, 0, 0] : Fin 5 → Nat) a + S1x1x1x128x128.size a ≤ S1x1x81x128x128.size a
  inb_S1x1x81x128x128_S1x1x1x128x128_0_0_75_0_0 : ∀ a, (![0, 0, 75, 0, 0] : Fin 5 → Nat) a + S1x1x1x128x128.size a ≤ S1x1x81x128x128.size a
  inb_S1x1x81x128x128_S1x1x1x128x128_0_0_76_0_0 : ∀ a, (![0, 0, 76, 0, 0] : Fin 5 → Nat) a + S1x1x1x128x128.size a ≤ S1x1x81x128x128.size a
  inb_S1x1x81x128x128_S1x1x1x128x128_0_0_77_0_0 : ∀ a, (![0, 0, 77, 0, 0] : Fin 5 → Nat) a + S1x1x1x128x128.size a ≤ S1x1x81x128x128.size a
  inb_S1x1x81x128x128_S1x1x1x128x128_0_0_78_0_0 : ∀ a, (![0, 0, 78, 0, 0] : Fin 5 → Nat) a + S1x1x1x128x128.size a ≤ S1x1x81x128x128.size a
  inb_S1x1x81x128x128_S1x1x1x128x128_0_0_79_0_0 : ∀ a, (![0, 0, 79, 0, 0] : Fin 5 → Nat) a + S1x1x1x128x128.size a ≤ S1x1x81x128x128.size a
  inb_S1x1x81x128x128_S1x1x1x128x128_0_0_80_0_0 : ∀ a, (![0, 0, 80, 0, 0] : Fin 5 → Nat) a + S1x1x1x128x128.size a ≤ S1x1x81x128x128.size a
  h_S1x128x128 : 0 < S1x128x128.numel
  shapeCasts_S1x128x128_S128x128 : S1x128x128.ShapeCasts S128x128
  shapeCasts_S128x128_S1x128x128 : S128x128.ShapeCasts S1x128x128
  inb_S1x8x128x128_S1x8x128x128_0_0_0_0 : ∀ a, (![0, 0, 0, 0] : Fin 4 → Nat) a + S1x8x128x128.size a ≤ S1x8x128x128.size a
  h_S1x8x128x128 : 0 < S1x8x128x128.numel
  shapeCasts_S1x8x128x128_S8x128x128 : S1x8x128x128.ShapeCasts S8x128x128
  inb_S8x128x128_S8x128x128_0_0_0 : ∀ a, (![0, 0, 0] : Fin 3 → Nat) a + S8x128x128.size a ≤ S8x128x128.size a
  h_S8x128x128 : 0 < S8x128x128.numel
  reduces_S8x128x128_S8x128 : S8x128x128.Reduces [2] S8x128
  reduces_S8x128_S8 : S8x128.Reduces [1] S8
  inb_S1x1x128x128_S1x1x128x128_0_0_0_0 : ∀ a, (![0, 0, 0, 0] : Fin 4 → Nat) a + S1x1x128x128.size a ≤ S1x1x128x128.size a
  broadcasts_S1x128x128_S8x128x128 : S1x128x128.Broadcasts S8x128x128
  shapeCasts_S8_S1x8 : S8.ShapeCasts S1x8
  inb_S1x1x8_S1x1x8_0_0_0 : ∀ a, (![0, 0, 0] : Fin 3 → Nat) a + S1x1x8.size a ≤ S1x1x8.size a
  h_S1x1x8 : 0 < S1x1x8.numel
  shapeCasts_S1x1x8_S1x8 : S1x1x8.ShapeCasts S1x8
  shapeCasts_S1x8_S1x1x8 : S1x8.ShapeCasts S1x1x8
  shapeCasts_S16x1x8_S16x8 : S16x1x8.ShapeCasts S16x8
  reducesTo_S16x8_S16_d1 : S16x8.ReducesTo [1] S16
  h_S_ : 0 < S_.numel
  bcast_S_S16 : S_.BroadcastsInDim S16 (![] : Fin 0 → Fin S16.rank)
  hrank0 : 0 < grid0.rank
  k0_t1_ok : k0_t1_loop.OK
  k0_off1_inb : ∀ k0_t1 : Fin k0_t1_loop.trips, ∀ a, (k0_off1 k0_t1) a + S1x1x128x128.size a ≤ S1x8x136x136.size a
  k0_off2_inb : ∀ k0_t1 : Fin k0_t1_loop.trips, ∀ a, (k0_off2 k0_t1) a + S1x1x128x128.size a ≤ S1x8x136x136.size a
  k0_off3_inb : ∀ k0_t1 : Fin k0_t1_loop.trips, ∀ a, (k0_off3 k0_t1) a + S1x1x128x128.size a ≤ S1x8x136x136.size a
  k0_off4_inb : ∀ k0_t1 : Fin k0_t1_loop.trips, ∀ a, (k0_off4 k0_t1) a + S1x1x128x128.size a ≤ S1x8x136x136.size a
  k0_off5_inb : ∀ k0_t1 : Fin k0_t1_loop.trips, ∀ a, (k0_off5 k0_t1) a + S1x1x128x128.size a ≤ S1x8x136x136.size a
  k0_off6_inb : ∀ k0_t1 : Fin k0_t1_loop.trips, ∀ a, (k0_off6 k0_t1) a + S1x1x128x128.size a ≤ S1x8x136x136.size a
  k0_off7_inb : ∀ k0_t1 : Fin k0_t1_loop.trips, ∀ a, (k0_off7 k0_t1) a + S1x1x128x128.size a ≤ S1x8x136x136.size a
  k0_off8_inb : ∀ k0_t1 : Fin k0_t1_loop.trips, ∀ a, (k0_off8 k0_t1) a + S1x1x128x128.size a ≤ S1x8x136x136.size a
  k0_off9_inb : ∀ k0_t1 : Fin k0_t1_loop.trips, ∀ a, (k0_off9 k0_t1) a + S1x1x128x128.size a ≤ S1x8x136x136.size a
  k0_off10_inb : ∀ k0_t1 : Fin k0_t1_loop.trips, ∀ a, (k0_off10 k0_t1) a + S1x1x128x128.size a ≤ S1x8x136x136.size a
  k0_off11_inb : ∀ k0_t1 : Fin k0_t1_loop.trips, ∀ a, (k0_off11 k0_t1) a + S1x1x128x128.size a ≤ S1x8x136x136.size a
  k0_off12_inb : ∀ k0_t1 : Fin k0_t1_loop.trips, ∀ a, (k0_off12 k0_t1) a + S1x1x128x128.size a ≤ S1x8x136x136.size a
  k0_off13_inb : ∀ k0_t1 : Fin k0_t1_loop.trips, ∀ a, (k0_off13 k0_t1) a + S1x1x128x128.size a ≤ S1x8x136x136.size a
  k0_off14_inb : ∀ k0_t1 : Fin k0_t1_loop.trips, ∀ a, (k0_off14 k0_t1) a + S1x1x128x128.size a ≤ S1x8x136x136.size a
  k0_off15_inb : ∀ k0_t1 : Fin k0_t1_loop.trips, ∀ a, (k0_off15 k0_t1) a + S1x1x128x128.size a ≤ S1x8x136x136.size a
  k0_off16_inb : ∀ k0_t1 : Fin k0_t1_loop.trips, ∀ a, (k0_off16 k0_t1) a + S1x1x128x128.size a ≤ S1x8x136x136.size a
  k0_off17_inb : ∀ k0_t1 : Fin k0_t1_loop.trips, ∀ a, (k0_off17 k0_t1) a + S1x1x128x128.size a ≤ S1x8x136x136.size a
  k0_off18_inb : ∀ k0_t1 : Fin k0_t1_loop.trips, ∀ a, (k0_off18 k0_t1) a + S1x1x128x128.size a ≤ S1x8x136x136.size a
  k0_off19_inb : ∀ k0_t1 : Fin k0_t1_loop.trips, ∀ a, (k0_off19 k0_t1) a + S1x1x128x128.size a ≤ S1x8x136x136.size a
  k0_off20_inb : ∀ k0_t1 : Fin k0_t1_loop.trips, ∀ a, (k0_off20 k0_t1) a + S1x1x128x128.size a ≤ S1x8x136x136.size a
  k0_off21_inb : ∀ k0_t1 : Fin k0_t1_loop.trips, ∀ a, (k0_off21 k0_t1) a + S1x1x128x128.size a ≤ S1x8x136x136.size a
  k0_off22_inb : ∀ k0_t1 : Fin k0_t1_loop.trips, ∀ a, (k0_off22 k0_t1) a + S1x1x128x128.size a ≤ S1x8x136x136.size a
  k0_off23_inb : ∀ k0_t1 : Fin k0_t1_loop.trips, ∀ a, (k0_off23 k0_t1) a + S1x1x128x128.size a ≤ S1x8x136x136.size a
  k0_off24_inb : ∀ k0_t1 : Fin k0_t1_loop.trips, ∀ a, (k0_off24 k0_t1) a + S1x1x128x128.size a ≤ S1x8x136x136.size a
  k0_off25_inb : ∀ k0_t1 : Fin k0_t1_loop.trips, ∀ a, (k0_off25 k0_t1) a + S1x1x128x128.size a ≤ S1x8x136x136.size a
  k0_off26_inb : ∀ k0_t1 : Fin k0_t1_loop.trips, ∀ a, (k0_off26 k0_t1) a + S1x1x128x128.size a ≤ S1x8x136x136.size a
  k0_off27_inb : ∀ k0_t1 : Fin k0_t1_loop.trips, ∀ a, (k0_off27 k0_t1) a + S1x1x128x128.size a ≤ S1x8x136x136.size a
  k0_off28_inb : ∀ k0_t1 : Fin k0_t1_loop.trips, ∀ a, (k0_off28 k0_t1) a + S1x1x128x128.size a ≤ S1x8x136x136.size a
  k0_off29_inb : ∀ k0_t1 : Fin k0_t1_loop.trips, ∀ a, (k0_off29 k0_t1) a + S1x1x128x128.size a ≤ S1x8x136x136.size a
  k0_off30_inb : ∀ k0_t1 : Fin k0_t1_loop.trips, ∀ a, (k0_off30 k0_t1) a + S1x1x128x128.size a ≤ S1x8x136x136.size a
  k0_off31_inb : ∀ k0_t1 : Fin k0_t1_loop.trips, ∀ a, (k0_off31 k0_t1) a + S1x1x128x128.size a ≤ S1x8x136x136.size a
  k0_off32_inb : ∀ k0_t1 : Fin k0_t1_loop.trips, ∀ a, (k0_off32 k0_t1) a + S1x1x128x128.size a ≤ S1x8x136x136.size a
  k0_off33_inb : ∀ k0_t1 : Fin k0_t1_loop.trips, ∀ a, (k0_off33 k0_t1) a + S1x1x128x128.size a ≤ S1x8x136x136.size a
  k0_off34_inb : ∀ k0_t1 : Fin k0_t1_loop.trips, ∀ a, (k0_off34 k0_t1) a + S1x1x128x128.size a ≤ S1x8x136x136.size a
  k0_off35_inb : ∀ k0_t1 : Fin k0_t1_loop.trips, ∀ a, (k0_off35 k0_t1) a + S1x1x128x128.size a ≤ S1x8x136x136.size a
  k0_off36_inb : ∀ k0_t1 : Fin k0_t1_loop.trips, ∀ a, (k0_off36 k0_t1) a + S1x1x128x128.size a ≤ S1x8x136x136.size a
  k0_off37_inb : ∀ k0_t1 : Fin k0_t1_loop.trips, ∀ a, (k0_off37 k0_t1) a + S1x1x128x128.size a ≤ S1x8x136x136.size a
  k0_off38_inb : ∀ k0_t1 : Fin k0_t1_loop.trips, ∀ a, (k0_off38 k0_t1) a + S1x1x128x128.size a ≤ S1x8x136x136.size a
  k0_off39_inb : ∀ k0_t1 : Fin k0_t1_loop.trips, ∀ a, (k0_off39 k0_t1) a + S1x1x128x128.size a ≤ S1x8x136x136.size a
  k0_off40_inb : ∀ k0_t1 : Fin k0_t1_loop.trips, ∀ a, (k0_off40 k0_t1) a + S1x1x128x128.size a ≤ S1x8x136x136.size a
  k0_off41_inb : ∀ k0_t1 : Fin k0_t1_loop.trips, ∀ a, (k0_off41 k0_t1) a + S1x1x128x128.size a ≤ S1x8x136x136.size a
  k0_off42_inb : ∀ k0_t1 : Fin k0_t1_loop.trips, ∀ a, (k0_off42 k0_t1) a + S1x1x128x128.size a ≤ S1x8x136x136.size a
  k0_off43_inb : ∀ k0_t1 : Fin k0_t1_loop.trips, ∀ a, (k0_off43 k0_t1) a + S1x1x128x128.size a ≤ S1x8x136x136.size a
  k0_off44_inb : ∀ k0_t1 : Fin k0_t1_loop.trips, ∀ a, (k0_off44 k0_t1) a + S1x1x128x128.size a ≤ S1x8x136x136.size a
  k0_off45_inb : ∀ k0_t1 : Fin k0_t1_loop.trips, ∀ a, (k0_off45 k0_t1) a + S1x1x128x128.size a ≤ S1x8x136x136.size a
  k0_off46_inb : ∀ k0_t1 : Fin k0_t1_loop.trips, ∀ a, (k0_off46 k0_t1) a + S1x1x128x128.size a ≤ S1x8x136x136.size a
  k0_off47_inb : ∀ k0_t1 : Fin k0_t1_loop.trips, ∀ a, (k0_off47 k0_t1) a + S1x1x128x128.size a ≤ S1x8x136x136.size a
  k0_off48_inb : ∀ k0_t1 : Fin k0_t1_loop.trips, ∀ a, (k0_off48 k0_t1) a + S1x1x128x128.size a ≤ S1x8x136x136.size a
  k0_off49_inb : ∀ k0_t1 : Fin k0_t1_loop.trips, ∀ a, (k0_off49 k0_t1) a + S1x1x128x128.size a ≤ S1x8x136x136.size a
  k0_off50_inb : ∀ k0_t1 : Fin k0_t1_loop.trips, ∀ a, (k0_off50 k0_t1) a + S1x1x128x128.size a ≤ S1x8x136x136.size a
  k0_off51_inb : ∀ k0_t1 : Fin k0_t1_loop.trips, ∀ a, (k0_off51 k0_t1) a + S1x1x128x128.size a ≤ S1x8x136x136.size a
  k0_off52_inb : ∀ k0_t1 : Fin k0_t1_loop.trips, ∀ a, (k0_off52 k0_t1) a + S1x1x128x128.size a ≤ S1x8x136x136.size a
  k0_off53_inb : ∀ k0_t1 : Fin k0_t1_loop.trips, ∀ a, (k0_off53 k0_t1) a + S1x1x128x128.size a ≤ S1x8x136x136.size a
  k0_off54_inb : ∀ k0_t1 : Fin k0_t1_loop.trips, ∀ a, (k0_off54 k0_t1) a + S1x1x128x128.size a ≤ S1x8x136x136.size a
  k0_off55_inb : ∀ k0_t1 : Fin k0_t1_loop.trips, ∀ a, (k0_off55 k0_t1) a + S1x1x128x128.size a ≤ S1x8x136x136.size a
  k0_off56_inb : ∀ k0_t1 : Fin k0_t1_loop.trips, ∀ a, (k0_off56 k0_t1) a + S1x1x128x128.size a ≤ S1x8x136x136.size a
  k0_off57_inb : ∀ k0_t1 : Fin k0_t1_loop.trips, ∀ a, (k0_off57 k0_t1) a + S1x1x128x128.size a ≤ S1x8x136x136.size a
  k0_off58_inb : ∀ k0_t1 : Fin k0_t1_loop.trips, ∀ a, (k0_off58 k0_t1) a + S1x1x128x128.size a ≤ S1x8x136x136.size a
  k0_off59_inb : ∀ k0_t1 : Fin k0_t1_loop.trips, ∀ a, (k0_off59 k0_t1) a + S1x1x128x128.size a ≤ S1x8x136x136.size a
  k0_off60_inb : ∀ k0_t1 : Fin k0_t1_loop.trips, ∀ a, (k0_off60 k0_t1) a + S1x1x128x128.size a ≤ S1x8x136x136.size a
  k0_off61_inb : ∀ k0_t1 : Fin k0_t1_loop.trips, ∀ a, (k0_off61 k0_t1) a + S1x1x128x128.size a ≤ S1x8x136x136.size a
  k0_off62_inb : ∀ k0_t1 : Fin k0_t1_loop.trips, ∀ a, (k0_off62 k0_t1) a + S1x1x128x128.size a ≤ S1x8x136x136.size a
  k0_off63_inb : ∀ k0_t1 : Fin k0_t1_loop.trips, ∀ a, (k0_off63 k0_t1) a + S1x1x128x128.size a ≤ S1x8x136x136.size a
  k0_off64_inb : ∀ k0_t1 : Fin k0_t1_loop.trips, ∀ a, (k0_off64 k0_t1) a + S1x1x128x128.size a ≤ S1x8x136x136.size a
  k0_off65_inb : ∀ k0_t1 : Fin k0_t1_loop.trips, ∀ a, (k0_off65 k0_t1) a + S1x1x128x128.size a ≤ S1x8x136x136.size a
  k0_off66_inb : ∀ k0_t1 : Fin k0_t1_loop.trips, ∀ a, (k0_off66 k0_t1) a + S1x1x128x128.size a ≤ S1x8x136x136.size a
  k0_off67_inb : ∀ k0_t1 : Fin k0_t1_loop.trips, ∀ a, (k0_off67 k0_t1) a + S1x1x128x128.size a ≤ S1x8x136x136.size a
  k0_off68_inb : ∀ k0_t1 : Fin k0_t1_loop.trips, ∀ a, (k0_off68 k0_t1) a + S1x1x128x128.size a ≤ S1x8x136x136.size a
  k0_off69_inb : ∀ k0_t1 : Fin k0_t1_loop.trips, ∀ a, (k0_off69 k0_t1) a + S1x1x128x128.size a ≤ S1x8x136x136.size a
  k0_off70_inb : ∀ k0_t1 : Fin k0_t1_loop.trips, ∀ a, (k0_off70 k0_t1) a + S1x1x128x128.size a ≤ S1x8x136x136.size a
  k0_off71_inb : ∀ k0_t1 : Fin k0_t1_loop.trips, ∀ a, (k0_off71 k0_t1) a + S1x1x128x128.size a ≤ S1x8x136x136.size a
  k0_off72_inb : ∀ k0_t1 : Fin k0_t1_loop.trips, ∀ a, (k0_off72 k0_t1) a + S1x1x128x128.size a ≤ S1x8x136x136.size a
  k0_off73_inb : ∀ k0_t1 : Fin k0_t1_loop.trips, ∀ a, (k0_off73 k0_t1) a + S1x1x128x128.size a ≤ S1x8x136x136.size a
  k0_off74_inb : ∀ k0_t1 : Fin k0_t1_loop.trips, ∀ a, (k0_off74 k0_t1) a + S1x1x128x128.size a ≤ S1x8x136x136.size a
  k0_off75_inb : ∀ k0_t1 : Fin k0_t1_loop.trips, ∀ a, (k0_off75 k0_t1) a + S1x1x128x128.size a ≤ S1x8x136x136.size a
  k0_off76_inb : ∀ k0_t1 : Fin k0_t1_loop.trips, ∀ a, (k0_off76 k0_t1) a + S1x1x128x128.size a ≤ S1x8x136x136.size a
  k0_off77_inb : ∀ k0_t1 : Fin k0_t1_loop.trips, ∀ a, (k0_off77 k0_t1) a + S1x1x128x128.size a ≤ S1x8x136x136.size a
  k0_off78_inb : ∀ k0_t1 : Fin k0_t1_loop.trips, ∀ a, (k0_off78 k0_t1) a + S1x1x128x128.size a ≤ S1x8x136x136.size a
  k0_off79_inb : ∀ k0_t1 : Fin k0_t1_loop.trips, ∀ a, (k0_off79 k0_t1) a + S1x1x128x128.size a ≤ S1x8x136x136.size a
  k0_off80_inb : ∀ k0_t1 : Fin k0_t1_loop.trips, ∀ a, (k0_off80 k0_t1) a + S1x1x128x128.size a ≤ S1x8x136x136.size a
  k0_off81_inb : ∀ k0_t1 : Fin k0_t1_loop.trips, ∀ a, (k0_off81 k0_t1) a + S1x1x128x128.size a ≤ S1x8x136x136.size a
  k0_off82_inb : ∀ k0_t1 : Fin k0_t1_loop.trips, ∀ a, (k0_off82 k0_t1) a + S1x128x128.size a ≤ S8x128x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x81x128x128.size a ≤ S16x1x81x128x128.size a
  hwx0_0 : ∀ i : grid0.Coords, EltTy.bits .f32 = 32 ∨ (Rect.block (s := S16x1x81x128x128) S1x1x81x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x136x136.size a ≤ S16x8x136x136.size a
  hwx0_1 : ∀ i : grid0.Coords, EltTy.bits .f32 = 32 ∨ (Rect.block (s := S16x8x136x136) S1x8x136x136.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128x128.size a ≤ S16x8x128x128.size a
  hwx0_2 : ∀ i : grid0.Coords, EltTy.bits .f32 = 32 ∨ (Rect.block (s := S16x8x128x128) S1x8x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128x128.size a ≤ S16x1x128x128.size a
  hwx0_3 : ∀ i : grid0.Coords, EltTy.bits .f32 = 32 ∨ (Rect.block (s := S16x1x128x128) S1x1x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x8.size a ≤ S16x1x8.size a
  hwx0_4 : ∀ i : grid0.Coords, EltTy.bits .f32 = 32 ∨ (Rect.block (s := S16x1x8) S1x1x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x8.size a ≤ S16x1x8.size a
  hwx0_5 : ∀ i : grid0.Coords, EltTy.bits .f32 = 32 ∨ (Rect.block (s := S16x1x8) S1x1x8.size (cc0_transform_5 i) (hinb0_5 i)).WholeWords (EltTy.packing .f32)

variable [Facts₀]

abbrev win0_0 : Pipeline.Window sig grid0 :=
  Pipeline.Window.ofSpec (Memref.whole main_v1) S1x1x81x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8x136x136.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x8x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x1x8.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x1x8.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x8x128x128 : Shape := ⟨4, ![16, 8, 128, 128]⟩
abbrev S16x8x136x136 : Shape := ⟨4, ![16, 8, 136, 136]⟩
abbrev S16x1x128x128x9x9 : Shape := ⟨6, ![16, 1, 128, 128, 9, 9]⟩
abbrev S16x1x128x128 : Shape := ⟨4, ![16, 1, 128, 128]⟩
abbrev S_ : Shape := ⟨0, ![]⟩
abbrev S16x1x128x128x1x1 : Shape := ⟨6, ![16, 1, 128, 128, 1, 1]⟩
abbrev S16x8 : Shape := ⟨2, ![16, 8]⟩
abbrev S16 : Shape := ⟨1, ![16]⟩

abbrev nBuf : Space → Nat
  | .hbm => 505
  | .vmem => 0
  | .smem => 0
  | _ => 0

abbrev hbmTy0_0 (i : Nat) : BufTy := match i % 128 with
  | 0 => ⟨S16x8x128x128, .f32⟩
  | 1 => ⟨S16x8x136x136, .f32⟩
  | 2 => ⟨S16x1x128x128x9x9, .f32⟩
  | 3 => ⟨S16x1x128x128, .f32⟩
  | 4 => ⟨S_, .f32⟩
  | 5 => ⟨S16x8x128x128, .f32⟩
  | 6 => ⟨S16x8x128x128, .f32⟩
  | 7 => ⟨S16x1x128x128x1x1, .f32⟩
  | 8 => ⟨S16x1x128x128, .f32⟩
  | 9 => ⟨S16x8x128x128, .f32⟩
  | 10 => ⟨S16x8x128x128, .f32⟩
  | 11 => ⟨S16x8x128x128, .f32⟩
  | 12 => ⟨S16x8x128x128, .f32⟩
  | 13 => ⟨S16x1x128x128x1x1, .f32⟩
  | 14 => ⟨S16x1x128x128, .f32⟩
  | 15 => ⟨S16x8x128x128, .f32⟩
  | 16 => ⟨S16x8x128x128, .f32⟩
  | 17 => ⟨S16x8x128x128, .f32⟩
  | 18 => ⟨S16x8x128x128, .f32⟩
  | 19 => ⟨S16x1x128x128x1x1, .f32⟩
  | 20 => ⟨S16x1x128x128, .f32⟩
  | 21 => ⟨S16x8x128x128, .f32⟩
  | 22 => ⟨S16x8x128x128, .f32⟩
  | 23 => ⟨S16x8x128x128, .f32⟩
  | 24 => ⟨S16x8x128x128, .f32⟩
  | 25 => ⟨S16x1x128x128x1x1, .f32⟩
  | 26 => ⟨S16x1x128x128, .f32⟩
  | 27 => ⟨S16x8x128x128, .f32⟩
  | 28 => ⟨S16x8x128x128, .f32⟩
  | 29 => ⟨S16x8x128x128, .f32⟩
  | 30 => ⟨S16x8x128x128, .f32⟩
  | 31 => ⟨S16x1x128x128x1x1, .f32⟩
  | 32 => ⟨S16x1x128x128, .f32⟩
  | 33 => ⟨S16x8x128x128, .f32⟩
  | 34 => ⟨S16x8x128x128, .f32⟩
  | 35 => ⟨S16x8x128x128, .f32⟩
  | 36 => ⟨S16x8x128x128, .f32⟩
  | 37 => ⟨S16x1x128x128x1x1, .f32⟩
  | 38 => ⟨S16x1x128x128, .f32⟩
  | 39 => ⟨S16x8x128x128, .f32⟩
  | 40 => ⟨S16x8x128x128, .f32⟩
  | 41 => ⟨S16x8x128x128, .f32⟩
  | 42 => ⟨S16x8x128x128, .f32⟩
  | 43 => ⟨S16x1x128x128x1x1, .f32⟩
  | 44 => ⟨S16x1x128x128, .f32⟩
  | 45 => ⟨S16x8x128x128, .f32⟩
  | 46 => ⟨S16x8x128x128, .f32⟩
  | 47 => ⟨S16x8x128x128, .f32⟩
  | 48 => ⟨S16x8x128x128, .f32⟩
  | 49 => ⟨S16x1x128x128x1x1, .f32⟩
  | 50 => ⟨S16x1x128x128, .f32⟩
  | 51 => ⟨S16x8x128x128, .f32⟩
  | 52 => ⟨S16x8x128x128, .f32⟩
  | 53 => ⟨S16x8x128x128, .f32⟩
  | 54 => ⟨S16x8x128x128, .f32⟩
  | 55 => ⟨S16x1x128x128x1x1, .f32⟩
  | 56 => ⟨S16x1x128x128, .f32⟩
  | 57 => ⟨S16x8x128x128, .f32⟩
  | 58 => ⟨S16x8x128x128, .f32⟩
  | 59 => ⟨S16x8x128x128, .f32⟩
  | 60 => ⟨S16x8x128x128, .f32⟩
  | 61 => ⟨S16x1x128x128x1x1, .f32⟩
  | 62 => ⟨S16x1x128x128, .f32⟩
  | 63 => ⟨S16x8x128x128, .f32⟩
  | 64 => ⟨S16x8x128x128, .f32⟩
  | 65 => ⟨S16x8x128x128, .f32⟩
  | 66 => ⟨S16x8x128x128, .f32⟩
  | 67 => ⟨S16x1x128x128x1x1, .f32⟩
  | 68 => ⟨S16x1x128x128, .f32⟩
  | 69 => ⟨S16x8x128x128, .f32⟩
  | 70 => ⟨S16x8x128x128, .f32⟩
  | 71 => ⟨S16x8x128x128, .f32⟩
  | 72 => ⟨S16x8x128x128, .f32⟩
  | 73 => ⟨S16x1x128x128x1x1, .f32⟩
  | 74 => ⟨S16x1x128x128, .f32⟩
  | 75 => ⟨S16x8x128x128, .f32⟩
  | 76 => ⟨S16x8x128x128, .f32⟩
  | 77 => ⟨S16x8x128x128, .f32⟩
  | 78 => ⟨S16x8x128x128, .f32⟩
  | 79 => ⟨S16x1x128x128x1x1, .f32⟩
  | 80 => ⟨S16x1x128x128, .f32⟩
  | 81 => ⟨S16x8x128x128, .f32⟩
  | 82 => ⟨S16x8x128x128, .f32⟩
  | 83 => ⟨S16x8x128x128, .f32⟩
  | 84 => ⟨S16x8x128x128, .f32⟩
  | 85 => ⟨S16x1x128x128x1x1, .f32⟩
  | 86 => ⟨S16x1x128x128, .f32⟩
  | 87 => ⟨S16x8x128x128, .f32⟩
  | 88 => ⟨S16x8x128x128, .f32⟩
  | 89 => ⟨S16x8x128x128, .f32⟩
  | 90 => ⟨S16x8x128x128, .f32⟩
  | 91 => ⟨S16x1x128x128x1x1, .f32⟩
  | 92 => ⟨S16x1x128x128, .f32⟩
  | 93 => ⟨S16x8x128x128, .f32⟩
  | 94 => ⟨S16x8x128x128, .f32⟩
  | 95 => ⟨S16x8x128x128, .f32⟩
  | 96 => ⟨S16x8x128x128, .f32⟩
  | 97 => ⟨S16x1x128x128x1x1, .f32⟩
  | 98 => ⟨S16x1x128x128, .f32⟩
  | 99 => ⟨S16x8x128x128, .f32⟩
  | 100 => ⟨S16x8x128x128, .f32⟩
  | 101 => ⟨S16x8x128x128, .f32⟩
  | 102 => ⟨S16x8x128x128, .f32⟩
  | 103 => ⟨S16x1x128x128x1x1, .f32⟩
  | 104 => ⟨S16x1x128x128, .f32⟩
  | 105 => ⟨S16x8x128x128, .f32⟩
  | 106 => ⟨S16x8x128x128, .f32⟩
  | 107 => ⟨S16x8x128x128, .f32⟩
  | 108 => ⟨S16x8x128x128, .f32⟩
  | 109 => ⟨S16x1x128x128x1x1, .f32⟩
  | 110 => ⟨S16x1x128x128, .f32⟩
  | 111 => ⟨S16x8x128x128, .f32⟩
  | 112 => ⟨S16x8x128x128, .f32⟩
  | 113 => ⟨S16x8x128x128, .f32⟩
  | 114 => ⟨S16x8x128x128, .f32⟩
  | 115 => ⟨S16x1x128x128x1x1, .f32⟩
  | 116 => ⟨S16x1x128x128, .f32⟩
  | 117 => ⟨S16x8x128x128, .f32⟩
  | 118 => ⟨S16x8x128x128, .f32⟩
  | 119 => ⟨S16x8x128x128, .f32⟩
  | 120 => ⟨S16x8x128x128, .f32⟩
  | 121 => ⟨S16x1x128x128x1x1, .f32⟩
  | 122 => ⟨S16x1x128x128, .f32⟩
  | 123 => ⟨S16x8x128x128, .f32⟩
  | 124 => ⟨S16x8x128x128, .f32⟩
  | 125 => ⟨S16x8x128x128, .f32⟩
  | 126 => ⟨S16x8x128x128, .f32⟩
  | 127 => ⟨S16x1x128x128x1x1, .f32⟩
  | _ => ⟨S16x8x128x128, .f32⟩

abbrev hbmTy0_1 (i : Nat) : BufTy := match i % 128 with
  | 0 => ⟨S16x1x128x128, .f32⟩
  | 1 => ⟨S16x8x128x128, .f32⟩
  | 2 => ⟨S16x8x128x128, .f32⟩
  | 3 => ⟨S16x8x128x128, .f32⟩
  | 4 => ⟨S16x8x128x128, .f32⟩
  | 5 => ⟨S16x1x128x128x1x1, .f32⟩
  | 6 => ⟨S16x1x128x128, .f32⟩
  | 7 => ⟨S16x8x128x128, .f32⟩
  | 8 => ⟨S16x8x128x128, .f32⟩
  | 9 => ⟨S16x8x128x128, .f32⟩
  | 10 => ⟨S16x8x128x128, .f32⟩
  | 11 => ⟨S16x1x128x128x1x1, .f32⟩
  | 12 => ⟨S16x1x128x128, .f32⟩
  | 13 => ⟨S16x8x128x128, .f32⟩
  | 14 => ⟨S16x8x128x128, .f32⟩
  | 15 => ⟨S16x8x128x128, .f32⟩
  | 16 => ⟨S16x8x128x128, .f32⟩
  | 17 => ⟨S16x1x128x128x1x1, .f32⟩
  | 18 => ⟨S16x1x128x128, .f32⟩
  | 19 => ⟨S16x8x128x128, .f32⟩
  | 20 => ⟨S16x8x128x128, .f32⟩
  | 21 => ⟨S16x8x128x128, .f32⟩
  | 22 => ⟨S16x8x128x128, .f32⟩
  | 23 => ⟨S16x1x128x128x1x1, .f32⟩
  | 24 => ⟨S16x1x128x128, .f32⟩
  | 25 => ⟨S16x8x128x128, .f32⟩
  | 26 => ⟨S16x8x128x128, .f32⟩
  | 27 => ⟨S16x8x128x128, .f32⟩
  | 28 => ⟨S16x8x128x128, .f32⟩
  | 29 => ⟨S16x1x128x128x1x1, .f32⟩
  | 30 => ⟨S16x1x128x128, .f32⟩
  | 31 => ⟨S16x8x128x128, .f32⟩
  | 32 => ⟨S16x8x128x128, .f32⟩
  | 33 => ⟨S16x8x128x128, .f32⟩
  | 34 => ⟨S16x8x128x128, .f32⟩
  | 35 => ⟨S16x1x128x128x1x1, .f32⟩
  | 36 => ⟨S16x1x128x128, .f32⟩
  | 37 => ⟨S16x8x128x128, .f32⟩
  | 38 => ⟨S16x8x128x128, .f32⟩
  | 39 => ⟨S16x8x128x128, .f32⟩
  | 40 => ⟨S16x8x128x128, .f32⟩
  | 41 => ⟨S16x1x128x128x1x1, .f32⟩
  | 42 => ⟨S16x1x128x128, .f32⟩
  | 43 => ⟨S16x8x128x128, .f32⟩
  | 44 => ⟨S16x8x128x128, .f32⟩
  | 45 => ⟨S16x8x128x128, .f32⟩
  | 46 => ⟨S16x8x128x128, .f32⟩
  | 47 => ⟨S16x1x128x128x1x1, .f32⟩
  | 48 => ⟨S16x1x128x128, .f32⟩
  | 49 => ⟨S16x8x128x128, .f32⟩
  | 50 => ⟨S16x8x128x128, .f32⟩
  | 51 => ⟨S16x8x128x128, .f32⟩
  | 52 => ⟨S16x8x128x128, .f32⟩
  | 53 => ⟨S16x1x128x128x1x1, .f32⟩
  | 54 => ⟨S16x1x128x128, .f32⟩
  | 55 => ⟨S16x8x128x128, .f32⟩
  | 56 => ⟨S16x8x128x128, .f32⟩
  | 57 => ⟨S16x8x128x128, .f32⟩
  | 58 => ⟨S16x8x128x128, .f32⟩
  | 59 => ⟨S16x1x128x128x1x1, .f32⟩
  | 60 => ⟨S16x1x128x128, .f32⟩
  | 61 => ⟨S16x8x128x128, .f32⟩
  | 62 => ⟨S16x8x128x128, .f32⟩
  | 63 => ⟨S16x8x128x128, .f32⟩
  | 64 => ⟨S16x8x128x128, .f32⟩
  | 65 => ⟨S16x1x128x128x1x1, .f32⟩
  | 66 => ⟨S16x1x128x128, .f32⟩
  | 67 => ⟨S16x8x128x128, .f32⟩
  | 68 => ⟨S16x8x128x128, .f32⟩
  | 69 => ⟨S16x8x128x128, .f32⟩
  | 70 => ⟨S16x8x128x128, .f32⟩
  | 71 => ⟨S16x1x128x128x1x1, .f32⟩
  | 72 => ⟨S16x1x128x128, .f32⟩
  | 73 => ⟨S16x8x128x128, .f32⟩
  | 74 => ⟨S16x8x128x128, .f32⟩
  | 75 => ⟨S16x8x128x128, .f32⟩
  | 76 => ⟨S16x8x128x128, .f32⟩
  | 77 => ⟨S16x1x128x128x1x1, .f32⟩
  | 78 => ⟨S16x1x128x128, .f32⟩
  | 79 => ⟨S16x8x128x128, .f32⟩
  | 80 => ⟨S16x8x128x128, .f32⟩
  | 81 => ⟨S16x8x128x128, .f32⟩
  | 82 => ⟨S16x8x128x128, .f32⟩
  | 83 => ⟨S16x1x128x128x1x1, .f32⟩
  | 84 => ⟨S16x1x128x128, .f32⟩
  | 85 => ⟨S16x8x128x128, .f32⟩
  | 86 => ⟨S16x8x128x128, .f32⟩
  | 87 => ⟨S16x8x128x128, .f32⟩
  | 88 => ⟨S16x8x128x128, .f32⟩
  | 89 => ⟨S16x1x128x128x1x1, .f32⟩
  | 90 => ⟨S16x1x128x128, .f32⟩
  | 91 => ⟨S16x8x128x128, .f32⟩
  | 92 => ⟨S16x8x128x128, .f32⟩
  | 93 => ⟨S16x8x128x128, .f32⟩
  | 94 => ⟨S16x8x128x128, .f32⟩
  | 95 => ⟨S16x1x128x128x1x1, .f32⟩
  | 96 => ⟨S16x1x128x128, .f32⟩
  | 97 => ⟨S16x8x128x128, .f32⟩
  | 98 => ⟨S16x8x128x128, .f32⟩
  | 99 => ⟨S16x8x128x128, .f32⟩
  | 100 => ⟨S16x8x128x128, .f32⟩
  | 101 => ⟨S16x1x128x128x1x1, .f32⟩
  | 102 => ⟨S16x1x128x128, .f32⟩
  | 103 => ⟨S16x8x128x128, .f32⟩
  | 104 => ⟨S16x8x128x128, .f32⟩
  | 105 => ⟨S16x8x128x128, .f32⟩
  | 106 => ⟨S16x8x128x128, .f32⟩
  | 107 => ⟨S16x1x128x128x1x1, .f32⟩
  | 108 => ⟨S16x1x128x128, .f32⟩
  | 109 => ⟨S16x8x128x128, .f32⟩
  | 110 => ⟨S16x8x128x128, .f32⟩
  | 111 => ⟨S16x8x128x128, .f32⟩
  | 112 => ⟨S16x8x128x128, .f32⟩
  | 113 => ⟨S16x1x128x128x1x1, .f32⟩
  | 114 => ⟨S16x1x128x128, .f32⟩
  | 115 => ⟨S16x8x128x128, .f32⟩
  | 116 => ⟨S16x8x128x128, .f32⟩
  | 117 => ⟨S16x8x128x128, .f32⟩
  | 118 => ⟨S16x8x128x128, .f32⟩
  | 119 => ⟨S16x1x128x128x1x1, .f32⟩
  | 120 => ⟨S16x1x128x128, .f32⟩
  | 121 => ⟨S16x8x128x128, .f32⟩
  | 122 => ⟨S16x8x128x128, .f32⟩
  | 123 => ⟨S16x8x128x128, .f32⟩
  | 124 => ⟨S16x8x128x128, .f32⟩
  | 125 => ⟨S16x1x128x128x1x1, .f32⟩
  | 126 => ⟨S16x1x128x128, .f32⟩
  | 127 => ⟨S16x8x128x128, .f32⟩
  | _ => ⟨S16x8x128x128, .f32⟩

abbrev hbmTy0_2 (i : Nat) : BufTy := match i % 128 with
  | 0 => ⟨S16x8x128x128, .f32⟩
  | 1 => ⟨S16x8x128x128, .f32⟩
  | 2 => ⟨S16x8x128x128, .f32⟩
  | 3 => ⟨S16x1x128x128x1x1, .f32⟩
  | 4 => ⟨S16x1x128x128, .f32⟩
  | 5 => ⟨S16x8x128x128, .f32⟩
  | 6 => ⟨S16x8x128x128, .f32⟩
  | 7 => ⟨S16x8x128x128, .f32⟩
  | 8 => ⟨S16x8x128x128, .f32⟩
  | 9 => ⟨S16x1x128x128x1x1, .f32⟩
  | 10 => ⟨S16x1x128x128, .f32⟩
  | 11 => ⟨S16x8x128x128, .f32⟩
  | 12 => ⟨S16x8x128x128, .f32⟩
  | 13 => ⟨S16x8x128x128, .f32⟩
  | 14 => ⟨S16x8x128x128, .f32⟩
  | 15 => ⟨S16x1x128x128x1x1, .f32⟩
  | 16 => ⟨S16x1x128x128, .f32⟩
  | 17 => ⟨S16x8x128x128, .f32⟩
  | 18 => ⟨S16x8x128x128, .f32⟩
  | 19 => ⟨S16x8x128x128, .f32⟩
  | 20 => ⟨S16x8x128x128, .f32⟩
  | 21 => ⟨S16x1x128x128x1x1, .f32⟩
  | 22 => ⟨S16x1x128x128, .f32⟩
  | 23 => ⟨S16x8x128x128, .f32⟩
  | 24 => ⟨S16x8x128x128, .f32⟩
  | 25 => ⟨S16x8x128x128, .f32⟩
  | 26 => ⟨S16x8x128x128, .f32⟩
  | 27 => ⟨S16x1x128x128x1x1, .f32⟩
  | 28 => ⟨S16x1x128x128, .f32⟩
  | 29 => ⟨S16x8x128x128, .f32⟩
  | 30 => ⟨S16x8x128x128, .f32⟩
  | 31 => ⟨S16x8x128x128, .f32⟩
  | 32 => ⟨S16x8x128x128, .f32⟩
  | 33 => ⟨S16x1x128x128x1x1, .f32⟩
  | 34 => ⟨S16x1x128x128, .f32⟩
  | 35 => ⟨S16x8x128x128, .f32⟩
  | 36 => ⟨S16x8x128x128, .f32⟩
  | 37 => ⟨S16x8x128x128, .f32⟩
  | 38 => ⟨S16x8x128x128, .f32⟩
  | 39 => ⟨S16x1x128x128x1x1, .f32⟩
  | 40 => ⟨S16x1x128x128, .f32⟩
  | 41 => ⟨S16x8x128x128, .f32⟩
  | 42 => ⟨S16x8x128x128, .f32⟩
  | 43 => ⟨S16x8x128x128, .f32⟩
  | 44 => ⟨S16x8x128x128, .f32⟩
  | 45 => ⟨S16x1x128x128x1x1, .f32⟩
  | 46 => ⟨S16x1x128x128, .f32⟩
  | 47 => ⟨S16x8x128x128, .f32⟩
  | 48 => ⟨S16x8x128x128, .f32⟩
  | 49 => ⟨S16x8x128x128, .f32⟩
  | 50 => ⟨S16x8x128x128, .f32⟩
  | 51 => ⟨S16x1x128x128x1x1, .f32⟩
  | 52 => ⟨S16x1x128x128, .f32⟩
  | 53 => ⟨S16x8x128x128, .f32⟩
  | 54 => ⟨S16x8x128x128, .f32⟩
  | 55 => ⟨S16x8x128x128, .f32⟩
  | 56 => ⟨S16x8x128x128, .f32⟩
  | 57 => ⟨S16x1x128x128x1x1, .f32⟩
  | 58 => ⟨S16x1x128x128, .f32⟩
  | 59 => ⟨S16x8x128x128, .f32⟩
  | 60 => ⟨S16x8x128x128, .f32⟩
  | 61 => ⟨S16x8x128x128, .f32⟩
  | 62 => ⟨S16x8x128x128, .f32⟩
  | 63 => ⟨S16x1x128x128x1x1, .f32⟩
  | 64 => ⟨S16x1x128x128, .f32⟩
  | 65 => ⟨S16x8x128x128, .f32⟩
  | 66 => ⟨S16x8x128x128, .f32⟩
  | 67 => ⟨S16x8x128x128, .f32⟩
  | 68 => ⟨S16x8x128x128, .f32⟩
  | 69 => ⟨S16x1x128x128x1x1, .f32⟩
  | 70 => ⟨S16x1x128x128, .f32⟩
  | 71 => ⟨S16x8x128x128, .f32⟩
  | 72 => ⟨S16x8x128x128, .f32⟩
  | 73 => ⟨S16x8x128x128, .f32⟩
  | 74 => ⟨S16x8x128x128, .f32⟩
  | 75 => ⟨S16x1x128x128x1x1, .f32⟩
  | 76 => ⟨S16x1x128x128, .f32⟩
  | 77 => ⟨S16x8x128x128, .f32⟩
  | 78 => ⟨S16x8x128x128, .f32⟩
  | 79 => ⟨S16x8x128x128, .f32⟩
  | 80 => ⟨S16x8x128x128, .f32⟩
  | 81 => ⟨S16x1x128x128x1x1, .f32⟩
  | 82 => ⟨S16x1x128x128, .f32⟩
  | 83 => ⟨S16x8x128x128, .f32⟩
  | 84 => ⟨S16x8x128x128, .f32⟩
  | 85 => ⟨S16x8x128x128, .f32⟩
  | 86 => ⟨S16x8x128x128, .f32⟩
  | 87 => ⟨S16x1x128x128x1x1, .f32⟩
  | 88 => ⟨S16x1x128x128, .f32⟩
  | 89 => ⟨S16x8x128x128, .f32⟩
  | 90 => ⟨S16x8x128x128, .f32⟩
  | 91 => ⟨S16x8x128x128, .f32⟩
  | 92 => ⟨S16x8x128x128, .f32⟩
  | 93 => ⟨S16x1x128x128x1x1, .f32⟩
  | 94 => ⟨S16x1x128x128, .f32⟩
  | 95 => ⟨S16x8x128x128, .f32⟩
  | 96 => ⟨S16x8x128x128, .f32⟩
  | 97 => ⟨S16x8x128x128, .f32⟩
  | 98 => ⟨S16x8x128x128, .f32⟩
  | 99 => ⟨S16x1x128x128x1x1, .f32⟩
  | 100 => ⟨S16x1x128x128, .f32⟩
  | 101 => ⟨S16x8x128x128, .f32⟩
  | 102 => ⟨S16x8x128x128, .f32⟩
  | 103 => ⟨S16x8x128x128, .f32⟩
  | 104 => ⟨S16x8x128x128, .f32⟩
  | 105 => ⟨S16x1x128x128x1x1, .f32⟩
  | 106 => ⟨S16x1x128x128, .f32⟩
  | 107 => ⟨S16x8x128x128, .f32⟩
  | 108 => ⟨S16x8x128x128, .f32⟩
  | 109 => ⟨S16x8x128x128, .f32⟩
  | 110 => ⟨S16x8x128x128, .f32⟩
  | 111 => ⟨S16x1x128x128x1x1, .f32⟩
  | 112 => ⟨S16x1x128x128, .f32⟩
  | 113 => ⟨S16x8x128x128, .f32⟩
  | 114 => ⟨S16x8x128x128, .f32⟩
  | 115 => ⟨S16x8x128x128, .f32⟩
  | 116 => ⟨S16x8x128x128, .f32⟩
  | 117 => ⟨S16x1x128x128x1x1, .f32⟩
  | 118 => ⟨S16x1x128x128, .f32⟩
  | 119 => ⟨S16x8x128x128, .f32⟩
  | 120 => ⟨S16x8x128x128, .f32⟩
  | 121 => ⟨S16x8x128x128, .f32⟩
  | 122 => ⟨S16x8x128x128, .f32⟩
  | 123 => ⟨S16x1x128x128x1x1, .f32⟩
  | 124 => ⟨S16x1x128x128, .f32⟩
  | 125 => ⟨S16x8x128x128, .f32⟩
  | 126 => ⟨S16x8x128x128, .f32⟩
  | 127 => ⟨S16x8x128x128, .f32⟩
  | _ => ⟨S16x8x128x128, .f32⟩

abbrev hbmTy0_3 (i : Nat) : BufTy := match i % 128 with
  | 0 => ⟨S16x8x128x128, .f32⟩
  | 1 => ⟨S16x1x128x128x1x1, .f32⟩
  | 2 => ⟨S16x1x128x128, .f32⟩
  | 3 => ⟨S16x8x128x128, .f32⟩
  | 4 => ⟨S16x8x128x128, .f32⟩
  | 5 => ⟨S16x8x128x128, .f32⟩
  | 6 => ⟨S16x8x128x128, .f32⟩
  | 7 => ⟨S16x1x128x128x1x1, .f32⟩
  | 8 => ⟨S16x1x128x128, .f32⟩
  | 9 => ⟨S16x8x128x128, .f32⟩
  | 10 => ⟨S16x8x128x128, .f32⟩
  | 11 => ⟨S16x8x128x128, .f32⟩
  | 12 => ⟨S16x8x128x128, .f32⟩
  | 13 => ⟨S16x1x128x128x1x1, .f32⟩
  | 14 => ⟨S16x1x128x128, .f32⟩
  | 15 => ⟨S16x8x128x128, .f32⟩
  | 16 => ⟨S16x8x128x128, .f32⟩
  | 17 => ⟨S16x8x128x128, .f32⟩
  | 18 => ⟨S16x8x128x128, .f32⟩
  | 19 => ⟨S16x1x128x128x1x1, .f32⟩
  | 20 => ⟨S16x1x128x128, .f32⟩
  | 21 => ⟨S16x8x128x128, .f32⟩
  | 22 => ⟨S16x8x128x128, .f32⟩
  | 23 => ⟨S16x8x128x128, .f32⟩
  | 24 => ⟨S16x8x128x128, .f32⟩
  | 25 => ⟨S16x1x128x128x1x1, .f32⟩
  | 26 => ⟨S16x1x128x128, .f32⟩
  | 27 => ⟨S16x8x128x128, .f32⟩
  | 28 => ⟨S16x8x128x128, .f32⟩
  | 29 => ⟨S16x8x128x128, .f32⟩
  | 30 => ⟨S16x8x128x128, .f32⟩
  | 31 => ⟨S16x1x128x128x1x1, .f32⟩
  | 32 => ⟨S16x1x128x128, .f32⟩
  | 33 => ⟨S16x8x128x128, .f32⟩
  | 34 => ⟨S16x8x128x128, .f32⟩
  | 35 => ⟨S16x8x128x128, .f32⟩
  | 36 => ⟨S16x8x128x128, .f32⟩
  | 37 => ⟨S16x1x128x128x1x1, .f32⟩
  | 38 => ⟨S16x1x128x128, .f32⟩
  | 39 => ⟨S16x8x128x128, .f32⟩
  | 40 => ⟨S16x8x128x128, .f32⟩
  | 41 => ⟨S16x8x128x128, .f32⟩
  | 42 => ⟨S16x8x128x128, .f32⟩
  | 43 => ⟨S16x1x128x128x1x1, .f32⟩
  | 44 => ⟨S16x1x128x128, .f32⟩
  | 45 => ⟨S16x8x128x128, .f32⟩
  | 46 => ⟨S16x8x128x128, .f32⟩
  | 47 => ⟨S16x8x128x128, .f32⟩
  | 48 => ⟨S16x8x128x128, .f32⟩
  | 49 => ⟨S16x1x128x128x1x1, .f32⟩
  | 50 => ⟨S16x1x128x128, .f32⟩
  | 51 => ⟨S16x8x128x128, .f32⟩
  | 52 => ⟨S16x8x128x128, .f32⟩
  | 53 => ⟨S16x8x128x128, .f32⟩
  | 54 => ⟨S16x8x128x128, .f32⟩
  | 55 => ⟨S16x1x128x128x1x1, .f32⟩
  | 56 => ⟨S16x1x128x128, .f32⟩
  | 57 => ⟨S16x8x128x128, .f32⟩
  | 58 => ⟨S16x8x128x128, .f32⟩
  | 59 => ⟨S16x8x128x128, .f32⟩
  | 60 => ⟨S16x8x128x128, .f32⟩
  | 61 => ⟨S16x1x128x128x1x1, .f32⟩
  | 62 => ⟨S16x1x128x128, .f32⟩
  | 63 => ⟨S16x8x128x128, .f32⟩
  | 64 => ⟨S16x8x128x128, .f32⟩
  | 65 => ⟨S16x8x128x128, .f32⟩
  | 66 => ⟨S16x8x128x128, .f32⟩
  | 67 => ⟨S16x1x128x128x1x1, .f32⟩
  | 68 => ⟨S16x1x128x128, .f32⟩
  | 69 => ⟨S16x8x128x128, .f32⟩
  | 70 => ⟨S16x8x128x128, .f32⟩
  | 71 => ⟨S16x8x128x128, .f32⟩
  | 72 => ⟨S16x8x128x128, .f32⟩
  | 73 => ⟨S16x1x128x128x1x1, .f32⟩
  | 74 => ⟨S16x1x128x128, .f32⟩
  | 75 => ⟨S16x8x128x128, .f32⟩
  | 76 => ⟨S16x8x128x128, .f32⟩
  | 77 => ⟨S16x8x128x128, .f32⟩
  | 78 => ⟨S16x8x128x128, .f32⟩
  | 79 => ⟨S16x1x128x128x1x1, .f32⟩
  | 80 => ⟨S16x1x128x128, .f32⟩
  | 81 => ⟨S16x8x128x128, .f32⟩
  | 82 => ⟨S16x8x128x128, .f32⟩
  | 83 => ⟨S16x8x128x128, .f32⟩
  | 84 => ⟨S16x8x128x128, .f32⟩
  | 85 => ⟨S16x1x128x128x1x1, .f32⟩
  | 86 => ⟨S16x1x128x128, .f32⟩
  | 87 => ⟨S16x8x128x128, .f32⟩
  | 88 => ⟨S16x8x128x128, .f32⟩
  | 89 => ⟨S16x8x128x128, .f32⟩
  | 90 => ⟨S16x8x128x128, .f32⟩
  | 91 => ⟨S16x1x128x128x1x1, .f32⟩
  | 92 => ⟨S16x1x128x128, .f32⟩
  | 93 => ⟨S16x8x128x128, .f32⟩
  | 94 => ⟨S16x8x128x128, .f32⟩
  | 95 => ⟨S16x8x128x128, .f32⟩
  | 96 => ⟨S16x8x128x128, .f32⟩
  | 97 => ⟨S16x1x128x128x1x1, .f32⟩
  | 98 => ⟨S16x1x128x128, .f32⟩
  | 99 => ⟨S16x8x128x128, .f32⟩
  | 100 => ⟨S16x8x128x128, .f32⟩
  | 101 => ⟨S16x8x128x128, .f32⟩
  | 102 => ⟨S16x8x128x128, .f32⟩
  | 103 => ⟨S16x1x128x128x1x1, .f32⟩
  | 104 => ⟨S16x1x128x128, .f32⟩
  | 105 => ⟨S16x8x128x128, .f32⟩
  | 106 => ⟨S16x8x128x128, .f32⟩
  | 107 => ⟨S16x8x128x128, .f32⟩
  | 108 => ⟨S16x8x128x128, .f32⟩
  | 109 => ⟨S_, .f32⟩
  | 110 => ⟨S16x8, .f32⟩
  | 111 => ⟨S16x8x128x128, .f32⟩
  | 112 => ⟨S16x8x128x128, .f32⟩
  | 113 => ⟨S_, .f32⟩
  | 114 => ⟨S16x8, .f32⟩
  | 115 => ⟨S16x8, .f32⟩
  | 116 => ⟨S_, .f32⟩
  | 117 => ⟨S16, .f32⟩
  | 118 => ⟨S_, .f32⟩
  | 119 => ⟨S16, .f32⟩
  | 120 => ⟨S16, .f32⟩
  | _ => ⟨S16x8x128x128, .f32⟩

abbrev hbmTy (i : Nat) : BufTy := match i / 128 with
  | 0 => hbmTy0_0 i
  | 1 => hbmTy0_1 i
  | 2 => hbmTy0_2 i
  | 3 => hbmTy0_3 i
  | _ => ⟨S16x8x128x128, .f32⟩

abbrev bufTy : (tb : Table) → Fin (tcTables nBuf tb) → BufTy
  | .hbm, ⟨i, _⟩ => hbmTy i
  | _, _ => ⟨S16x8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_v136 : Ref sig .tc := ⟨.hbm, 141, rfl⟩
abbrev main_v137 : Ref sig .tc := ⟨.hbm, 142, rfl⟩
abbrev main_v138 : Ref sig .tc := ⟨.hbm, 143, rfl⟩
abbrev main_v139 : Ref sig .tc := ⟨.hbm, 144, rfl⟩
abbrev main_v140 : Ref sig .tc := ⟨.hbm, 145, rfl⟩
abbrev main_v141 : Ref sig .tc := ⟨.hbm, 146, rfl⟩
abbrev main_v142 : Ref sig .tc := ⟨.hbm, 147, rfl⟩
abbrev main_v143 : Ref sig .tc := ⟨.hbm, 148, rfl⟩
abbrev main_v144 : Ref sig .tc := ⟨.hbm, 149, rfl⟩
abbrev main_v145 : Ref sig .tc := ⟨.hbm, 150, rfl⟩
abbrev main_v146 : Ref sig .tc := ⟨.hbm, 151, rfl⟩
abbrev main_v147 : Ref sig .tc := ⟨.hbm, 152, rfl⟩
abbrev main_v148 : Ref sig .tc := ⟨.hbm, 153, rfl⟩
abbrev main_v149 : Ref sig .tc := ⟨.hbm, 154, rfl⟩
abbrev main_v150 : Ref sig .tc := ⟨.hbm, 155, rfl⟩
abbrev main_v151 : Ref sig .tc := ⟨.hbm, 156, rfl⟩
abbrev main_v152 : Ref sig .tc := ⟨.hbm, 157, rfl⟩
abbrev main_v153 : Ref sig .tc := ⟨.hbm, 158, rfl⟩
abbrev main_v154 : Ref sig .tc := ⟨.hbm, 159, rfl⟩
abbrev main_v155 : Ref sig .tc := ⟨.hbm, 160, rfl⟩
abbrev main_v156 : Ref sig .tc := ⟨.hbm, 161, rfl⟩
abbrev main_v157 : Ref sig .tc := ⟨.hbm, 162, rfl⟩
abbrev main_v158 : Ref sig .tc := ⟨.hbm, 163, rfl⟩
abbrev main_v159 : Ref sig .tc := ⟨.hbm, 164, rfl⟩
abbrev main_v160 : Ref sig .tc := ⟨.hbm, 165, rfl⟩
abbrev main_v161 : Ref sig .tc := ⟨.hbm, 166, rfl⟩
abbrev main_v162 : Ref sig .tc := ⟨.hbm, 167, rfl⟩
abbrev main_v163 : Ref sig .tc := ⟨.hbm, 168, rfl⟩
abbrev main_v164 : Ref sig .tc := ⟨.hbm, 169, rfl⟩
abbrev main_v165 : Ref sig .tc := ⟨.hbm, 170, rfl⟩
abbrev main_v166 : Ref sig .tc := ⟨.hbm, 171, rfl⟩
abbrev main_v167 : Ref sig .tc := ⟨.hbm, 172, rfl⟩
abbrev main_v168 : Ref sig .tc := ⟨.hbm, 173, rfl⟩
abbrev main_v169 : Ref sig .tc := ⟨.hbm, 174, rfl⟩
abbrev main_v170 : Ref sig .tc := ⟨.hbm, 175, rfl⟩
abbrev main_v171 : Ref sig .tc := ⟨.hbm, 176, rfl⟩
abbrev main_v172 : Ref sig .tc := ⟨.hbm, 177, rfl⟩
abbrev main_v173 : Ref sig .tc := ⟨.hbm, 178, rfl⟩
abbrev main_v174 : Ref sig .tc := ⟨.hbm, 179, rfl⟩
abbrev main_v175 : Ref sig .tc := ⟨.hbm, 180, rfl⟩
abbrev main_v176 : Ref sig .tc := ⟨.hbm, 181, rfl⟩
abbrev main_v177 : Ref sig .tc := ⟨.hbm, 182, rfl⟩
abbrev main_v178 : Ref sig .tc := ⟨.hbm, 183, rfl⟩
abbrev main_v179 : Ref sig .tc := ⟨.hbm, 184, rfl⟩
abbrev main_v180 : Ref sig .tc := ⟨.hbm, 185, rfl⟩
abbrev main_v181 : Ref sig .tc := ⟨.hbm, 186, rfl⟩
abbrev main_v182 : Ref sig .tc := ⟨.hbm, 187, rfl⟩
abbrev main_v183 : Ref sig .tc := ⟨.hbm, 188, rfl⟩
abbrev main_v184 : Ref sig .tc := ⟨.hbm, 189, rfl⟩
abbrev main_v185 : Ref sig .tc := ⟨.hbm, 190, rfl⟩
abbrev main_v186 : Ref sig .tc := ⟨.hbm, 191, rfl⟩
abbrev main_v187 : Ref sig .tc := ⟨.hbm, 192, rfl⟩
abbrev main_v188 : Ref sig .tc := ⟨.hbm, 193, rfl⟩
abbrev main_v189 : Ref sig .tc := ⟨.hbm, 194, rfl⟩
abbrev main_v190 : Ref sig .tc := ⟨.hbm, 195, rfl⟩
abbrev main_v191 : Ref sig .tc := ⟨.hbm, 196, rfl⟩
abbrev main_v192 : Ref sig .tc := ⟨.hbm, 197, rfl⟩
abbrev main_v193 : Ref sig .tc := ⟨.hbm, 198, rfl⟩
abbrev main_v194 : Ref sig .tc := ⟨.hbm, 199, rfl⟩
abbrev main_v195 : Ref sig .tc := ⟨.hbm, 200, rfl⟩
abbrev main_v196 : Ref sig .tc := ⟨.hbm, 201, rfl⟩
abbrev main_v197 : Ref sig .tc := ⟨.hbm, 202, rfl⟩
abbrev main_v198 : Ref sig .tc := ⟨.hbm, 203, rfl⟩
abbrev main_v199 : Ref sig .tc := ⟨.hbm, 204, rfl⟩
abbrev main_v200 : Ref sig .tc := ⟨.hbm, 205, rfl⟩
abbrev main_v201 : Ref sig .tc := ⟨.hbm, 206, rfl⟩
abbrev main_v202 : Ref sig .tc := ⟨.hbm, 207, rfl⟩
abbrev main_v203 : Ref sig .tc := ⟨.hbm, 208, rfl⟩
abbrev main_v204 : Ref sig .tc := ⟨.hbm, 209, rfl⟩
abbrev main_v205 : Ref sig .tc := ⟨.hbm, 210, rfl⟩
abbrev main_v206 : Ref sig .tc := ⟨.hbm, 211, rfl⟩
abbrev main_v207 : Ref sig .tc := ⟨.hbm, 212, rfl⟩
abbrev main_v208 : Ref sig .tc := ⟨.hbm, 213, rfl⟩
abbrev main_v209 : Ref sig .tc := ⟨.hbm, 214, rfl⟩
abbrev main_v210 : Ref sig .tc := ⟨.hbm, 215, rfl⟩
abbrev main_v211 : Ref sig .tc := ⟨.hbm, 216, rfl⟩
abbrev main_v212 : Ref sig .tc := ⟨.hbm, 217, rfl⟩
abbrev main_v213 : Ref sig .tc := ⟨.hbm, 218, rfl⟩
abbrev main_v214 : Ref sig .tc := ⟨.hbm, 219, rfl⟩
abbrev main_v215 : Ref sig .tc := ⟨.hbm, 220, rfl⟩
abbrev main_v216 : Ref sig .tc := ⟨.hbm, 221, rfl⟩
abbrev main_v217 : Ref sig .tc := ⟨.hbm, 222, rfl⟩
abbrev main_v218 : Ref sig .tc := ⟨.hbm, 223, rfl⟩
abbrev main_v219 : Ref sig .tc := ⟨.hbm, 224, rfl⟩
abbrev main_v220 : Ref sig .tc := ⟨.hbm, 225, rfl⟩
abbrev main_v221 : Ref sig .tc := ⟨.hbm, 226, rfl⟩
abbrev main_v222 : Ref sig .tc := ⟨.hbm, 227, rfl⟩
abbrev main_v223 : Ref sig .tc := ⟨.hbm, 228, rfl⟩
abbrev main_v224 : Ref sig .tc := ⟨.hbm, 229, rfl⟩
abbrev main_v225 : Ref sig .tc := ⟨.hbm, 230, rfl⟩
abbrev main_v226 : Ref sig .tc := ⟨.hbm, 231, rfl⟩
abbrev main_v227 : Ref sig .tc := ⟨.hbm, 232, rfl⟩
abbrev main_v228 : Ref sig .tc := ⟨.hbm, 233, rfl⟩
abbrev main_v229 : Ref sig .tc := ⟨.hbm, 234, rfl⟩
abbrev main_v230 : Ref sig .tc := ⟨.hbm, 235, rfl⟩
abbrev main_v231 : Ref sig .tc := ⟨.hbm, 236, rfl⟩
abbrev main_v232 : Ref sig .tc := ⟨.hbm, 237, rfl⟩
abbrev main_v233 : Ref sig .tc := ⟨.hbm, 238, rfl⟩
abbrev main_v234 : Ref sig .tc := ⟨.hbm, 239, rfl⟩
abbrev main_v235 : Ref sig .tc := ⟨.hbm, 240, rfl⟩
abbrev main_v236 : Ref sig .tc := ⟨.hbm, 241, rfl⟩
abbrev main_v237 : Ref sig .tc := ⟨.hbm, 242, rfl⟩
abbrev main_v238 : Ref sig .tc := ⟨.hbm, 243, rfl⟩
abbrev main_v239 : Ref sig .tc := ⟨.hbm, 244, rfl⟩
abbrev main_v240 : Ref sig .tc := ⟨.hbm, 245, rfl⟩
abbrev main_v241 : Ref sig .tc := ⟨.hbm, 246, rfl⟩
abbrev main_v242 : Ref sig .tc := ⟨.hbm, 247, rfl⟩
abbrev main_v243 : Ref sig .tc := ⟨.hbm, 248, rfl⟩
abbrev main_v244 : Ref sig .tc := ⟨.hbm, 249, rfl⟩
abbrev main_v245 : Ref sig .tc := ⟨.hbm, 250, rfl⟩
abbrev main_v246 : Ref sig .tc := ⟨.hbm, 251, rfl⟩
abbrev main_v247 : Ref sig .tc := ⟨.hbm, 252, rfl⟩
abbrev main_v248 : Ref sig .tc := ⟨.hbm, 253, rfl⟩
abbrev main_v249 : Ref sig .tc := ⟨.hbm, 254, rfl⟩
abbrev main_v250 : Ref sig .tc := ⟨.hbm, 255, rfl⟩
abbrev main_v251 : Ref sig .tc := ⟨.hbm, 256, rfl⟩
abbrev main_v252 : Ref sig .tc := ⟨.hbm, 257, rfl⟩
abbrev main_v253 : Ref sig .tc := ⟨.hbm, 258, rfl⟩
abbrev main_v254 : Ref sig .tc := ⟨.hbm, 259, rfl⟩
abbrev main_v255 : Ref sig .tc := ⟨.hbm, 260, rfl⟩
abbrev main_v256 : Ref sig .tc := ⟨.hbm, 261, rfl⟩
abbrev main_v257 : Ref sig .tc := ⟨.hbm, 262, rfl⟩
abbrev main_v258 : Ref sig .tc := ⟨.hbm, 263, rfl⟩
abbrev main_v259 : Ref sig .tc := ⟨.hbm, 264, rfl⟩
abbrev main_v260 : Ref sig .tc := ⟨.hbm, 265, rfl⟩
abbrev main_v261 : Ref sig .tc := ⟨.hbm, 266, rfl⟩
abbrev main_v262 : Ref sig .tc := ⟨.hbm, 267, rfl⟩
abbrev main_v263 : Ref sig .tc := ⟨.hbm, 268, rfl⟩
abbrev main_v264 : Ref sig .tc := ⟨.hbm, 269, rfl⟩
abbrev main_v265 : Ref sig .tc := ⟨.hbm, 270, rfl⟩
abbrev main_v266 : Ref sig .tc := ⟨.hbm, 271, rfl⟩
abbrev main_v267 : Ref sig .tc := ⟨.hbm, 272, rfl⟩
abbrev main_v268 : Ref sig .tc := ⟨.hbm, 273, rfl⟩
abbrev main_v269 : Ref sig .tc := ⟨.hbm, 274, rfl⟩
abbrev main_v270 : Ref sig .tc := ⟨.hbm, 275, rfl⟩
abbrev main_v271 : Ref sig .tc := ⟨.hbm, 276, rfl⟩
abbrev main_v272 : Ref sig .tc := ⟨.hbm, 277, rfl⟩
abbrev main_v273 : Ref sig .tc := ⟨.hbm, 278, rfl⟩
abbrev main_v274 : Ref sig .tc := ⟨.hbm, 279, rfl⟩
abbrev main_v275 : Ref sig .tc := ⟨.hbm, 280, rfl⟩
abbrev main_v276 : Ref sig .tc := ⟨.hbm, 281, rfl⟩
abbrev main_v277 : Ref sig .tc := ⟨.hbm, 282, rfl⟩
abbrev main_v278 : Ref sig .tc := ⟨.hbm, 283, rfl⟩
abbrev main_v279 : Ref sig .tc := ⟨.hbm, 284, rfl⟩
abbrev main_v280 : Ref sig .tc := ⟨.hbm, 285, rfl⟩
abbrev main_v281 : Ref sig .tc := ⟨.hbm, 286, rfl⟩
abbrev main_v282 : Ref sig .tc := ⟨.hbm, 287, rfl⟩
abbrev main_v283 : Ref sig .tc := ⟨.hbm, 288, rfl⟩
abbrev main_v284 : Ref sig .tc := ⟨.hbm, 289, rfl⟩
abbrev main_v285 : Ref sig .tc := ⟨.hbm, 290, rfl⟩
abbrev main_v286 : Ref sig .tc := ⟨.hbm, 291, rfl⟩
abbrev main_v287 : Ref sig .tc := ⟨.hbm, 292, rfl⟩
abbrev main_v288 : Ref sig .tc := ⟨.hbm, 293, rfl⟩
abbrev main_v289 : Ref sig .tc := ⟨.hbm, 294, rfl⟩
abbrev main_v290 : Ref sig .tc := ⟨.hbm, 295, rfl⟩
abbrev main_v291 : Ref sig .tc := ⟨.hbm, 296, rfl⟩
abbrev main_v292 : Ref sig .tc := ⟨.hbm, 297, rfl⟩
abbrev main_v293 : Ref sig .tc := ⟨.hbm, 298, rfl⟩
abbrev main_v294 : Ref sig .tc := ⟨.hbm, 299, rfl⟩
abbrev main_v295 : Ref sig .tc := ⟨.hbm, 300, rfl⟩
abbrev main_v296 : Ref sig .tc := ⟨.hbm, 301, rfl⟩
abbrev main_v297 : Ref sig .tc := ⟨.hbm, 302, rfl⟩
abbrev main_v298 : Ref sig .tc := ⟨.hbm, 303, rfl⟩
abbrev main_v299 : Ref sig .tc := ⟨.hbm, 304, rfl⟩
abbrev main_v300 : Ref sig .tc := ⟨.hbm, 305, rfl⟩
abbrev main_v301 : Ref sig .tc := ⟨.hbm, 306, rfl⟩
abbrev main_v302 : Ref sig .tc := ⟨.hbm, 307, rfl⟩
abbrev main_v303 : Ref sig .tc := ⟨.hbm, 308, rfl⟩
abbrev main_v304 : Ref sig .tc := ⟨.hbm, 309, rfl⟩
abbrev main_v305 : Ref sig .tc := ⟨.hbm, 310, rfl⟩
abbrev main_v306 : Ref sig .tc := ⟨.hbm, 311, rfl⟩
abbrev main_v307 : Ref sig .tc := ⟨.hbm, 312, rfl⟩
abbrev main_v308 : Ref sig .tc := ⟨.hbm, 313, rfl⟩
abbrev main_v309 : Ref sig .tc := ⟨.hbm, 314, rfl⟩
abbrev main_v310 : Ref sig .tc := ⟨.hbm, 315, rfl⟩
abbrev main_v311 : Ref sig .tc := ⟨.hbm, 316, rfl⟩
abbrev main_v312 : Ref sig .tc := ⟨.hbm, 317, rfl⟩
abbrev main_v313 : Ref sig .tc := ⟨.hbm, 318, rfl⟩
abbrev main_v314 : Ref sig .tc := ⟨.hbm, 319, rfl⟩
abbrev main_v315 : Ref sig .tc := ⟨.hbm, 320, rfl⟩
abbrev main_v316 : Ref sig .tc := ⟨.hbm, 321, rfl⟩
abbrev main_v317 : Ref sig .tc := ⟨.hbm, 322, rfl⟩
abbrev main_v318 : Ref sig .tc := ⟨.hbm, 323, rfl⟩
abbrev main_v319 : Ref sig .tc := ⟨.hbm, 324, rfl⟩
abbrev main_v320 : Ref sig .tc := ⟨.hbm, 325, rfl⟩
abbrev main_v321 : Ref sig .tc := ⟨.hbm, 326, rfl⟩
abbrev main_v322 : Ref sig .tc := ⟨.hbm, 327, rfl⟩
abbrev main_v323 : Ref sig .tc := ⟨.hbm, 328, rfl⟩
abbrev main_v324 : Ref sig .tc := ⟨.hbm, 329, rfl⟩
abbrev main_v325 : Ref sig .tc := ⟨.hbm, 330, rfl⟩
abbrev main_v326 : Ref sig .tc := ⟨.hbm, 331, rfl⟩
abbrev main_v327 : Ref sig .tc := ⟨.hbm, 332, rfl⟩
abbrev main_v328 : Ref sig .tc := ⟨.hbm, 333, rfl⟩
abbrev main_v329 : Ref sig .tc := ⟨.hbm, 334, rfl⟩
abbrev main_v330 : Ref sig .tc := ⟨.hbm, 335, rfl⟩
abbrev main_v331 : Ref sig .tc := ⟨.hbm, 336, rfl⟩
abbrev main_v332 : Ref sig .tc := ⟨.hbm, 337, rfl⟩
abbrev main_v333 : Ref sig .tc := ⟨.hbm, 338, rfl⟩
abbrev main_v334 : Ref sig .tc := ⟨.hbm, 339, rfl⟩
abbrev main_v335 : Ref sig .tc := ⟨.hbm, 340, rfl⟩
abbrev main_v336 : Ref sig .tc := ⟨.hbm, 341, rfl⟩
abbrev main_v337 : Ref sig .tc := ⟨.hbm, 342, rfl⟩
abbrev main_v338 : Ref sig .tc := ⟨.hbm, 343, rfl⟩
abbrev main_v339 : Ref sig .tc := ⟨.hbm, 344, rfl⟩
abbrev main_v340 : Ref sig .tc := ⟨.hbm, 345, rfl⟩
abbrev main_v341 : Ref sig .tc := ⟨.hbm, 346, rfl⟩
abbrev main_v342 : Ref sig .tc := ⟨.hbm, 347, rfl⟩
abbrev main_v343 : Ref sig .tc := ⟨.hbm, 348, rfl⟩
abbrev main_v344 : Ref sig .tc := ⟨.hbm, 349, rfl⟩
abbrev main_v345 : Ref sig .tc := ⟨.hbm, 350, rfl⟩
abbrev main_v346 : Ref sig .tc := ⟨.hbm, 351, rfl⟩
abbrev main_v347 : Ref sig .tc := ⟨.hbm, 352, rfl⟩
abbrev main_v348 : Ref sig .tc := ⟨.hbm, 353, rfl⟩
abbrev main_v349 : Ref sig .tc := ⟨.hbm, 354, rfl⟩
abbrev main_v350 : Ref sig .tc := ⟨.hbm, 355, rfl⟩
abbrev main_v351 : Ref sig .tc := ⟨.hbm, 356, rfl⟩
abbrev main_v352 : Ref sig .tc := ⟨.hbm, 357, rfl⟩
abbrev main_v353 : Ref sig .tc := ⟨.hbm, 358, rfl⟩
abbrev main_v354 : Ref sig .tc := ⟨.hbm, 359, rfl⟩
abbrev main_v355 : Ref sig .tc := ⟨.hbm, 360, rfl⟩
abbrev main_v356 : Ref sig .tc := ⟨.hbm, 361, rfl⟩
abbrev main_v357 : Ref sig .tc := ⟨.hbm, 362, rfl⟩
abbrev main_v358 : Ref sig .tc := ⟨.hbm, 363, rfl⟩
abbrev main_v359 : Ref sig .tc := ⟨.hbm, 364, rfl⟩
abbrev main_v360 : Ref sig .tc := ⟨.hbm, 365, rfl⟩
abbrev main_v361 : Ref sig .tc := ⟨.hbm, 366, rfl⟩
abbrev main_v362 : Ref sig .tc := ⟨.hbm, 367, rfl⟩
abbrev main_v363 : Ref sig .tc := ⟨.hbm, 368, rfl⟩
abbrev main_v364 : Ref sig .tc := ⟨.hbm, 369, rfl⟩
abbrev main_v365 : Ref sig .tc := ⟨.hbm, 370, rfl⟩
abbrev main_v366 : Ref sig .tc := ⟨.hbm, 371, rfl⟩
abbrev main_v367 : Ref sig .tc := ⟨.hbm, 372, rfl⟩
abbrev main_v368 : Ref sig .tc := ⟨.hbm, 373, rfl⟩
abbrev main_v369 : Ref sig .tc := ⟨.hbm, 374, rfl⟩
abbrev main_v370 : Ref sig .tc := ⟨.hbm, 375, rfl⟩
abbrev main_v371 : Ref sig .tc := ⟨.hbm, 376, rfl⟩
abbrev main_v372 : Ref sig .tc := ⟨.hbm, 377, rfl⟩
abbrev main_v373 : Ref sig .tc := ⟨.hbm, 378, rfl⟩
abbrev main_v374 : Ref sig .tc := ⟨.hbm, 379, rfl⟩
abbrev main_v375 : Ref sig .tc := ⟨.hbm, 380, rfl⟩
abbrev main_v376 : Ref sig .tc := ⟨.hbm, 381, rfl⟩
abbrev main_v377 : Ref sig .tc := ⟨.hbm, 382, rfl⟩
abbrev main_v378 : Ref sig .tc := ⟨.hbm, 383, rfl⟩
abbrev main_v379 : Ref sig .tc := ⟨.hbm, 384, rfl⟩
abbrev main_v380 : Ref sig .tc := ⟨.hbm, 385, rfl⟩
abbrev main_v381 : Ref sig .tc := ⟨.hbm, 386, rfl⟩
abbrev main_v382 : Ref sig .tc := ⟨.hbm, 387, rfl⟩
abbrev main_v383 : Ref sig .tc := ⟨.hbm, 388, rfl⟩
abbrev main_v384 : Ref sig .tc := ⟨.hbm, 389, rfl⟩
abbrev main_v385 : Ref sig .tc := ⟨.hbm, 390, rfl⟩
abbrev main_v386 : Ref sig .tc := ⟨.hbm, 391, rfl⟩
abbrev main_v387 : Ref sig .tc := ⟨.hbm, 392, rfl⟩
abbrev main_v388 : Ref sig .tc := ⟨.hbm, 393, rfl⟩
abbrev main_v389 : Ref sig .tc := ⟨.hbm, 394, rfl⟩
abbrev main_v390 : Ref sig .tc := ⟨.hbm, 395, rfl⟩
abbrev main_v391 : Ref sig .tc := ⟨.hbm, 396, rfl⟩
abbrev main_v392 : Ref sig .tc := ⟨.hbm, 397, rfl⟩
abbrev main_v393 : Ref sig .tc := ⟨.hbm, 398, rfl⟩
abbrev main_v394 : Ref sig .tc := ⟨.hbm, 399, rfl⟩
abbrev main_v395 : Ref sig .tc := ⟨.hbm, 400, rfl⟩
abbrev main_v396 : Ref sig .tc := ⟨.hbm, 401, rfl⟩
abbrev main_v397 : Ref sig .tc := ⟨.hbm, 402, rfl⟩
abbrev main_v398 : Ref sig .tc := ⟨.hbm, 403, rfl⟩
abbrev main_v399 : Ref sig .tc := ⟨.hbm, 404, rfl⟩
abbrev main_v400 : Ref sig .tc := ⟨.hbm, 405, rfl⟩
abbrev main_v401 : Ref sig .tc := ⟨.hbm, 406, rfl⟩
abbrev main_v402 : Ref sig .tc := ⟨.hbm, 407, rfl⟩
abbrev main_v403 : Ref sig .tc := ⟨.hbm, 408, rfl⟩
abbrev main_v404 : Ref sig .tc := ⟨.hbm, 409, rfl⟩
abbrev main_v405 : Ref sig .tc := ⟨.hbm, 410, rfl⟩
abbrev main_v406 : Ref sig .tc := ⟨.hbm, 411, rfl⟩
abbrev main_v407 : Ref sig .tc := ⟨.hbm, 412, rfl⟩
abbrev main_v408 : Ref sig .tc := ⟨.hbm, 413, rfl⟩
abbrev main_v409 : Ref sig .tc := ⟨.hbm, 414, rfl⟩
abbrev main_v410 : Ref sig .tc := ⟨.hbm, 415, rfl⟩
abbrev main_v411 : Ref sig .tc := ⟨.hbm, 416, rfl⟩
abbrev main_v412 : Ref sig .tc := ⟨.hbm, 417, rfl⟩
abbrev main_v413 : Ref sig .tc := ⟨.hbm, 418, rfl⟩
abbrev main_v414 : Ref sig .tc := ⟨.hbm, 419, rfl⟩
abbrev main_v415 : Ref sig .tc := ⟨.hbm, 420, rfl⟩
abbrev main_v416 : Ref sig .tc := ⟨.hbm, 421, rfl⟩
abbrev main_v417 : Ref sig .tc := ⟨.hbm, 422, rfl⟩
abbrev main_v418 : Ref sig .tc := ⟨.hbm, 423, rfl⟩
abbrev main_v419 : Ref sig .tc := ⟨.hbm, 424, rfl⟩
abbrev main_v420 : Ref sig .tc := ⟨.hbm, 425, rfl⟩
abbrev main_v421 : Ref sig .tc := ⟨.hbm, 426, rfl⟩
abbrev main_v422 : Ref sig .tc := ⟨.hbm, 427, rfl⟩
abbrev main_v423 : Ref sig .tc := ⟨.hbm, 428, rfl⟩
abbrev main_v424 : Ref sig .tc := ⟨.hbm, 429, rfl⟩
abbrev main_v425 : Ref sig .tc := ⟨.hbm, 430, rfl⟩
abbrev main_v426 : Ref sig .tc := ⟨.hbm, 431, rfl⟩
abbrev main_v427 : Ref sig .tc := ⟨.hbm, 432, rfl⟩
abbrev main_v428 : Ref sig .tc := ⟨.hbm, 433, rfl⟩
abbrev main_v429 : Ref sig .tc := ⟨.hbm, 434, rfl⟩
abbrev main_v430 : Ref sig .tc := ⟨.hbm, 435, rfl⟩
abbrev main_v431 : Ref sig .tc := ⟨.hbm, 436, rfl⟩
abbrev main_v432 : Ref sig .tc := ⟨.hbm, 437, rfl⟩
abbrev main_v433 : Ref sig .tc := ⟨.hbm, 438, rfl⟩
abbrev main_v434 : Ref sig .tc := ⟨.hbm, 439, rfl⟩
abbrev main_v435 : Ref sig .tc := ⟨.hbm, 440, rfl⟩
abbrev main_v436 : Ref sig .tc := ⟨.hbm, 441, rfl⟩
abbrev main_v437 : Ref sig .tc := ⟨.hbm, 442, rfl⟩
abbrev main_v438 : Ref sig .tc := ⟨.hbm, 443, rfl⟩
abbrev main_v439 : Ref sig .tc := ⟨.hbm, 444, rfl⟩
abbrev main_v440 : Ref sig .tc := ⟨.hbm, 445, rfl⟩
abbrev main_v441 : Ref sig .tc := ⟨.hbm, 446, rfl⟩
abbrev main_v442 : Ref sig .tc := ⟨.hbm, 447, rfl⟩
abbrev main_v443 : Ref sig .tc := ⟨.hbm, 448, rfl⟩
abbrev main_v444 : Ref sig .tc := ⟨.hbm, 449, rfl⟩
abbrev main_v445 : Ref sig .tc := ⟨.hbm, 450, rfl⟩
abbrev main_v446 : Ref sig .tc := ⟨.hbm, 451, rfl⟩
abbrev main_v447 : Ref sig .tc := ⟨.hbm, 452, rfl⟩
abbrev main_v448 : Ref sig .tc := ⟨.hbm, 453, rfl⟩
abbrev main_v449 : Ref sig .tc := ⟨.hbm, 454, rfl⟩
abbrev main_v450 : Ref sig .tc := ⟨.hbm, 455, rfl⟩
abbrev main_v451 : Ref sig .tc := ⟨.hbm, 456, rfl⟩
abbrev main_v452 : Ref sig .tc := ⟨.hbm, 457, rfl⟩
abbrev main_v453 : Ref sig .tc := ⟨.hbm, 458, rfl⟩
abbrev main_v454 : Ref sig .tc := ⟨.hbm, 459, rfl⟩
abbrev main_v455 : Ref sig .tc := ⟨.hbm, 460, rfl⟩
abbrev main_v456 : Ref sig .tc := ⟨.hbm, 461, rfl⟩
abbrev main_v457 : Ref sig .tc := ⟨.hbm, 462, rfl⟩
abbrev main_v458 : Ref sig .tc := ⟨.hbm, 463, rfl⟩
abbrev main_v459 : Ref sig .tc := ⟨.hbm, 464, rfl⟩
abbrev main_v460 : Ref sig .tc := ⟨.hbm, 465, rfl⟩
abbrev main_v461 : Ref sig .tc := ⟨.hbm, 466, rfl⟩
abbrev main_v462 : Ref sig .tc := ⟨.hbm, 467, rfl⟩
abbrev main_v463 : Ref sig .tc := ⟨.hbm, 468, rfl⟩
abbrev main_v464 : Ref sig .tc := ⟨.hbm, 469, rfl⟩
abbrev main_v465 : Ref sig .tc := ⟨.hbm, 470, rfl⟩
abbrev main_v466 : Ref sig .tc := ⟨.hbm, 471, rfl⟩
abbrev main_v467 : Ref sig .tc := ⟨.hbm, 472, rfl⟩
abbrev main_v468 : Ref sig .tc := ⟨.hbm, 473, rfl⟩
abbrev main_v469 : Ref sig .tc := ⟨.hbm, 474, rfl⟩
abbrev main_v470 : Ref sig .tc := ⟨.hbm, 475, rfl⟩
abbrev main_v471 : Ref sig .tc := ⟨.hbm, 476, rfl⟩
abbrev main_v472 : Ref sig .tc := ⟨.hbm, 477, rfl⟩
abbrev main_v473 : Ref sig .tc := ⟨.hbm, 478, rfl⟩
abbrev main_v474 : Ref sig .tc := ⟨.hbm, 479, rfl⟩
abbrev main_v475 : Ref sig .tc := ⟨.hbm, 480, rfl⟩
abbrev main_v476 : Ref sig .tc := ⟨.hbm, 481, rfl⟩
abbrev main_v477 : Ref sig .tc := ⟨.hbm, 482, rfl⟩
abbrev main_v478 : Ref sig .tc := ⟨.hbm, 483, rfl⟩
abbrev main_v479 : Ref sig .tc := ⟨.hbm, 484, rfl⟩
abbrev main_v480 : Ref sig .tc := ⟨.hbm, 485, rfl⟩
abbrev main_v481 : Ref sig .tc := ⟨.hbm, 486, rfl⟩
abbrev main_v482 : Ref sig .tc := ⟨.hbm, 487, rfl⟩
abbrev main_v483 : Ref sig .tc := ⟨.hbm, 488, rfl⟩
abbrev main_v484 : Ref sig .tc := ⟨.hbm, 489, rfl⟩
abbrev main_v485 : Ref sig .tc := ⟨.hbm, 490, rfl⟩
abbrev main_v486 : Ref sig .tc := ⟨.hbm, 491, rfl⟩
abbrev main_v487 : Ref sig .tc := ⟨.hbm, 492, rfl⟩
abbrev main_cst_0 : Ref sig .tc := ⟨.hbm, 493, rfl⟩
abbrev main_v488 : Ref sig .tc := ⟨.hbm, 494, rfl⟩
abbrev main_v489 : Ref sig .tc := ⟨.hbm, 495, rfl⟩
abbrev main_v490 : Ref sig .tc := ⟨.hbm, 496, rfl⟩
abbrev main_cst_1 : Ref sig .tc := ⟨.hbm, 497, rfl⟩
abbrev main_v491 : Ref sig .tc := ⟨.hbm, 498, rfl⟩
abbrev main_v492 : Ref sig .tc := ⟨.hbm, 499, rfl⟩
abbrev main_cst_2 : Ref sig .tc := ⟨.hbm, 500, rfl⟩
abbrev main_v493 : Ref sig .tc := ⟨.hbm, 501, rfl⟩
abbrev main_cst_3 : Ref sig .tc := ⟨.hbm, 502, rfl⟩
abbrev main_v494 : Ref sig .tc := ⟨.hbm, 503, rfl⟩
abbrev main_v495 : Ref sig .tc := ⟨.hbm, 504, rfl⟩

abbrev nD : Nat := 1
abbrev τ : Topo := Topo.v7x

variable {F : FTy → Type} [FloatOps F]

class Facts₀ : Prop where
  bcast_S_S16x8x128x128 : S_.BroadcastsInDim S16x8x128x128 (![] : Fin 0 → Fin S16x8x128x128.rank)
  slices_S16x8x136x136_S16x8x128x128_0_0_0_0 : S16x8x136x136.Slices ![0, 0, 0, 0] S16x8x128x128
  slices_S16x1x128x128x9x9_S16x1x128x128x1x1_0_0_0_0_0_0 : S16x1x128x128x9x9.Slices ![0, 0, 0, 0, 0, 0] S16x1x128x128x1x1
  shapeCasts_S16x1x128x128x1x1_S16x1x128x128 : S16x1x128x128x1x1.ShapeCasts S16x1x128x128
  bcast_S16x1x128x128_S16x8x128x128_0_1_2_3 : S16x1x128x128.BroadcastsInDim S16x8x128x128 (![0, 1, 2, 3] : Fin 4 → Fin S16x8x128x128.rank)
  slices_S16x8x136x136_S16x8x128x128_0_0_0_1 : S16x8x136x136.Slices ![0, 0, 0, 1] S16x8x128x128
  slices_S16x1x128x128x9x9_S16x1x128x128x1x1_0_0_0_0_0_1 : S16x1x128x128x9x9.Slices ![0, 0, 0, 0, 0, 1] S16x1x128x128x1x1
  slices_S16x8x136x136_S16x8x128x128_0_0_0_2 : S16x8x136x136.Slices ![0, 0, 0, 2] S16x8x128x128
  slices_S16x1x128x128x9x9_S16x1x128x128x1x1_0_0_0_0_0_2 : S16x1x128x128x9x9.Slices ![0, 0, 0, 0, 0, 2] S16x1x128x128x1x1
  slices_S16x8x136x136_S16x8x128x128_0_0_0_3 : S16x8x136x136.Slices ![0, 0, 0, 3] S16x8x128x128
  slices_S16x1x128x128x9x9_S16x1x128x128x1x1_0_0_0_0_0_3 : S16x1x128x128x9x9.Slices ![0, 0, 0, 0, 0, 3] S16x1x128x128x1x1
  slices_S16x8x136x136_S16x8x128x128_0_0_0_4 : S16x8x136x136.Slices ![0, 0, 0, 4] S16x8x128x128
  slices_S16x1x128x128x9x9_S16x1x128x128x1x1_0_0_0_0_0_4 : S16x1x128x128x9x9.Slices ![0, 0, 0, 0, 0, 4] S16x1x128x128x1x1
  slices_S16x8x136x136_S16x8x128x128_0_0_0_5 : S16x8x136x136.Slices ![0, 0, 0, 5] S16x8x128x128
  slices_S16x1x128x128x9x9_S16x1x128x128x1x1_0_0_0_0_0_5 : S16x1x128x128x9x9.Slices ![0, 0, 0, 0, 0, 5] S16x1x128x128x1x1
  slices_S16x8x136x136_S16x8x128x128_0_0_0_6 : S16x8x136x136.Slices ![0, 0, 0, 6] S16x8x128x128
  slices_S16x1x128x128x9x9_S16x1x128x128x1x1_0_0_0_0_0_6 : S16x1x128x128x9x9.Slices ![0, 0, 0, 0, 0, 6] S16x1x128x128x1x1
  slices_S16x8x136x136_S16x8x128x128_0_0_0_7 : S16x8x136x136.Slices ![0, 0, 0, 7] S16x8x128x128
  slices_S16x1x128x128x9x9_S16x1x128x128x1x1_0_0_0_0_0_7 : S16x1x128x128x9x9.Slices ![0, 0, 0, 0, 0, 7] S16x1x128x128x1x1
  slices_S16x8x136x136_S16x8x128x128_0_0_0_8 : S16x8x136x136.Slices ![0, 0, 0, 8] S16x8x128x128
  slices_S16x1x128x128x9x9_S16x1x128x128x1x1_0_0_0_0_0_8 : S16x1x128x128x9x9.Slices ![0, 0, 0, 0, 0, 8] S16x1x128x128x1x1
  slices_S16x8x136x136_S16x8x128x128_0_0_1_0 : S16x8x136x136.Slices ![0, 0, 1, 0] S16x8x128x128
  slices_S16x1x128x128x9x9_S16x1x128x128x1x1_0_0_0_0_1_0 : S16x1x128x128x9x9.Slices ![0, 0, 0, 0, 1, 0] S16x1x128x128x1x1
  slices_S16x8x136x136_S16x8x128x128_0_0_1_1 : S16x8x136x136.Slices ![0, 0, 1, 1] S16x8x128x128
  slices_S16x1x128x128x9x9_S16x1x128x128x1x1_0_0_0_0_1_1 : S16x1x128x128x9x9.Slices ![0, 0, 0, 0, 1, 1] S16x1x128x128x1x1
  slices_S16x8x136x136_S16x8x128x128_0_0_1_2 : S16x8x136x136.Slices ![0, 0, 1, 2] S16x8x128x128
  slices_S16x1x128x128x9x9_S16x1x128x128x1x1_0_0_0_0_1_2 : S16x1x128x128x9x9.Slices ![0, 0, 0, 0, 1, 2] S16x1x128x128x1x1
  slices_S16x8x136x136_S16x8x128x128_0_0_1_3 : S16x8x136x136.Slices ![0, 0, 1, 3] S16x8x128x128
  slices_S16x1x128x128x9x9_S16x1x128x128x1x1_0_0_0_0_1_3 : S16x1x128x128x9x9.Slices ![0, 0, 0, 0, 1, 3] S16x1x128x128x1x1
  slices_S16x8x136x136_S16x8x128x128_0_0_1_4 : S16x8x136x136.Slices ![0, 0, 1, 4] S16x8x128x128
  slices_S16x1x128x128x9x9_S16x1x128x128x1x1_0_0_0_0_1_4 : S16x1x128x128x9x9.Slices ![0, 0, 0, 0, 1, 4] S16x1x128x128x1x1
  slices_S16x8x136x136_S16x8x128x128_0_0_1_5 : S16x8x136x136.Slices ![0, 0, 1, 5] S16x8x128x128
  slices_S16x1x128x128x9x9_S16x1x128x128x1x1_0_0_0_0_1_5 : S16x1x128x128x9x9.Slices ![0, 0, 0, 0, 1, 5] S16x1x128x128x1x1
  slices_S16x8x136x136_S16x8x128x128_0_0_1_6 : S16x8x136x136.Slices ![0, 0, 1, 6] S16x8x128x128
  slices_S16x1x128x128x9x9_S16x1x128x128x1x1_0_0_0_0_1_6 : S16x1x128x128x9x9.Slices ![0, 0, 0, 0, 1, 6] S16x1x128x128x1x1
  slices_S16x8x136x136_S16x8x128x128_0_0_1_7 : S16x8x136x136.Slices ![0, 0, 1, 7] S16x8x128x128
  slices_S16x1x128x128x9x9_S16x1x128x128x1x1_0_0_0_0_1_7 : S16x1x128x128x9x9.Slices ![0, 0, 0, 0, 1, 7] S16x1x128x128x1x1
  slices_S16x8x136x136_S16x8x128x128_0_0_1_8 : S16x8x136x136.Slices ![0, 0, 1, 8] S16x8x128x128
  slices_S16x1x128x128x9x9_S16x1x128x128x1x1_0_0_0_0_1_8 : S16x1x128x128x9x9.Slices ![0, 0, 0, 0, 1, 8] S16x1x128x128x1x1
  slices_S16x8x136x136_S16x8x128x128_0_0_2_0 : S16x8x136x136.Slices ![0, 0, 2, 0] S16x8x128x128
  slices_S16x1x128x128x9x9_S16x1x128x128x1x1_0_0_0_0_2_0 : S16x1x128x128x9x9.Slices ![0, 0, 0, 0, 2, 0] S16x1x128x128x1x1
  slices_S16x8x136x136_S16x8x128x128_0_0_2_1 : S16x8x136x136.Slices ![0, 0, 2, 1] S16x8x128x128
  slices_S16x1x128x128x9x9_S16x1x128x128x1x1_0_0_0_0_2_1 : S16x1x128x128x9x9.Slices ![0, 0, 0, 0, 2, 1] S16x1x128x128x1x1
  slices_S16x8x136x136_S16x8x128x128_0_0_2_2 : S16x8x136x136.Slices ![0, 0, 2, 2] S16x8x128x128
  slices_S16x1x128x128x9x9_S16x1x128x128x1x1_0_0_0_0_2_2 : S16x1x128x128x9x9.Slices ![0, 0, 0, 0, 2, 2] S16x1x128x128x1x1
  slices_S16x8x136x136_S16x8x128x128_0_0_2_3 : S16x8x136x136.Slices ![0, 0, 2, 3] S16x8x128x128
  slices_S16x1x128x128x9x9_S16x1x128x128x1x1_0_0_0_0_2_3 : S16x1x128x128x9x9.Slices ![0, 0, 0, 0, 2, 3] S16x1x128x128x1x1
  slices_S16x8x136x136_S16x8x128x128_0_0_2_4 : S16x8x136x136.Slices ![0, 0, 2, 4] S16x8x128x128
  slices_S16x1x128x128x9x9_S16x1x128x128x1x1_0_0_0_0_2_4 : S16x1x128x128x9x9.Slices ![0, 0, 0, 0, 2, 4] S16x1x128x128x1x1
  slices_S16x8x136x136_S16x8x128x128_0_0_2_5 : S16x8x136x136.Slices ![0, 0, 2, 5] S16x8x128x128
  slices_S16x1x128x128x9x9_S16x1x128x128x1x1_0_0_0_0_2_5 : S16x1x128x128x9x9.Slices ![0, 0, 0, 0, 2, 5] S16x1x128x128x1x1
  slices_S16x8x136x136_S16x8x128x128_0_0_2_6 : S16x8x136x136.Slices ![0, 0, 2, 6] S16x8x128x128
  slices_S16x1x128x128x9x9_S16x1x128x128x1x1_0_0_0_0_2_6 : S16x1x128x128x9x9.Slices ![0, 0, 0, 0, 2, 6] S16x1x128x128x1x1
  slices_S16x8x136x136_S16x8x128x128_0_0_2_7 : S16x8x136x136.Slices ![0, 0, 2, 7] S16x8x128x128
  slices_S16x1x128x128x9x9_S16x1x128x128x1x1_0_0_0_0_2_7 : S16x1x128x128x9x9.Slices ![0, 0, 0, 0, 2, 7] S16x1x128x128x1x1
  slices_S16x8x136x136_S16x8x128x128_0_0_2_8 : S16x8x136x136.Slices ![0, 0, 2, 8] S16x8x128x128
  slices_S16x1x128x128x9x9_S16x1x128x128x1x1_0_0_0_0_2_8 : S16x1x128x128x9x9.Slices ![0, 0, 0, 0, 2, 8] S16x1x128x128x1x1
  slices_S16x8x136x136_S16x8x128x128_0_0_3_0 : S16x8x136x136.Slices ![0, 0, 3, 0] S16x8x128x128
  slices_S16x1x128x128x9x9_S16x1x128x128x1x1_0_0_0_0_3_0 : S16x1x128x128x9x9.Slices ![0, 0, 0, 0, 3, 0] S16x1x128x128x1x1
  slices_S16x8x136x136_S16x8x128x128_0_0_3_1 : S16x8x136x136.Slices ![0, 0, 3, 1] S16x8x128x128
  slices_S16x1x128x128x9x9_S16x1x128x128x1x1_0_0_0_0_3_1 : S16x1x128x128x9x9.Slices ![0, 0, 0, 0, 3, 1] S16x1x128x128x1x1
  slices_S16x8x136x136_S16x8x128x128_0_0_3_2 : S16x8x136x136.Slices ![0, 0, 3, 2] S16x8x128x128
  slices_S16x1x128x128x9x9_S16x1x128x128x1x1_0_0_0_0_3_2 : S16x1x128x128x9x9.Slices ![0, 0, 0, 0, 3, 2] S16x1x128x128x1x1
  slices_S16x8x136x136_S16x8x128x128_0_0_3_3 : S16x8x136x136.Slices ![0, 0, 3, 3] S16x8x128x128
  slices_S16x1x128x128x9x9_S16x1x128x128x1x1_0_0_0_0_3_3 : S16x1x128x128x9x9.Slices ![0, 0, 0, 0, 3, 3] S16x1x128x128x1x1
  slices_S16x8x136x136_S16x8x128x128_0_0_3_4 : S16x8x136x136.Slices ![0, 0, 3, 4] S16x8x128x128
  slices_S16x1x128x128x9x9_S16x1x128x128x1x1_0_0_0_0_3_4 : S16x1x128x128x9x9.Slices ![0, 0, 0, 0, 3, 4] S16x1x128x128x1x1
  slices_S16x8x136x136_S16x8x128x128_0_0_3_5 : S16x8x136x136.Slices ![0, 0, 3, 5] S16x8x128x128
  slices_S16x1x128x128x9x9_S16x1x128x128x1x1_0_0_0_0_3_5 : S16x1x128x128x9x9.Slices ![0, 0, 0, 0, 3, 5] S16x1x128x128x1x1
  slices_S16x8x136x136_S16x8x128x128_0_0_3_6 : S16x8x136x136.Slices ![0, 0, 3, 6] S16x8x128x128
  slices_S16x1x128x128x9x9_S16x1x128x128x1x1_0_0_0_0_3_6 : S16x1x128x128x9x9.Slices ![0, 0, 0, 0, 3, 6] S16x1x128x128x1x1
  slices_S16x8x136x136_S16x8x128x128_0_0_3_7 : S16x8x136x136.Slices ![0, 0, 3, 7] S16x8x128x128
  slices_S16x1x128x128x9x9_S16x1x128x128x1x1_0_0_0_0_3_7 : S16x1x128x128x9x9.Slices ![0, 0, 0, 0, 3, 7] S16x1x128x128x1x1
  slices_S16x8x136x136_S16x8x128x128_0_0_3_8 : S16x8x136x136.Slices ![0, 0, 3, 8] S16x8x128x128
  slices_S16x1x128x128x9x9_S16x1x128x128x1x1_0_0_0_0_3_8 : S16x1x128x128x9x9.Slices ![0, 0, 0, 0, 3, 8] S16x1x128x128x1x1
  slices_S16x8x136x136_S16x8x128x128_0_0_4_0 : S16x8x136x136.Slices ![0, 0, 4, 0] S16x8x128x128
  slices_S16x1x128x128x9x9_S16x1x128x128x1x1_0_0_0_0_4_0 : S16x1x128x128x9x9.Slices ![0, 0, 0, 0, 4, 0] S16x1x128x128x1x1
  slices_S16x8x136x136_S16x8x128x128_0_0_4_1 : S16x8x136x136.Slices ![0, 0, 4, 1] S16x8x128x128
  slices_S16x1x128x128x9x9_S16x1x128x128x1x1_0_0_0_0_4_1 : S16x1x128x128x9x9.Slices ![0, 0, 0, 0, 4, 1] S16x1x128x128x1x1
  slices_S16x8x136x136_S16x8x128x128_0_0_4_2 : S16x8x136x136.Slices ![0, 0, 4, 2] S16x8x128x128
  slices_S16x1x128x128x9x9_S16x1x128x128x1x1_0_0_0_0_4_2 : S16x1x128x128x9x9.Slices ![0, 0, 0, 0, 4, 2] S16x1x128x128x1x1
  slices_S16x8x136x136_S16x8x128x128_0_0_4_3 : S16x8x136x136.Slices ![0, 0, 4, 3] S16x8x128x128
  slices_S16x1x128x128x9x9_S16x1x128x128x1x1_0_0_0_0_4_3 : S16x1x128x128x9x9.Slices ![0, 0, 0, 0, 4, 3] S16x1x128x128x1x1
  slices_S16x8x136x136_S16x8x128x128_0_0_4_4 : S16x8x136x136.Slices ![0, 0, 4, 4] S16x8x128x128
  slices_S16x1x128x128x9x9_S16x1x128x128x1x1_0_0_0_0_4_4 : S16x1x128x128x9x9.Slices ![0, 0, 0, 0, 4, 4] S16x1x128x128x1x1
  slices_S16x8x136x136_S16x8x128x128_0_0_4_5 : S16x8x136x136.Slices ![0, 0, 4, 5] S16x8x128x128
  slices_S16x1x128x128x9x9_S16x1x128x128x1x1_0_0_0_0_4_5 : S16x1x128x128x9x9.Slices ![0, 0, 0, 0, 4, 5] S16x1x128x128x1x1
  slices_S16x8x136x136_S16x8x128x128_0_0_4_6 : S16x8x136x136.Slices ![0, 0, 4, 6] S16x8x128x128
  slices_S16x1x128x128x9x9_S16x1x128x128x1x1_0_0_0_0_4_6 : S16x1x128x128x9x9.Slices ![0, 0, 0, 0, 4, 6] S16x1x128x128x1x1
  slices_S16x8x136x136_S16x8x128x128_0_0_4_7 : S16x8x136x136.Slices ![0, 0, 4, 7] S16x8x128x128
  slices_S16x1x128x128x9x9_S16x1x128x128x1x1_0_0_0_0_4_7 : S16x1x128x128x9x9.Slices ![0, 0, 0, 0, 4, 7] S16x1x128x128x1x1
  slices_S16x8x136x136_S16x8x128x128_0_0_4_8 : S16x8x136x136.Slices ![0, 0, 4, 8] S16x8x128x128
  slices_S16x1x128x128x9x9_S16x1x128x128x1x1_0_0_0_0_4_8 : S16x1x128x128x9x9.Slices ![0, 0, 0, 0, 4, 8] S16x1x128x128x1x1
  slices_S16x8x136x136_S16x8x128x128_0_0_5_0 : S16x8x136x136.Slices ![0, 0, 5, 0] S16x8x128x128
  slices_S16x1x128x128x9x9_S16x1x128x128x1x1_0_0_0_0_5_0 : S16x1x128x128x9x9.Slices ![0, 0, 0, 0, 5, 0] S16x1x128x128x1x1
  slices_S16x8x136x136_S16x8x128x128_0_0_5_1 : S16x8x136x136.Slices ![0, 0, 5, 1] S16x8x128x128
  slices_S16x1x128x128x9x9_S16x1x128x128x1x1_0_0_0_0_5_1 : S16x1x128x128x9x9.Slices ![0, 0, 0, 0, 5, 1] S16x1x128x128x1x1
  slices_S16x8x136x136_S16x8x128x128_0_0_5_2 : S16x8x136x136.Slices ![0, 0, 5, 2] S16x8x128x128
  slices_S16x1x128x128x9x9_S16x1x128x128x1x1_0_0_0_0_5_2 : S16x1x128x128x9x9.Slices ![0, 0, 0, 0, 5, 2] S16x1x128x128x1x1
  slices_S16x8x136x136_S16x8x128x128_0_0_5_3 : S16x8x136x136.Slices ![0, 0, 5, 3] S16x8x128x128
  slices_S16x1x128x128x9x9_S16x1x128x128x1x1_0_0_0_0_5_3 : S16x1x128x128x9x9.Slices ![0, 0, 0, 0, 5, 3] S16x1x128x128x1x1
  slices_S16x8x136x136_S16x8x128x128_0_0_5_4 : S16x8x136x136.Slices ![0, 0, 5, 4] S16x8x128x128
  slices_S16x1x128x128x9x9_S16x1x128x128x1x1_0_0_0_0_5_4 : S16x1x128x128x9x9.Slices ![0, 0, 0, 0, 5, 4] S16x1x128x128x1x1
  slices_S16x8x136x136_S16x8x128x128_0_0_5_5 : S16x8x136x136.Slices ![0, 0, 5, 5] S16x8x128x128
  slices_S16x1x128x128x9x9_S16x1x128x128x1x1_0_0_0_0_5_5 : S16x1x128x128x9x9.Slices ![0, 0, 0, 0, 5, 5] S16x1x128x128x1x1
  slices_S16x8x136x136_S16x8x128x128_0_0_5_6 : S16x8x136x136.Slices ![0, 0, 5, 6] S16x8x128x128
  slices_S16x1x128x128x9x9_S16x1x128x128x1x1_0_0_0_0_5_6 : S16x1x128x128x9x9.Slices ![0, 0, 0, 0, 5, 6] S16x1x128x128x1x1
  slices_S16x8x136x136_S16x8x128x128_0_0_5_7 : S16x8x136x136.Slices ![0, 0, 5, 7] S16x8x128x128
  slices_S16x1x128x128x9x9_S16x1x128x128x1x1_0_0_0_0_5_7 : S16x1x128x128x9x9.Slices ![0, 0, 0, 0, 5, 7] S16x1x128x128x1x1
  slices_S16x8x136x136_S16x8x128x128_0_0_5_8 : S16x8x136x136.Slices ![0, 0, 5, 8] S16x8x128x128
  slices_S16x1x128x128x9x9_S16x1x128x128x1x1_0_0_0_0_5_8 : S16x1x128x128x9x9.Slices ![0, 0, 0, 0, 5, 8] S16x1x128x128x1x1
  slices_S16x8x136x136_S16x8x128x128_0_0_6_0 : S16x8x136x136.Slices ![0, 0, 6, 0] S16x8x128x128
  slices_S16x1x128x128x9x9_S16x1x128x128x1x1_0_0_0_0_6_0 : S16x1x128x128x9x9.Slices ![0, 0, 0, 0, 6, 0] S16x1x128x128x1x1
  slices_S16x8x136x136_S16x8x128x128_0_0_6_1 : S16x8x136x136.Slices ![0, 0, 6, 1] S16x8x128x128
  slices_S16x1x128x128x9x9_S16x1x128x128x1x1_0_0_0_0_6_1 : S16x1x128x128x9x9.Slices ![0, 0, 0, 0, 6, 1] S16x1x128x128x1x1
  slices_S16x8x136x136_S16x8x128x128_0_0_6_2 : S16x8x136x136.Slices ![0, 0, 6, 2] S16x8x128x128
  slices_S16x1x128x128x9x9_S16x1x128x128x1x1_0_0_0_0_6_2 : S16x1x128x128x9x9.Slices ![0, 0, 0, 0, 6, 2] S16x1x128x128x1x1
  slices_S16x8x136x136_S16x8x128x128_0_0_6_3 : S16x8x136x136.Slices ![0, 0, 6, 3] S16x8x128x128
  slices_S16x1x128x128x9x9_S16x1x128x128x1x1_0_0_0_0_6_3 : S16x1x128x128x9x9.Slices ![0, 0, 0, 0, 6, 3] S16x1x128x128x1x1
  slices_S16x8x136x136_S16x8x128x128_0_0_6_4 : S16x8x136x136.Slices ![0, 0, 6, 4] S16x8x128x128
  slices_S16x1x128x128x9x9_S16x1x128x128x1x1_0_0_0_0_6_4 : S16x1x128x128x9x9.Slices ![0, 0, 0, 0, 6, 4] S16x1x128x128x1x1
  slices_S16x8x136x136_S16x8x128x128_0_0_6_5 : S16x8x136x136.Slices ![0, 0, 6, 5] S16x8x128x128
  slices_S16x1x128x128x9x9_S16x1x128x128x1x1_0_0_0_0_6_5 : S16x1x128x128x9x9.Slices ![0, 0, 0, 0, 6, 5] S16x1x128x128x1x1
  slices_S16x8x136x136_S16x8x128x128_0_0_6_6 : S16x8x136x136.Slices ![0, 0, 6, 6] S16x8x128x128
  slices_S16x1x128x128x9x9_S16x1x128x128x1x1_0_0_0_0_6_6 : S16x1x128x128x9x9.Slices ![0, 0, 0, 0, 6, 6] S16x1x128x128x1x1
  slices_S16x8x136x136_S16x8x128x128_0_0_6_7 : S16x8x136x136.Slices ![0, 0, 6, 7] S16x8x128x128
  slices_S16x1x128x128x9x9_S16x1x128x128x1x1_0_0_0_0_6_7 : S16x1x128x128x9x9.Slices ![0, 0, 0, 0, 6, 7] S16x1x128x128x1x1
  slices_S16x8x136x136_S16x8x128x128_0_0_6_8 : S16x8x136x136.Slices ![0, 0, 6, 8] S16x8x128x128
  slices_S16x1x128x128x9x9_S16x1x128x128x1x1_0_0_0_0_6_8 : S16x1x128x128x9x9.Slices ![0, 0, 0, 0, 6, 8] S16x1x128x128x1x1
  slices_S16x8x136x136_S16x8x128x128_0_0_7_0 : S16x8x136x136.Slices ![0, 0, 7, 0] S16x8x128x128
  slices_S16x1x128x128x9x9_S16x1x128x128x1x1_0_0_0_0_7_0 : S16x1x128x128x9x9.Slices ![0, 0, 0, 0, 7, 0] S16x1x128x128x1x1
  slices_S16x8x136x136_S16x8x128x128_0_0_7_1 : S16x8x136x136.Slices ![0, 0, 7, 1] S16x8x128x128
  slices_S16x1x128x128x9x9_S16x1x128x128x1x1_0_0_0_0_7_1 : S16x1x128x128x9x9.Slices ![0, 0, 0, 0, 7, 1] S16x1x128x128x1x1
  slices_S16x8x136x136_S16x8x128x128_0_0_7_2 : S16x8x136x136.Slices ![0, 0, 7, 2] S16x8x128x128
  slices_S16x1x128x128x9x9_S16x1x128x128x1x1_0_0_0_0_7_2 : S16x1x128x128x9x9.Slices ![0, 0, 0, 0, 7, 2] S16x1x128x128x1x1
  slices_S16x8x136x136_S16x8x128x128_0_0_7_3 : S16x8x136x136.Slices ![0, 0, 7, 3] S16x8x128x128
  slices_S16x1x128x128x9x9_S16x1x128x128x1x1_0_0_0_0_7_3 : S16x1x128x128x9x9.Slices ![0, 0, 0, 0, 7, 3] S16x1x128x128x1x1
  slices_S16x8x136x136_S16x8x128x128_0_0_7_4 : S16x8x136x136.Slices ![0, 0, 7, 4] S16x8x128x128
  slices_S16x1x128x128x9x9_S16x1x128x128x1x1_0_0_0_0_7_4 : S16x1x128x128x9x9.Slices ![0, 0, 0, 0, 7, 4] S16x1x128x128x1x1
  slices_S16x8x136x136_S16x8x128x128_0_0_7_5 : S16x8x136x136.Slices ![0, 0, 7, 5] S16x8x128x128
  slices_S16x1x128x128x9x9_S16x1x128x128x1x1_0_0_0_0_7_5 : S16x1x128x128x9x9.Slices ![0, 0, 0, 0, 7, 5] S16x1x128x128x1x1
  slices_S16x8x136x136_S16x8x128x128_0_0_7_6 : S16x8x136x136.Slices ![0, 0, 7, 6] S16x8x128x128
  slices_S16x1x128x128x9x9_S16x1x128x128x1x1_0_0_0_0_7_6 : S16x1x128x128x9x9.Slices ![0, 0, 0, 0, 7, 6] S16x1x128x128x1x1
  slices_S16x8x136x136_S16x8x128x128_0_0_7_7 : S16x8x136x136.Slices ![0, 0, 7, 7] S16x8x128x128
  slices_S16x1x128x128x9x9_S16x1x128x128x1x1_0_0_0_0_7_7 : S16x1x128x128x9x9.Slices ![0, 0, 0, 0, 7, 7] S16x1x128x128x1x1
  slices_S16x8x136x136_S16x8x128x128_0_0_7_8 : S16x8x136x136.Slices ![0, 0, 7, 8] S16x8x128x128
  slices_S16x1x128x128x9x9_S16x1x128x128x1x1_0_0_0_0_7_8 : S16x1x128x128x9x9.Slices ![0, 0, 0, 0, 7, 8] S16x1x128x128x1x1
  slices_S16x8x136x136_S16x8x128x128_0_0_8_0 : S16x8x136x136.Slices ![0, 0, 8, 0] S16x8x128x128
  slices_S16x1x128x128x9x9_S16x1x128x128x1x1_0_0_0_0_8_0 : S16x1x128x128x9x9.Slices ![0, 0, 0, 0, 8, 0] S16x1x128x128x1x1
  slices_S16x8x136x136_S16x8x128x128_0_0_8_1 : S16x8x136x136.Slices ![0, 0, 8, 1] S16x8x128x128
  slices_S16x1x128x128x9x9_S16x1x128x128x1x1_0_0_0_0_8_1 : S16x1x128x128x9x9.Slices ![0, 0, 0, 0, 8, 1] S16x1x128x128x1x1
  slices_S16x8x136x136_S16x8x128x128_0_0_8_2 : S16x8x136x136.Slices ![0, 0, 8, 2] S16x8x128x128
  slices_S16x1x128x128x9x9_S16x1x128x128x1x1_0_0_0_0_8_2 : S16x1x128x128x9x9.Slices ![0, 0, 0, 0, 8, 2] S16x1x128x128x1x1
  slices_S16x8x136x136_S16x8x128x128_0_0_8_3 : S16x8x136x136.Slices ![0, 0, 8, 3] S16x8x128x128
  slices_S16x1x128x128x9x9_S16x1x128x128x1x1_0_0_0_0_8_3 : S16x1x128x128x9x9.Slices ![0, 0, 0, 0, 8, 3] S16x1x128x128x1x1
  slices_S16x8x136x136_S16x8x128x128_0_0_8_4 : S16x8x136x136.Slices ![0, 0, 8, 4] S16x8x128x128
  slices_S16x1x128x128x9x9_S16x1x128x128x1x1_0_0_0_0_8_4 : S16x1x128x128x9x9.Slices ![0, 0, 0, 0, 8, 4] S16x1x128x128x1x1
  slices_S16x8x136x136_S16x8x128x128_0_0_8_5 : S16x8x136x136.Slices ![0, 0, 8, 5] S16x8x128x128
  slices_S16x1x128x128x9x9_S16x1x128x128x1x1_0_0_0_0_8_5 : S16x1x128x128x9x9.Slices ![0, 0, 0, 0, 8, 5] S16x1x128x128x1x1
  slices_S16x8x136x136_S16x8x128x128_0_0_8_6 : S16x8x136x136.Slices ![0, 0, 8, 6] S16x8x128x128
  slices_S16x1x128x128x9x9_S16x1x128x128x1x1_0_0_0_0_8_6 : S16x1x128x128x9x9.Slices ![0, 0, 0, 0, 8, 6] S16x1x128x128x1x1
  slices_S16x8x136x136_S16x8x128x128_0_0_8_7 : S16x8x136x136.Slices ![0, 0, 8, 7] S16x8x128x128
  slices_S16x1x128x128x9x9_S16x1x128x128x1x1_0_0_0_0_8_7 : S16x1x128x128x9x9.Slices ![0, 0, 0, 0, 8, 7] S16x1x128x128x1x1
  slices_S16x8x136x136_S16x8x128x128_0_0_8_8 : S16x8x136x136.Slices ![0, 0, 8, 8] S16x8x128x128
  slices_S16x1x128x128x9x9_S16x1x128x128x1x1_0_0_0_0_8_8 : S16x1x128x128x9x9.Slices ![0, 0, 0, 0, 8, 8] S16x1x128x128x1x1
  reducesTo_S16x8x128x128_S16x8_d2_3 : S16x8x128x128.ReducesTo [2, 3] S16x8
  h_S_ : 0 < S_.numel
  reducesTo_S16x8_S16_d1 : S16x8.ReducesTo [1] S16
  bcast_S_S16 : S_.BroadcastsInDim S16 (![] : Fin 0 → Fin S16.rank)

variable [Facts₀]

class Facts : Prop extends Facts₀ where

variable [Facts]
-- ==== Proof.KScratch.lean ====
/-
  The scratch after the class loop does not remember what it held before.

  Trip k of the loop writes one piece, a [1, 128, 128] slab at row k of the scratch [8, 128, 128]; the eight rows tile
  the scratch, so every index lies in the piece of the trip its first coordinate names.  A load of the whole scratch
  after the loop therefore reads, at each index, the piece that covers it, whatever the scratch held before the loop.
-/
import proofs.«420815_j6201932775660_3_alg».proof.Proof.Gen.Kernel.Loops
import Idealize.ShloMosaic.Lib.Pipeline.FrameBody

noncomputable section

namespace Cert.Kernel.Scratch

open Idealize.ShloMosaic Idealize.SL.Sem
open Cert.Kernel Cert.Kernel.Gen

variable {F : FTy → Type} [FloatOps F]

/-- The loop makes eight trips. -/
theorem trips_eq : k0_t1_loop.trips = 8 := by decide

section
variable (𝒱 : Variants) (c : Dev nD) (bd : Option 𝒱.V) (i : grid0.Coords) (arg1 : Memref sig .tc .vmem S1x1x81x128x128 .f32) (harg1 : arg1.IsWhole) (arg2 : Memref sig .tc .vmem S1x8x136x136 .f32) (harg2 : arg2.IsWhole) (arg3 : Memref sig .tc .vmem S1x8x128x128 .f32) (harg3 : arg3.IsWhole) (arg4 : Memref sig .tc .vmem S1x1x128x128 .f32) (harg4 : arg4.IsWhole) (arg5 : Memref sig .tc .vmem S1x1x8 .f32) (harg5 : arg5.IsWhole) (arg6 : Memref sig .tc .vmem S1x1x8 .f32) (harg6 : arg6.IsWhole) (arg7 : Memref sig .tc .vmem S8x128x128 .f32) (harg7 : arg7.IsWhole) (X1 : BufTy.Contents (Elt F) arg1.view.ty) (X2 : BufTy.Contents (Elt F) arg2.view.ty)

/-- Trip k writes ONE piece, on the slab at row k. -/
theorem tripL_rect (k : Fin k0_t1_loop.trips) :
    ∃ v, tripL_k0_t1 (F := F) 𝒱 c bd i arg1 harg1 arg2 harg2 arg3 harg3 arg4 harg4 arg5 harg5 arg6 harg6 arg7 harg7 X1 X2 k
      = [⟨Rect.unit (s := S8x128x128) (k0_off82 k) S1x128x128.size (k0_off82_inb k), v⟩] := by
  unfold tripL_k0_t1 trip_k0_t1
  exact ⟨_, rfl⟩

/-- The piece of trip k is among the pieces of the trips before n, for k < n. -/
theorem trip_mem_pb (k : Fin k0_t1_loop.trips) : ∀ (n : Nat), k.val < n →
    ∃ p ∈ pb_k0_t1 (F := F) 𝒱 c bd i arg1 harg1 arg2 harg2 arg3 harg3 arg4 harg4 arg5 harg5 arg6 harg6 arg7 harg7 X1 X2 n,
      p.1 = Rect.unit (s := S8x128x128) (k0_off82 k) S1x128x128.size (k0_off82_inb k)
  | 0, h => absurd h (Nat.not_lt_zero _)
  | n + 1, h => by
    rw [pb_k0_t1.eq_2]
    unfold pb_k0_t1Step
    by_cases hn : n < k0_t1_loop.trips
    · rw [dif_pos hn]
      by_cases hkn : k.val = n
      · have hk : k = ⟨n, hn⟩ := Fin.ext hkn
        subst hk
        obtain ⟨v, hv⟩ := tripL_rect 𝒱 c bd i arg1 harg1 arg2 harg2 arg3 harg3 arg4 harg4 arg5 harg5 arg6 harg6 arg7 harg7 X1 X2 ⟨n, hn⟩
        exact ⟨_, List.mem_append_left _ (by rw [hv]; exact List.mem_singleton_self _), rfl⟩
      · obtain ⟨p, hp, hr⟩ := trip_mem_pb k n (by omega)
        exact ⟨p, List.mem_append_right _ hp, hr⟩
    · rw [dif_neg hn]
      exact trip_mem_pb k n (by have := k.isLt; omega)

/-- After all the trips the pieces cover the scratch. -/
theorem pb_cover (y : S8x128x128.Idx) :
    ∃ p ∈ pb_k0_t1 (F := F) 𝒱 c bd i arg1 harg1 arg2 harg2 arg3 harg3 arg4 harg4 arg5 harg5 arg6 harg6 arg7 harg7 X1 X2 (Scf.trips k0_t1_loop.lb k0_t1_loop.ub k0_t1_loop.st), y ∈ p.1.set := by
  have hy : (y 0).val < k0_t1_loop.trips := lt_of_lt_of_eq (y 0).isLt trips_eq.symm
  obtain ⟨p, hp, hr⟩ := trip_mem_pb 𝒱 c bd i arg1 harg1 arg2 harg2 arg3 harg3 arg4 harg4 arg5 harg5 arg6 harg6 arg7 harg7 X1 X2 ⟨(y 0).val, hy⟩ k0_t1_loop.trips hy
  refine ⟨p, hp, ?_⟩
  rw [hr, Rect.mem_set_unit]
  intro a
  rw [k0_off82_eq]
  match a with
  | ⟨0, _⟩ => exact ⟨Nat.le_refl _, Nat.lt_succ_self _⟩
  | ⟨1, _⟩ => exact ⟨Nat.zero_le _, by have h1 : (y 1).val < 128 := (y 1).isLt; show (y 1).val < 0 + 128; omega⟩
  | ⟨2, _⟩ => exact ⟨Nat.zero_le _, by have h2 : (y 2).val < 128 := (y 2).isLt; show (y 2).val < 0 + 128; omega⟩

/-- A load through any box after the loop reads the pieces alone, whatever the scratch held before. -/
theorem scratch_read (f : BufTy.Contents (Elt F) arg7.view.ty) (B : LoadRect S8x128x128) :
    View.readAt (Elt F) arg7.view B (arg7.view.writes (Elt F) f
        (pb_k0_t1 (F := F) 𝒱 c bd i arg1 harg1 arg2 harg2 arg3 harg3 arg4 harg4 arg5 harg5 arg6 harg6 arg7 harg7 X1 X2 (Scf.trips k0_t1_loop.lb k0_t1_loop.ub k0_t1_loop.st)))
      = fun j => View.canon (pb_k0_t1 (F := F) 𝒱 c bd i arg1 harg1 arg2 harg2 arg3 harg3 arg4 harg4 arg5 harg5 arg6 harg6 arg7 harg7 X1 X2 (Scf.trips k0_t1_loop.lb k0_t1_loop.ub k0_t1_loop.st)) (B.idx j) := by
  funext j
  rw [View.readAt_apply]
  exact View.read_writes_apply_eq_canon arg7.view f (B.idx j) _ (pb_cover 𝒱 c bd i arg1 harg1 arg2 harg2 arg3 harg3 arg4 harg4 arg5 harg5 arg6 harg6 arg7 harg7 X1 X2 (B.idx j))

end

end Cert.Kernel.Scratch

end
-- ==== Proof.KIScratch.lean ====
/-
  The scratch after the class loop does not remember what it held before.

  Trip k of the loop writes one piece, a [1, 128, 128] slab at row k of the scratch [8, 128, 128]; the eight rows tile
  the scratch, so every index lies in the piece of the trip its first coordinate names.  A load of the whole scratch
  after the loop therefore reads, at each index, the piece that covers it, whatever the scratch held before the loop.
-/
import proofs.«420815_j6201932775660_3_alg».proof.Proof.Gen.KernelIdeal.Loops
import Idealize.ShloMosaic.Lib.Pipeline.FrameBody

noncomputable section

namespace Cert.KernelIdeal.Scratch

open Idealize.ShloMosaic Idealize.SL.Sem
open Cert.KernelIdeal Cert.KernelIdeal.Gen

variable {F : FTy → Type} [FloatOps F]

/-- The loop makes eight trips. -/
theorem trips_eq : k0_t1_loop.trips = 8 := by decide

section
variable (𝒱 : Variants) (c : Dev nD) (bd : Option 𝒱.V) (i : grid0.Coords) (arg1 : Memref sig .tc .vmem S1x1x81x128x128 .f32) (harg1 : arg1.IsWhole) (arg2 : Memref sig .tc .vmem S1x8x136x136 .f32) (harg2 : arg2.IsWhole) (arg3 : Memref sig .tc .vmem S1x8x128x128 .f32) (harg3 : arg3.IsWhole) (arg4 : Memref sig .tc .vmem S1x1x128x128 .f32) (harg4 : arg4.IsWhole) (arg5 : Memref sig .tc .vmem S1x1x8 .f32) (harg5 : arg5.IsWhole) (arg6 : Memref sig .tc .vmem S1x1x8 .f32) (harg6 : arg6.IsWhole) (arg7 : Memref sig .tc .vmem S8x128x128 .f32) (harg7 : arg7.IsWhole) (X1 : BufTy.Contents (Elt F) arg1.view.ty) (X2 : BufTy.Contents (Elt F) arg2.view.ty)

/-- Trip k writes ONE piece, on the slab at row k. -/
theorem tripL_rect (k : Fin k0_t1_loop.trips) :
    ∃ v, tripL_k0_t1 (F := F) 𝒱 c bd i arg1 harg1 arg2 harg2 arg3 harg3 arg4 harg4 arg5 harg5 arg6 harg6 arg7 harg7 X1 X2 k
      = [⟨Rect.unit (s := S8x128x128) (k0_off82 k) S1x128x128.size (k0_off82_inb k), v⟩] := by
  unfold tripL_k0_t1 trip_k0_t1
  exact ⟨_, rfl⟩

/-- The piece of trip k is among the pieces of the trips before n, for k < n. -/
theorem trip_mem_pb (k : Fin k0_t1_loop.trips) : ∀ (n : Nat), k.val < n →
    ∃ p ∈ pb_k0_t1 (F := F) 𝒱 c bd i arg1 harg1 arg2 harg2 arg3 harg3 arg4 harg4 arg5 harg5 arg6 harg6 arg7 harg7 X1 X2 n,
      p.1 = Rect.unit (s := S8x128x128) (k0_off82 k) S1x128x128.size (k0_off82_inb k)
  | 0, h => absurd h (Nat.not_lt_zero _)
  | n + 1, h => by
    rw [pb_k0_t1.eq_2]
    unfold pb_k0_t1Step
    by_cases hn : n < k0_t1_loop.trips
    · rw [dif_pos hn]
      by_cases hkn : k.val = n
      · have hk : k = ⟨n, hn⟩ := Fin.ext hkn
        subst hk
        obtain ⟨v, hv⟩ := tripL_rect 𝒱 c bd i arg1 harg1 arg2 harg2 arg3 harg3 arg4 harg4 arg5 harg5 arg6 harg6 arg7 harg7 X1 X2 ⟨n, hn⟩
        exact ⟨_, List.mem_append_left _ (by rw [hv]; exact List.mem_singleton_self _), rfl⟩
      · obtain ⟨p, hp, hr⟩ := trip_mem_pb k n (by omega)
        exact ⟨p, List.mem_append_right _ hp, hr⟩
    · rw [dif_neg hn]
      exact trip_mem_pb k n (by have := k.isLt; omega)

/-- After all the trips the pieces cover the scratch. -/
theorem pb_cover (y : S8x128x128.Idx) :
    ∃ p ∈ pb_k0_t1 (F := F) 𝒱 c bd i arg1 harg1 arg2 harg2 arg3 harg3 arg4 harg4 arg5 harg5 arg6 harg6 arg7 harg7 X1 X2 (Scf.trips k0_t1_loop.lb k0_t1_loop.ub k0_t1_loop.st), y ∈ p.1.set := by
  have hy : (y 0).val < k0_t1_loop.trips := lt_of_lt_of_eq (y 0).isLt trips_eq.symm
  obtain ⟨p, hp, hr⟩ := trip_mem_pb 𝒱 c bd i arg1 harg1 arg2 harg2 arg3 harg3 arg4 harg4 arg5 harg5 arg6 harg6 arg7 harg7 X1 X2 ⟨(y 0).val, hy⟩ k0_t1_loop.trips hy
  refine ⟨p, hp, ?_⟩
  rw [hr, Rect.mem_set_unit]
  intro a
  rw [k0_off82_eq]
  match a with
  | ⟨0, _⟩ => exact ⟨Nat.le_refl _, Nat.lt_succ_self _⟩
  | ⟨1, _⟩ => exact ⟨Nat.zero_le _, by have h1 : (y 1).val < 128 := (y 1).isLt; show (y 1).val < 0 + 128; omega⟩
  | ⟨2, _⟩ => exact ⟨Nat.zero_le _, by have h2 : (y 2).val < 128 := (y 2).isLt; show (y 2).val < 0 + 128; omega⟩

/-- A load through any box after the loop reads the pieces alone, whatever the scratch held before. -/
theorem scratch_read (f : BufTy.Contents (Elt F) arg7.view.ty) (B : LoadRect S8x128x128) :
    View.readAt (Elt F) arg7.view B (arg7.view.writes (Elt F) f
        (pb_k0_t1 (F := F) 𝒱 c bd i arg1 harg1 arg2 harg2 arg3 harg3 arg4 harg4 arg5 harg5 arg6 harg6 arg7 harg7 X1 X2 (Scf.trips k0_t1_loop.lb k0_t1_loop.ub k0_t1_loop.st)))
      = fun j => View.canon (pb_k0_t1 (F := F) 𝒱 c bd i arg1 harg1 arg2 harg2 arg3 harg3 arg4 harg4 arg5 harg5 arg6 harg6 arg7 harg7 X1 X2 (Scf.trips k0_t1_loop.lb k0_t1_loop.ub k0_t1_loop.st)) (B.idx j) := by
  funext j
  rw [View.readAt_apply]
  exact View.read_writes_apply_eq_canon arg7.view f (B.idx j) _ (pb_cover 𝒱 c bd i arg1 harg1 arg2 harg2 arg3 harg3 arg4 harg4 arg5 harg5 arg6 harg6 arg7 harg7 X1 X2 (B.idx j))

end

end Cert.KernelIdeal.Scratch

end
-- ==== Proof.Spec.lean ====
/-
  The windowed affinity sum, stated once over the four argument arrays.

  For a batch item `b`, a class `k` and a pixel `(h, w)` the accumulator is the sum, over the 81 window
  positions `j = 9 m + n` taken in increasing `j` and started from zero, of
  `pad[b, k, h + m, w + n] * wt[b, 0, h, w, m, n]`.  The two association arrays are
  `A[b, k] = Σ_h Σ_w acc[b, k, h, w] * seg[b, k, h, w]` and `V[b, k] = Σ_h Σ_w sw[b, 0, h, w] * seg[b, k, h, w]`;
  the result is `8 - Σ_k A[b, k] / V[b, k]`, which both programs form from `A` and `V` by the same three host
  operations.
-/
import Idealize.ShloMosaic.PureOps.Ideal
import Idealize.ShloMosaic.PureOps.Ideal.Laws
import Idealize.ShloMosaic.Lib.ValueIdx
import Idealize.ShloMosaic.Lib.ValueIdxRank6

noncomputable section

open scoped BigOperators

namespace Cert.NCut

open Idealize.ShloMosaic Idealize.ShloMosaic.ValueIdx

/-- The four argument arrays' shapes. -/
abbrev ShSeg : Shape := ⟨4, ![16, 8, 128, 128]⟩
abbrev ShPad : Shape := ⟨4, ![16, 8, 136, 136]⟩
abbrev ShWt : Shape := ⟨6, ![16, 1, 128, 128, 9, 9]⟩
abbrev ShSw : Shape := ⟨4, ![16, 1, 128, 128]⟩

variable (pad : ShPad.Idx → EReal) (wt : ShWt.Idx → EReal) (seg : ShSeg.Idx → EReal) (sw : ShSw.Idx → EReal)

/-- Window position `(m, n)` of pixel `(h, w)`: the shifted padded entry times the pixel's own weight for that position. -/
def tapMN (b : Fin 16) (k : Fin 8) (h w : Fin 128) (m n : Fin 9) : EReal :=
  pad (ix4 b k ⟨h.val + m.val, by omega⟩ ⟨w.val + n.val, by omega⟩) * wt (ix6 b 0 h w m n)

/-- Window position `j = 9 m + n` by its flat number (zero past the window). -/
def tap (b : Fin 16) (k : Fin 8) (h w : Fin 128) (j : Nat) : EReal :=
  if hj : j < 81 then tapMN pad wt b k h w ⟨j / 9, by omega⟩ ⟨j % 9, by omega⟩ else 0

/-- The running total of a sequence of terms: zero, then one more term each step, added on the right. -/
def chain (f : Nat → EReal) : Nat → EReal
  | 0 => 0
  | j + 1 => chain f j + f j

theorem chain_zero (f : Nat → EReal) : chain f 0 = 0 := rfl

theorem chain_succ (f : Nat → EReal) (j : Nat) : chain f (j + 1) = chain f j + f j := rfl

/-- Two sequences that agree below `n` have the same running total at `n`. -/
theorem chain_congr {f g : Nat → EReal} : ∀ (n : Nat), (∀ j, j < n → f j = g j) → chain f n = chain g n
  | 0, _ => rfl
  | n + 1, h => by
    rw [chain_succ, chain_succ, chain_congr n (fun j hj => h j (Nat.lt_succ_of_lt hj)), h n (Nat.lt_succ_self n)]

/-- The accumulator after the first `j` window positions, started from zero. -/
def accN (b : Fin 16) (k : Fin 8) (h w : Fin 128) (j : Nat) : EReal := chain (tap pad wt b k h w) j

/-- A window position given by literal `m`, `n` is the flat position `9 m + n`. -/
theorem tap_of_mn (b : Fin 16) (k : Fin 8) (h w : Fin 128) (j : Nat) (m n : Fin 9) (hj : j = 9 * m.val + n.val) :
    tap pad wt b k h w j = tapMN pad wt b k h w m n := by
  subst hj
  have h81 : 9 * m.val + n.val < 81 := by omega
  unfold tap
  rw [dif_pos h81]
  congr 1 <;> exact Fin.ext (by simp only []; omega)

/-- The whole accumulator: all 81 window positions. -/
def acc (b : Fin 16) (k : Fin 8) (h w : Fin 128) : EReal := accN pad wt b k h w 81

/-- `A[b, k]`: the accumulator against the segmentation, summed over the pixels (rows outside, columns inside). -/
def assocA (b : Fin 16) (k : Fin 8) : EReal :=
  ∑ h : Fin 128, ∑ w : Fin 128, acc pad wt b k h w * seg (ix4 b k h w)

/-- `V[b, k]`: the per-pixel weight total against the segmentation, summed over the pixels. -/
def assocV (b : Fin 16) (k : Fin 8) : EReal :=
  ∑ h : Fin 128, ∑ w : Fin 128, sw (ix4 b 0 h w) * seg (ix4 b k h w)

/-- The three closing host operations both programs share: the quotient of the two association arrays, its sum
    over the classes from the zero initial value, and that sum taken from the constant eight. -/
def finish (A V : (⟨2, ![16, 8]⟩ : Shape).Idx → EReal) : (⟨1, ![16]⟩ : Shape).Idx → EReal :=
  subf (F := Ideal) (φ := .f32)
    (broadcastInDim (⟨1, ![16]⟩ : Shape) ![] (by decide) (constant (F := Ideal) (⟨0, ![]⟩ : Shape) .f32 0x41000000#32))
    (Host.reduceAdd (F := Ideal) (φ := .f32) (axes := [1]) (t := (⟨1, ![16]⟩ : Shape))
      (Host.divf (F := Ideal) (φ := .f32) A V) (constant (F := Ideal) (⟨0, ![]⟩ : Shape) .f32 0x00000000#32) (by decide) (by decide))

/-- The same window position read from ONE batch item's blocks: `x1` the padded block `[1, 8, 136, 136]`, `x0` the
    weight block with the 81 positions as its third axis, `[1, 1, 81, 128, 128]`. -/
def ktap (x0 : (⟨5, ![1, 1, 81, 128, 128]⟩ : Shape).Idx → EReal) (x1 : (⟨4, ![1, 8, 136, 136]⟩ : Shape).Idx → EReal)
    (k : Fin 8) (h w : Fin 128) (j : Nat) : EReal :=
  if hj : j < 81 then
    x1 (ix4 0 k ⟨h.val + j / 9, by omega⟩ ⟨w.val + j % 9, by omega⟩) * x0 (ix5 0 0 ⟨j, hj⟩ h w)
  else 0

/-- The two association arrays as arrays of shape `[16, 8]`. -/
def arrA : (⟨2, ![16, 8]⟩ : Shape).Idx → EReal := fun j => assocA pad wt seg (j 0) (j 1)
def arrV : (⟨2, ![16, 8]⟩ : Shape).Idx → EReal := fun j => assocV seg sw (j 0) (j 1)

end Cert.NCut

end
-- ==== Proof.KPay.lean ====
/-
  The body's arithmetic read at one pixel.

  Every step of the body's unrolled window loop has one of three shapes: the first three window positions added onto a
  zero `[128, 128]` accumulator, four more positions added onto the accumulator so far, and a padded slab `[1, 1, 128, 128]`
  viewed as `[128, 128]`.  Each position multiplies a padded slab by a weight slab `[1, 1, 1, 128, 128]`, both viewed as
  `[128, 128]`; these views only drop leading axes of extent one, so at pixel `(h, w)` they read the slab at `(0, …, 0, h, w)`.
  The closing step adds the last two positions and views the result as `[1, 128, 128]`; the two outputs multiply the scratch,
  respectively the broadcast per-pixel weight total, by the segmentation block and sum over the columns, then the rows.
-/
import proofs.«420815_j6201932775660_3_alg».proof.Proof.Gen.KernelIdeal.Skeleton
import proofs.«420815_j6201932775660_3_alg».proof.Proof.Spec
import Idealize.ShloMosaic.Lib.Pipeline.Value
import Idealize.ShloMosaic.Lib.ValueLayout
import Idealize.ShloMosaic.PureOps.Ideal.Laws

noncomputable section

open scoped BigOperators

namespace Cert.NCut.Pay

open Idealize.ShloMosaic Idealize.ShloMosaic.ValueIdx
open Cert.KernelIdeal Cert.KernelIdeal.Gen Cert.NCut

/-! ## Views that drop or add leading unit axes -/

/-- `[1, 1, 128, 128]` viewed `[128, 128]` reads `(0, 0, h, w)` at `(h, w)`. -/
theorem cast_11ab (v : Vec Ideal S1x1x128x128 .f32) (hc : S1x1x128x128.ShapeCasts S128x128) (h w : Fin 128) :
    shapeCast S128x128 v hc (ix2 h w) = v (ix4 0 0 h w) :=
  shapeCast_apply v hc _ _ (by
    rw [Shape.rowMajor_val_four, Shape.rowMajor_val_two]
    show ((0 * 1 + 0) * 128 + h.val) * 128 + w.val = h.val * 128 + w.val
    omega)

/-- `[1, 1, 1, 128, 128]` viewed `[128, 128]` reads `(0, 0, 0, h, w)` at `(h, w)`. -/
theorem cast_111ab (v : Vec Ideal S1x1x1x128x128 .f32) (hc : S1x1x1x128x128.ShapeCasts S128x128) (h w : Fin 128) :
    shapeCast S128x128 v hc (ix2 h w) = v (ix5 0 0 0 h w) :=
  shapeCast_apply v hc _ _ (by
    rw [Shape.rowMajor_val_five, Shape.rowMajor_val_two]
    show (((0 * 1 + 0) * 1 + 0) * 128 + h.val) * 128 + w.val = h.val * 128 + w.val
    omega)

/-- `[128, 128]` viewed `[1, 128, 128]` reads `(h, w)` at `(0, h, w)`. -/
theorem cast_ab_1ab (v : FVec Ideal S128x128 .f32) (hc : S128x128.ShapeCasts S1x128x128) (h w : Fin 128) :
    shapeCast S1x128x128 v hc (ix3 0 h w) = v (ix2 h w) :=
  shapeCast_apply v hc _ _ (by
    rw [Shape.rowMajor_val_three, Shape.rowMajor_val_two]
    show h.val * 128 + w.val = (0 * 128 + h.val) * 128 + w.val
    omega)

/-- `[1, 8, 128, 128]` viewed `[8, 128, 128]` reads `(0, k, h, w)` at `(k, h, w)`. -/
theorem cast_1abc (v : Vec Ideal S1x8x128x128 .f32) (hc : S1x8x128x128.ShapeCasts S8x128x128) (k : Fin 8) (h w : Fin 128) :
    shapeCast S8x128x128 v hc (ix3 k h w) = v (ix4 0 k h w) :=
  shapeCast_apply v hc _ _ (by
    rw [Shape.rowMajor_val_four, Shape.rowMajor_val_three]
    show ((0 * 8 + k.val) * 128 + h.val) * 128 + w.val = (k.val * 128 + h.val) * 128 + w.val
    omega)

/-! ## The three shapes of a window-loop step -/

/-- A padded slab viewed `[128, 128]`. -/
def slab (p : Vec Ideal S1x1x128x128 .f32) : FVec Ideal S128x128 .f32 :=
  shapeCast S128x128 p shapeCasts_S1x1x128x128_S128x128

/-- One window position: a padded slab (already viewed `[128, 128]`) times a weight slab, added onto the accumulator. -/
def addTap (a p : FVec Ideal S128x128 .f32) (w : Vec Ideal S1x1x1x128x128 .f32) : FVec Ideal S128x128 .f32 :=
  addf a (mulf p (shapeCast S128x128 w shapeCasts_S1x1x1x128x128_S128x128))

theorem slab_apply (p : Vec Ideal S1x1x128x128 .f32) (h w : Fin 128) : slab p (ix2 h w) = p (ix4 0 0 h w) :=
  cast_11ab p _ h w

theorem addTap_apply (a p : FVec Ideal S128x128 .f32) (wv : Vec Ideal S1x1x1x128x128 .f32) (h w : Fin 128) :
    addTap a p wv (ix2 h w) = a (ix2 h w) + p (ix2 h w) * wv (ix5 0 0 0 h w) := by
  unfold addTap
  rw [addf_apply, mulf_apply, cast_111ab]

/-- Four window positions onto an accumulator: the first position's padded slab arrives already viewed `[128, 128]`. -/
def fourTaps (a p0 : FVec Ideal S128x128 .f32) (w0 : Vec Ideal S1x1x1x128x128 .f32)
    (p1 : Vec Ideal S1x1x128x128 .f32) (w1 : Vec Ideal S1x1x1x128x128 .f32)
    (p2 : Vec Ideal S1x1x128x128 .f32) (w2 : Vec Ideal S1x1x1x128x128 .f32)
    (p3 : Vec Ideal S1x1x128x128 .f32) (w3 : Vec Ideal S1x1x1x128x128 .f32) : FVec Ideal S128x128 .f32 :=
  addTap (addTap (addTap (addTap a p0 w0) (slab p1) w1) (slab p2) w2) (slab p3) w3

theorem fourTaps_apply (a p0 : FVec Ideal S128x128 .f32) (w0 : Vec Ideal S1x1x1x128x128 .f32)
    (p1 : Vec Ideal S1x1x128x128 .f32) (w1 : Vec Ideal S1x1x1x128x128 .f32)
    (p2 : Vec Ideal S1x1x128x128 .f32) (w2 : Vec Ideal S1x1x1x128x128 .f32)
    (p3 : Vec Ideal S1x1x128x128 .f32) (w3 : Vec Ideal S1x1x1x128x128 .f32) (h w : Fin 128) :
    fourTaps a p0 w0 p1 w1 p2 w2 p3 w3 (ix2 h w)
      = a (ix2 h w) + p0 (ix2 h w) * w0 (ix5 0 0 0 h w) + p1 (ix4 0 0 h w) * w1 (ix5 0 0 0 h w)
          + p2 (ix4 0 0 h w) * w2 (ix5 0 0 0 h w) + p3 (ix4 0 0 h w) * w3 (ix5 0 0 0 h w) := by
  unfold fourTaps
  rw [addTap_apply, addTap_apply, addTap_apply, addTap_apply, slab_apply, slab_apply, slab_apply]

/-- The first three window positions onto the zero accumulator. -/
def firstTaps (p0 : Vec Ideal S1x1x128x128 .f32) (w0 : Vec Ideal S1x1x1x128x128 .f32)
    (p1 : Vec Ideal S1x1x128x128 .f32) (w1 : Vec Ideal S1x1x1x128x128 .f32)
    (p2 : Vec Ideal S1x1x128x128 .f32) (w2 : Vec Ideal S1x1x1x128x128 .f32) : FVec Ideal S128x128 .f32 :=
  addTap (addTap (addTap (broadcast S128x128 (Scalar.ofBits (F := Ideal) .f32 0x00000000#32)) (slab p0) w0) (slab p1) w1) (slab p2) w2

theorem firstTaps_apply (p0 : Vec Ideal S1x1x128x128 .f32) (w0 : Vec Ideal S1x1x1x128x128 .f32)
    (p1 : Vec Ideal S1x1x128x128 .f32) (w1 : Vec Ideal S1x1x1x128x128 .f32)
    (p2 : Vec Ideal S1x1x128x128 .f32) (w2 : Vec Ideal S1x1x1x128x128 .f32) (h w : Fin 128) :
    firstTaps p0 w0 p1 w1 p2 w2 (ix2 h w)
      = 0 + p0 (ix4 0 0 h w) * w0 (ix5 0 0 0 h w) + p1 (ix4 0 0 h w) * w1 (ix5 0 0 0 h w)
          + p2 (ix4 0 0 h w) * w2 (ix5 0 0 0 h w) := by
  unfold firstTaps
  rw [addTap_apply, addTap_apply, addTap_apply, slab_apply, slab_apply, slab_apply, broadcast_apply]
  show Ideal.ofBits .f32 0x00000000#32 + _ + _ + _ = _
  rw [Ideal.ofBits_zero_f32]

/-! ## The closing step -/

/-- The closing step: the last two positions, the result viewed `[1, 128, 128]`. -/
theorem pay1_apply (a p0 : FVec Ideal S128x128 .f32) (w0 : Vec Ideal S1x1x1x128x128 .f32)
    (p1 : Vec Ideal S1x1x128x128 .f32) (w1 : Vec Ideal S1x1x1x128x128 .f32) (h w : Fin 128) :
    k0_pay1 (F := Ideal) a p0 w0 p1 w1 (ix3 0 h w)
      = a (ix2 h w) + p0 (ix2 h w) * w0 (ix5 0 0 0 h w) + p1 (ix4 0 0 h w) * w1 (ix5 0 0 0 h w) := by
  show shapeCast S1x128x128 (addTap (addTap a p0 w0) (slab p1) w1) shapeCasts_S128x128_S1x128x128 (ix3 0 h w) = _
  rw [cast_ab_1ab, addTap_apply, addTap_apply, slab_apply]

end Cert.NCut.Pay

end
-- ==== Proof.KTrip.lean ====
/-
  One trip of the class loop, read at a pixel.

  Trip `k` stores one `[1, 128, 128]` slab into row `k` of the scratch.  Its value at pixel `(h, w)` is the running
  total of the 81 window positions: position `j = 9 m + n` multiplies the padded block at `(0, k, h + m, w + n)` — a load
  of the `[1, 1, 128, 128]` slab at offsets `(0, k, m, n)`, read at `(0, 0, h, w)` — by the weight block at `(0, 0, j, h, w)`
  — a load of the slab at offsets `(0, 0, j, 0, 0)`, read at `(0, 0, 0, h, w)`.
-/
import proofs.«420815_j6201932775660_3_alg».proof.Proof.Gen.KernelIdeal.Loops
import proofs.«420815_j6201932775660_3_alg».proof.Proof.KPay
import Idealize.ShloMosaic.Lib.Pipeline.FrameBody

noncomputable section

open scoped BigOperators

namespace Cert.NCut.Trip

open Idealize.ShloMosaic Idealize.ShloMosaic.ValueIdx Idealize.SL.Sem
open Cert.KernelIdeal Cert.KernelIdeal.Gen Cert.NCut Cert.NCut.Pay

/-! ## A load through a unit-stride rectangle, read at an index -/

/-- A load of the box of sizes `sz` at offsets `off` reads, at the box index `y`, the contents at `off + y`. -/
theorem read_unit {sig : RefSig} {κ : Kind} {sp : Space} {s : Shape} {e : EltTy} (v : View sig κ sp s e)
    (X : v.ty.Contents (Elt Ideal)) (off sz : Fin s.rank → Nat) (inb : ∀ a, off a + sz a ≤ s.size a)
    (y : (Rect.unit off sz inb).shape.Idx) (i : s.Idx) (hi : ∀ a, (i a).val = off a + (y a).val) :
    View.readAt (Elt Ideal) v (Rect.unit off sz inb).toLoadRect X y = v.read (Elt Ideal) X i := by
  show v.read (Elt Ideal) X ((Rect.unit off sz inb).toLoadRect.idx y) = v.read (Elt Ideal) X i
  congr 1
  funext a
  apply Fin.ext
  show off a + 1 * (y a).val = (i a).val
  rw [hi a, Nat.one_mul]

/-- Window position `j = 9 m + n` of class `kk` at pixel `(h, w)`, as the product of the two slab loads. -/
theorem tap_read {sig : RefSig} {κ : Kind} {sp : Space} (v1 : View sig κ sp S1x1x81x128x128 .f32)
    (v2 : View sig κ sp S1x8x136x136 .f32) (X1 : v1.ty.Contents (Elt Ideal)) (X2 : v2.ty.Contents (Elt Ideal))
    (off : Fin 4 → Nat) (inb : ∀ a, off a + S1x1x128x128.size a ≤ S1x8x136x136.size a)
    (j : Nat) (inb' : ∀ a, (![0, 0, j, 0, 0] : Fin 5 → Nat) a + S1x1x1x128x128.size a ≤ S1x1x81x128x128.size a)
    (kk : Fin 8) (h w : Fin 128) (m n : Nat) (hoff : off = ![0, kk.val, m, n]) (hj : j = 9 * m + n) (hm : m < 9) (hn : n < 9) :
    (View.readAt (Elt Ideal) v2 (Rect.unit (s := S1x8x136x136) off S1x1x128x128.size inb).toLoadRect X2 (ix4 0 0 h w) : EReal)
        * (View.readAt (Elt Ideal) v1 (Rect.unit (s := S1x1x81x128x128) ![0, 0, j, 0, 0] S1x1x1x128x128.size inb').toLoadRect X1 (ix5 0 0 0 h w) : EReal)
      = ktap (v1.read (Elt Ideal) X1) (v2.read (Elt Ideal) X2) kk h w j := by
  subst hoff hj
  have h81 : 9 * m + n < 81 := by omega
  unfold ktap
  rw [dif_pos h81]
  congr 1
  · refine read_unit v2 X2 _ _ _ _ _ (fun a => ?_)
    match a with
    | ⟨0, _⟩ => rfl
    | ⟨1, _⟩ => exact (Nat.add_zero _).symm
    | ⟨2, _⟩ => show h.val + (9 * m + n) / 9 = m + h.val; omega
    | ⟨3, _⟩ => show w.val + (9 * m + n) % 9 = n + w.val; omega
  · refine read_unit v1 X1 _ _ _ _ _ (fun a => ?_)
    match a with
    | ⟨0, _⟩ => rfl
    | ⟨1, _⟩ => rfl
    | ⟨2, _⟩ => exact (Nat.add_zero _).symm
    | ⟨3, _⟩ => exact (Nat.zero_add _).symm
    | ⟨4, _⟩ => exact (Nat.zero_add _).symm

/-! ## Running totals a few positions at a time -/

theorem chain_step1 (f : Nat → EReal) (n : Nat) (a t0 : EReal) (ha : a = chain f n) (h0 : t0 = f n) :
    a + t0 = chain f (n + 1) := by
  rw [chain_succ, ha, h0]

/-- The first three positions onto zero. -/
theorem chain_first3 (f : Nat → EReal) (t0 t1 t2 : EReal) (h0 : t0 = f 0) (h1 : t1 = f 1) (h2 : t2 = f 2) :
    0 + t0 + t1 + t2 = chain f 3 := by
  rw [h0, h1, h2]; rfl

/-- Four more positions. -/
theorem chain_step4 (f : Nat → EReal) (n : Nat) (a t0 t1 t2 t3 : EReal) (ha : a = chain f n)
    (h0 : t0 = f n) (h1 : t1 = f (n + 1)) (h2 : t2 = f (n + 2)) (h3 : t3 = f (n + 3)) :
    a + t0 + t1 + t2 + t3 = chain f (n + 4) := by
  rw [ha, h0, h1, h2, h3]; rfl

/-- The last two positions. -/
theorem chain_step2 (f : Nat → EReal) (n : Nat) (a t0 t1 : EReal) (ha : a = chain f n)
    (h0 : t0 = f n) (h1 : t1 = f (n + 1)) :
    a + t0 + t1 = chain f (n + 2) := by
  rw [ha, h0, h1]; rfl

end Cert.NCut.Trip

end
-- ==== Proof.KSteps.lean ====
/-
  The window loop of one trip, step by step: after step p the accumulator at pixel (h, w) is the running total of
  the first 4 p - 1 window positions; the closing step adds the last two.  Every step is an instance of the lemmas
  on a window position as a product of two slab loads and on running totals taken a few positions at a time. -/
import proofs.«420815_j6201932775660_3_alg».proof.Proof.KTrip

noncomputable section

namespace Cert.NCut.Trip

open Idealize.ShloMosaic Idealize.ShloMosaic.ValueIdx Idealize.SL.Sem
open Cert.KernelIdeal Cert.KernelIdeal.Gen Cert.NCut Cert.NCut.Pay

variable (arg1 : Memref sig .tc .vmem S1x1x81x128x128 .f32) (arg2 : Memref sig .tc .vmem S1x8x136x136 .f32)
  (X1 : BufTy.Contents (Elt Ideal) arg1.view.ty) (X2 : BufTy.Contents (Elt Ideal) arg2.view.ty)
  (k : Fin k0_t1_loop.trips) (kk : Fin 8) (hkk : kk.val = k.val) (h w : Fin 128)

/-- The window positions of class kk at pixel (h, w), read from the two blocks' contents. -/
abbrev tapsOf : Nat → EReal := ktap (arg1.view.read (Elt Ideal) X1) (arg2.view.read (Elt Ideal) X2) kk h w

include hkk

theorem acc1 : trip_k0_t1.sl.r (F := Ideal) arg1 arg2 X1 X2 k (ix2 h w) = chain (tapsOf arg1 arg2 X1 X2 kk h w) 3 := by
  show firstTaps _ _ _ _ _ _ (ix2 h w) = _
  rw [firstTaps_apply]
  exact chain_first3 _ _ _ _
    (tap_read arg1.view arg2.view X1 X2 _ _ 0 _ kk h w 0 0 (by rw [k0_off1_eq, hkk]) rfl (by omega) (by omega))
    (tap_read arg1.view arg2.view X1 X2 _ _ 1 _ kk h w 0 1 (by rw [k0_off2_eq, hkk]) rfl (by omega) (by omega))
    (tap_read arg1.view arg2.view X1 X2 _ _ 2 _ kk h w 0 2 (by rw [k0_off3_eq, hkk]) rfl (by omega) (by omega))

theorem acc2 : trip_k0_t1.sl.r_3 (F := Ideal) arg1 arg2 X1 X2 k (ix2 h w) = chain (tapsOf arg1 arg2 X1 X2 kk h w) 7 := by
  show fourTaps _ (slab _) _ _ _ _ _ _ _ (ix2 h w) = _
  rw [fourTaps_apply, slab_apply]
  exact chain_step4 _ 3 _ _ _ _ _ (acc1 arg1 arg2 X1 X2 k kk hkk h w)
    (tap_read arg1.view arg2.view X1 X2 _ _ 3 _ kk h w 0 3 (by rw [k0_off4_eq, hkk]) rfl (by omega) (by omega))
    (tap_read arg1.view arg2.view X1 X2 _ _ 4 _ kk h w 0 4 (by rw [k0_off5_eq, hkk]) rfl (by omega) (by omega))
    (tap_read arg1.view arg2.view X1 X2 _ _ 5 _ kk h w 0 5 (by rw [k0_off6_eq, hkk]) rfl (by omega) (by omega))
    (tap_read arg1.view arg2.view X1 X2 _ _ 6 _ kk h w 0 6 (by rw [k0_off7_eq, hkk]) rfl (by omega) (by omega))

theorem acc3 : trip_k0_t1.sl.r_6 (F := Ideal) arg1 arg2 X1 X2 k (ix2 h w) = chain (tapsOf arg1 arg2 X1 X2 kk h w) 11 := by
  show fourTaps _ (slab _) _ _ _ _ _ _ _ (ix2 h w) = _
  rw [fourTaps_apply, slab_apply]
  exact chain_step4 _ 7 _ _ _ _ _ (acc2 arg1 arg2 X1 X2 k kk hkk h w)
    (tap_read arg1.view arg2.view X1 X2 _ _ 7 _ kk h w 0 7 (by rw [k0_off8_eq, hkk]) rfl (by omega) (by omega))
    (tap_read arg1.view arg2.view X1 X2 _ _ 8 _ kk h w 0 8 (by rw [k0_off9_eq, hkk]) rfl (by omega) (by omega))
    (tap_read arg1.view arg2.view X1 X2 _ _ 9 _ kk h w 1 0 (by rw [k0_off10_eq, hkk]) rfl (by omega) (by omega))
    (tap_read arg1.view arg2.view X1 X2 _ _ 10 _ kk h w 1 1 (by rw [k0_off11_eq, hkk]) rfl (by omega) (by omega))

theorem acc4 : trip_k0_t1.sl.r_9 (F := Ideal) arg1 arg2 X1 X2 k (ix2 h w) = chain (tapsOf arg1 arg2 X1 X2 kk h w) 15 := by
  show fourTaps _ (slab _) _ _ _ _ _ _ _ (ix2 h w) = _
  rw [fourTaps_apply, slab_apply]
  exact chain_step4 _ 11 _ _ _ _ _ (acc3 arg1 arg2 X1 X2 k kk hkk h w)
    (tap_read arg1.view arg2.view X1 X2 _ _ 11 _ kk h w 1 2 (by rw [k0_off12_eq, hkk]) rfl (by omega) (by omega))
    (tap_read arg1.view arg2.view X1 X2 _ _ 12 _ kk h w 1 3 (by rw [k0_off13_eq, hkk]) rfl (by omega) (by omega))
    (tap_read arg1.view arg2.view X1 X2 _ _ 13 _ kk h w 1 4 (by rw [k0_off14_eq, hkk]) rfl (by omega) (by omega))
    (tap_read arg1.view arg2.view X1 X2 _ _ 14 _ kk h w 1 5 (by rw [k0_off15_eq, hkk]) rfl (by omega) (by omega))

theorem acc5 : trip_k0_t1.sl.r_12 (F := Ideal) arg1 arg2 X1 X2 k (ix2 h w) = chain (tapsOf arg1 arg2 X1 X2 kk h w) 19 := by
  show fourTaps _ (slab _) _ _ _ _ _ _ _ (ix2 h w) = _
  rw [fourTaps_apply, slab_apply]
  exact chain_step4 _ 15 _ _ _ _ _ (acc4 arg1 arg2 X1 X2 k kk hkk h w)
    (tap_read arg1.view arg2.view X1 X2 _ _ 15 _ kk h w 1 6 (by rw [k0_off16_eq, hkk]) rfl (by omega) (by omega))
    (tap_read arg1.view arg2.view X1 X2 _ _ 16 _ kk h w 1 7 (by rw [k0_off17_eq, hkk]) rfl (by omega) (by omega))
    (tap_read arg1.view arg2.view X1 X2 _ _ 17 _ kk h w 1 8 (by rw [k0_off18_eq, hkk]) rfl (by omega) (by omega))
    (tap_read arg1.view arg2.view X1 X2 _ _ 18 _ kk h w 2 0 (by rw [k0_off19_eq, hkk]) rfl (by omega) (by omega))

theorem acc6 : trip_k0_t1.sl.r_15 (F := Ideal) arg1 arg2 X1 X2 k (ix2 h w) = chain (tapsOf arg1 arg2 X1 X2 kk h w) 23 := by
  show fourTaps _ (slab _) _ _ _ _ _ _ _ (ix2 h w) = _
  rw [fourTaps_apply, slab_apply]
  exact chain_step4 _ 19 _ _ _ _ _ (acc5 arg1 arg2 X1 X2 k kk hkk h w)
    (tap_read arg1.view arg2.view X1 X2 _ _ 19 _ kk h w 2 1 (by rw [k0_off20_eq, hkk]) rfl (by omega) (by omega))
    (tap_read arg1.view arg2.view X1 X2 _ _ 20 _ kk h w 2 2 (by rw [k0_off21_eq, hkk]) rfl (by omega) (by omega))
    (tap_read arg1.view arg2.view X1 X2 _ _ 21 _ kk h w 2 3 (by rw [k0_off22_eq, hkk]) rfl (by omega) (by omega))
    (tap_read arg1.view arg2.view X1 X2 _ _ 22 _ kk h w 2 4 (by rw [k0_off23_eq, hkk]) rfl (by omega) (by omega))

theorem acc7 : trip_k0_t1.sl.r_18 (F := Ideal) arg1 arg2 X1 X2 k (ix2 h w) = chain (tapsOf arg1 arg2 X1 X2 kk h w) 27 := by
  show fourTaps _ (slab _) _ _ _ _ _ _ _ (ix2 h w) = _
  rw [fourTaps_apply, slab_apply]
  exact chain_step4 _ 23 _ _ _ _ _ (acc6 arg1 arg2 X1 X2 k kk hkk h w)
    (tap_read arg1.view arg2.view X1 X2 _ _ 23 _ kk h w 2 5 (by rw [k0_off24_eq, hkk]) rfl (by omega) (by omega))
    (tap_read arg1.view arg2.view X1 X2 _ _ 24 _ kk h w 2 6 (by rw [k0_off25_eq, hkk]) rfl (by omega) (by omega))
    (tap_read arg1.view arg2.view X1 X2 _ _ 25 _ kk h w 2 7 (by rw [k0_off26_eq, hkk]) rfl (by omega) (by omega))
    (tap_read arg1.view arg2.view X1 X2 _ _ 26 _ kk h w 2 8 (by rw [k0_off27_eq, hkk]) rfl (by omega) (by omega))

theorem acc8 : trip_k0_t1.sl.r_21 (F := Ideal) arg1 arg2 X1 X2 k (ix2 h w) = chain (tapsOf arg1 arg2 X1 X2 kk h w) 31 := by
  show fourTaps _ (slab _) _ _ _ _ _ _ _ (ix2 h w) = _
  rw [fourTaps_apply, slab_apply]
  exact chain_step4 _ 27 _ _ _ _ _ (acc7 arg1 arg2 X1 X2 k kk hkk h w)
    (tap_read arg1.view arg2.view X1 X2 _ _ 27 _ kk h w 3 0 (by rw [k0_off28_eq, hkk]) rfl (by omega) (by omega))
    (tap_read arg1.view arg2.view X1 X2 _ _ 28 _ kk h w 3 1 (by rw [k0_off29_eq, hkk]) rfl (by omega) (by omega))
    (tap_read arg1.view arg2.view X1 X2 _ _ 29 _ kk h w 3 2 (by rw [k0_off30_eq, hkk]) rfl (by omega) (by omega))
    (tap_read arg1.view arg2.view X1 X2 _ _ 30 _ kk h w 3 3 (by rw [k0_off31_eq, hkk]) rfl (by omega) (by omega))

theorem acc9 : trip_k0_t1.sl.r_24 (F := Ideal) arg1 arg2 X1 X2 k (ix2 h w) = chain (tapsOf arg1 arg2 X1 X2 kk h w) 35 := by
  show fourTaps _ (slab _) _ _ _ _ _ _ _ (ix2 h w) = _
  rw [fourTaps_apply, slab_apply]
  exact chain_step4 _ 31 _ _ _ _ _ (acc8 arg1 arg2 X1 X2 k kk hkk h w)
    (tap_read arg1.view arg2.view X1 X2 _ _ 31 _ kk h w 3 4 (by rw [k0_off32_eq, hkk]) rfl (by omega) (by omega))
    (tap_read arg1.view arg2.view X1 X2 _ _ 32 _ kk h w 3 5 (by rw [k0_off33_eq, hkk]) rfl (by omega) (by omega))
    (tap_read arg1.view arg2.view X1 X2 _ _ 33 _ kk h w 3 6 (by rw [k0_off34_eq, hkk]) rfl (by omega) (by omega))
    (tap_read arg1.view arg2.view X1 X2 _ _ 34 _ kk h w 3 7 (by rw [k0_off35_eq, hkk]) rfl (by omega) (by omega))

theorem acc10 : trip_k0_t1.sl.r_27 (F := Ideal) arg1 arg2 X1 X2 k (ix2 h w) = chain (tapsOf arg1 arg2 X1 X2 kk h w) 39 := by
  show fourTaps _ (slab _) _ _ _ _ _ _ _ (ix2 h w) = _
  rw [fourTaps_apply, slab_apply]
  exact chain_step4 _ 35 _ _ _ _ _ (acc9 arg1 arg2 X1 X2 k kk hkk h w)
    (tap_read arg1.view arg2.view X1 X2 _ _ 35 _ kk h w 3 8 (by rw [k0_off36_eq, hkk]) rfl (by omega) (by omega))
    (tap_read arg1.view arg2.view X1 X2 _ _ 36 _ kk h w 4 0 (by rw [k0_off37_eq, hkk]) rfl (by omega) (by omega))
    (tap_read arg1.view arg2.view X1 X2 _ _ 37 _ kk h w 4 1 (by rw [k0_off38_eq, hkk]) rfl (by omega) (by omega))
    (tap_read arg1.view arg2.view X1 X2 _ _ 38 _ kk h w 4 2 (by rw [k0_off39_eq, hkk]) rfl (by omega) (by omega))

theorem acc11 : trip_k0_t1.sl.r_30 (F := Ideal) arg1 arg2 X1 X2 k (ix2 h w) = chain (tapsOf arg1 arg2 X1 X2 kk h w) 43 := by
  show fourTaps _ (slab _) _ _ _ _ _ _ _ (ix2 h w) = _
  rw [fourTaps_apply, slab_apply]
  exact chain_step4 _ 39 _ _ _ _ _ (acc10 arg1 arg2 X1 X2 k kk hkk h w)
    (tap_read arg1.view arg2.view X1 X2 _ _ 39 _ kk h w 4 3 (by rw [k0_off40_eq, hkk]) rfl (by omega) (by omega))
    (tap_read arg1.view arg2.view X1 X2 _ _ 40 _ kk h w 4 4 (by rw [k0_off41_eq, hkk]) rfl (by omega) (by omega))
    (tap_read arg1.view arg2.view X1 X2 _ _ 41 _ kk h w 4 5 (by rw [k0_off42_eq, hkk]) rfl (by omega) (by omega))
    (tap_read arg1.view arg2.view X1 X2 _ _ 42 _ kk h w 4 6 (by rw [k0_off43_eq, hkk]) rfl (by omega) (by omega))

theorem acc12 : trip_k0_t1.sl.r_33 (F := Ideal) arg1 arg2 X1 X2 k (ix2 h w) = chain (tapsOf arg1 arg2 X1 X2 kk h w) 47 := by
  show fourTaps _ (slab _) _ _ _ _ _ _ _ (ix2 h w) = _
  rw [fourTaps_apply, slab_apply]
  exact chain_step4 _ 43 _ _ _ _ _ (acc11 arg1 arg2 X1 X2 k kk hkk h w)
    (tap_read arg1.view arg2.view X1 X2 _ _ 43 _ kk h w 4 7 (by rw [k0_off44_eq, hkk]) rfl (by omega) (by omega))
    (tap_read arg1.view arg2.view X1 X2 _ _ 44 _ kk h w 4 8 (by rw [k0_off45_eq, hkk]) rfl (by omega) (by omega))
    (tap_read arg1.view arg2.view X1 X2 _ _ 45 _ kk h w 5 0 (by rw [k0_off46_eq, hkk]) rfl (by omega) (by omega))
    (tap_read arg1.view arg2.view X1 X2 _ _ 46 _ kk h w 5 1 (by rw [k0_off47_eq, hkk]) rfl (by omega) (by omega))

theorem acc13 : trip_k0_t1.sl.r_36 (F := Ideal) arg1 arg2 X1 X2 k (ix2 h w) = chain (tapsOf arg1 arg2 X1 X2 kk h w) 51 := by
  show fourTaps _ (slab _) _ _ _ _ _ _ _ (ix2 h w) = _
  rw [fourTaps_apply, slab_apply]
  exact chain_step4 _ 47 _ _ _ _ _ (acc12 arg1 arg2 X1 X2 k kk hkk h w)
    (tap_read arg1.view arg2.view X1 X2 _ _ 47 _ kk h w 5 2 (by rw [k0_off48_eq, hkk]) rfl (by omega) (by omega))
    (tap_read arg1.view arg2.view X1 X2 _ _ 48 _ kk h w 5 3 (by rw [k0_off49_eq, hkk]) rfl (by omega) (by omega))
    (tap_read arg1.view arg2.view X1 X2 _ _ 49 _ kk h w 5 4 (by rw [k0_off50_eq, hkk]) rfl (by omega) (by omega))
    (tap_read arg1.view arg2.view X1 X2 _ _ 50 _ kk h w 5 5 (by rw [k0_off51_eq, hkk]) rfl (by omega) (by omega))

theorem acc14 : trip_k0_t1.sl.r_39 (F := Ideal) arg1 arg2 X1 X2 k (ix2 h w) = chain (tapsOf arg1 arg2 X1 X2 kk h w) 55 := by
  show fourTaps _ (slab _) _ _ _ _ _ _ _ (ix2 h w) = _
  rw [fourTaps_apply, slab_apply]
  exact chain_step4 _ 51 _ _ _ _ _ (acc13 arg1 arg2 X1 X2 k kk hkk h w)
    (tap_read arg1.view arg2.view X1 X2 _ _ 51 _ kk h w 5 6 (by rw [k0_off52_eq, hkk]) rfl (by omega) (by omega))
    (tap_read arg1.view arg2.view X1 X2 _ _ 52 _ kk h w 5 7 (by rw [k0_off53_eq, hkk]) rfl (by omega) (by omega))
    (tap_read arg1.view arg2.view X1 X2 _ _ 53 _ kk h w 5 8 (by rw [k0_off54_eq, hkk]) rfl (by omega) (by omega))
    (tap_read arg1.view arg2.view X1 X2 _ _ 54 _ kk h w 6 0 (by rw [k0_off55_eq, hkk]) rfl (by omega) (by omega))

theorem acc15 : trip_k0_t1.sl.r_42 (F := Ideal) arg1 arg2 X1 X2 k (ix2 h w) = chain (tapsOf arg1 arg2 X1 X2 kk h w) 59 := by
  show fourTaps _ (slab _) _ _ _ _ _ _ _ (ix2 h w) = _
  rw [fourTaps_apply, slab_apply]
  exact chain_step4 _ 55 _ _ _ _ _ (acc14 arg1 arg2 X1 X2 k kk hkk h w)
    (tap_read arg1.view arg2.view X1 X2 _ _ 55 _ kk h w 6 1 (by rw [k0_off56_eq, hkk]) rfl (by omega) (by omega))
    (tap_read arg1.view arg2.view X1 X2 _ _ 56 _ kk h w 6 2 (by rw [k0_off57_eq, hkk]) rfl (by omega) (by omega))
    (tap_read arg1.view arg2.view X1 X2 _ _ 57 _ kk h w 6 3 (by rw [k0_off58_eq, hkk]) rfl (by omega) (by omega))
    (tap_read arg1.view arg2.view X1 X2 _ _ 58 _ kk h w 6 4 (by rw [k0_off59_eq, hkk]) rfl (by omega) (by omega))

theorem acc16 : trip_k0_t1.sl.r_45 (F := Ideal) arg1 arg2 X1 X2 k (ix2 h w) = chain (tapsOf arg1 arg2 X1 X2 kk h w) 63 := by
  show fourTaps _ (slab _) _ _ _ _ _ _ _ (ix2 h w) = _
  rw [fourTaps_apply, slab_apply]
  exact chain_step4 _ 59 _ _ _ _ _ (acc15 arg1 arg2 X1 X2 k kk hkk h w)
    (tap_read arg1.view arg2.view X1 X2 _ _ 59 _ kk h w 6 5 (by rw [k0_off60_eq, hkk]) rfl (by omega) (by omega))
    (tap_read arg1.view arg2.view X1 X2 _ _ 60 _ kk h w 6 6 (by rw [k0_off61_eq, hkk]) rfl (by omega) (by omega))
    (tap_read arg1.view arg2.view X1 X2 _ _ 61 _ kk h w 6 7 (by rw [k0_off62_eq, hkk]) rfl (by omega) (by omega))
    (tap_read arg1.view arg2.view X1 X2 _ _ 62 _ kk h w 6 8 (by rw [k0_off63_eq, hkk]) rfl (by omega) (by omega))

theorem acc17 : trip_k0_t1.sl.r_48 (F := Ideal) arg1 arg2 X1 X2 k (ix2 h w) = chain (tapsOf arg1 arg2 X1 X2 kk h w) 67 := by
  show fourTaps _ (slab _) _ _ _ _ _ _ _ (ix2 h w) = _
  rw [fourTaps_apply, slab_apply]
  exact chain_step4 _ 63 _ _ _ _ _ (acc16 arg1 arg2 X1 X2 k kk hkk h w)
    (tap_read arg1.view arg2.view X1 X2 _ _ 63 _ kk h w 7 0 (by rw [k0_off64_eq, hkk]) rfl (by omega) (by omega))
    (tap_read arg1.view arg2.view X1 X2 _ _ 64 _ kk h w 7 1 (by rw [k0_off65_eq, hkk]) rfl (by omega) (by omega))
    (tap_read arg1.view arg2.view X1 X2 _ _ 65 _ kk h w 7 2 (by rw [k0_off66_eq, hkk]) rfl (by omega) (by omega))
    (tap_read arg1.view arg2.view X1 X2 _ _ 66 _ kk h w 7 3 (by rw [k0_off67_eq, hkk]) rfl (by omega) (by omega))

theorem acc18 : trip_k0_t1.sl.r_51 (F := Ideal) arg1 arg2 X1 X2 k (ix2 h w) = chain (tapsOf arg1 arg2 X1 X2 kk h w) 71 := by
  show fourTaps _ (slab _) _ _ _ _ _ _ _ (ix2 h w) = _
  rw [fourTaps_apply, slab_apply]
  exact chain_step4 _ 67 _ _ _ _ _ (acc17 arg1 arg2 X1 X2 k kk hkk h w)
    (tap_read arg1.view arg2.view X1 X2 _ _ 67 _ kk h w 7 4 (by rw [k0_off68_eq, hkk]) rfl (by omega) (by omega))
    (tap_read arg1.view arg2.view X1 X2 _ _ 68 _ kk h w 7 5 (by rw [k0_off69_eq, hkk]) rfl (by omega) (by omega))
    (tap_read arg1.view arg2.view X1 X2 _ _ 69 _ kk h w 7 6 (by rw [k0_off70_eq, hkk]) rfl (by omega) (by omega))
    (tap_read arg1.view arg2.view X1 X2 _ _ 70 _ kk h w 7 7 (by rw [k0_off71_eq, hkk]) rfl (by omega) (by omega))

theorem acc19 : trip_k0_t1.sl.r_54 (F := Ideal) arg1 arg2 X1 X2 k (ix2 h w) = chain (tapsOf arg1 arg2 X1 X2 kk h w) 75 := by
  show fourTaps _ (slab _) _ _ _ _ _ _ _ (ix2 h w) = _
  rw [fourTaps_apply, slab_apply]
  exact chain_step4 _ 71 _ _ _ _ _ (acc18 arg1 arg2 X1 X2 k kk hkk h w)
    (tap_read arg1.view arg2.view X1 X2 _ _ 71 _ kk h w 7 8 (by rw [k0_off72_eq, hkk]) rfl (by omega) (by omega))
    (tap_read arg1.view arg2.view X1 X2 _ _ 72 _ kk h w 8 0 (by rw [k0_off73_eq, hkk]) rfl (by omega) (by omega))
    (tap_read arg1.view arg2.view X1 X2 _ _ 73 _ kk h w 8 1 (by rw [k0_off74_eq, hkk]) rfl (by omega) (by omega))
    (tap_read arg1.view arg2.view X1 X2 _ _ 74 _ kk h w 8 2 (by rw [k0_off75_eq, hkk]) rfl (by omega) (by omega))

theorem acc20 : trip_k0_t1.sl.r_57 (F := Ideal) arg1 arg2 X1 X2 k (ix2 h w) = chain (tapsOf arg1 arg2 X1 X2 kk h w) 79 := by
  show fourTaps _ (slab _) _ _ _ _ _ _ _ (ix2 h w) = _
  rw [fourTaps_apply, slab_apply]
  exact chain_step4 _ 75 _ _ _ _ _ (acc19 arg1 arg2 X1 X2 k kk hkk h w)
    (tap_read arg1.view arg2.view X1 X2 _ _ 75 _ kk h w 8 3 (by rw [k0_off76_eq, hkk]) rfl (by omega) (by omega))
    (tap_read arg1.view arg2.view X1 X2 _ _ 76 _ kk h w 8 4 (by rw [k0_off77_eq, hkk]) rfl (by omega) (by omega))
    (tap_read arg1.view arg2.view X1 X2 _ _ 77 _ kk h w 8 5 (by rw [k0_off78_eq, hkk]) rfl (by omega) (by omega))
    (tap_read arg1.view arg2.view X1 X2 _ _ 78 _ kk h w 8 6 (by rw [k0_off79_eq, hkk]) rfl (by omega) (by omega))

/-- The slab trip k stores, as a function of the two blocks' contents. -/
def tripVal : FVec Ideal S1x128x128 .f32 :=
  k0_pay1 (F := Ideal) (trip_k0_t1.sl.r_57 arg1 arg2 X1 X2 k) (trip_k0_t1.sl.r_58 arg2 X2 k) (trip_k0_t1.sl.r_59 arg1 X1)
    (View.readAt (Elt Ideal) arg2.view (Rect.unit (s := S1x8x136x136) (k0_off81 k) S1x1x128x128.size (k0_off81_inb k)).toLoadRect X2)
    (View.readAt (Elt Ideal) arg1.view (Rect.unit (s := S1x1x81x128x128) ![0, 0, 80, 0, 0] S1x1x1x128x128.size inb_S1x1x81x128x128_S1x1x1x128x128_0_0_80_0_0).toLoadRect X1)

theorem tripVal_apply : tripVal arg1 arg2 X1 X2 k (ix3 0 h w) = chain (tapsOf arg1 arg2 X1 X2 kk h w) 81 := by
  unfold tripVal
  rw [pay1_apply]
  rw [show trip_k0_t1.sl.r_58 (F := Ideal) arg2 X2 k = slab _ from rfl, slab_apply]
  exact chain_step2 _ 79 _ _ _ (acc20 arg1 arg2 X1 X2 k kk hkk h w)
    (tap_read arg1.view arg2.view X1 X2 _ _ 79 _ kk h w 8 7 (by rw [k0_off80_eq, hkk]) rfl (by omega) (by omega))
    (tap_read arg1.view arg2.view X1 X2 _ _ 80 _ kk h w 8 8 (by rw [k0_off81_eq, hkk]) rfl (by omega) (by omega))

end Cert.NCut.Trip

end
-- ==== Proof.KLoop.lean ====
/-
  The scratch after the class loop.

  Trip k of the loop stores one slab into row k of the scratch [8, 128, 128], and the eight trips' slabs tile it.  Each
  slab is the restriction of ONE function of the scratch index: at (k, h, w) the running total of the 81 window positions
  of class k at pixel (h, w), read from the two blocks the trips load.  So whatever order the slabs are listed in, the
  scratch read back at (k, h, w) after the loop is that running total.
-/
import proofs.«420815_j6201932775660_3_alg».proof.Proof.KSteps

noncomputable section

namespace Cert.NCut.Loop

open Idealize.ShloMosaic Idealize.ShloMosaic.ValueIdx Idealize.SL.Sem
open Cert.KernelIdeal Cert.KernelIdeal.Gen Cert.NCut Cert.NCut.Pay Cert.NCut.Trip

/-- The loop makes eight trips. -/
theorem trips_eq : k0_t1_loop.trips = 8 := by decide

/-- The scratch as one function of its index: the 81-position running total of class k at pixel (h, w). -/
def accFun (x0 : (⟨5, ![1, 1, 81, 128, 128]⟩ : Shape).Idx → EReal) (x1 : (⟨4, ![1, 8, 136, 136]⟩ : Shape).Idx → EReal) :
    S8x128x128.Idx → EReal :=
  fun y => chain (ktap x0 x1 (y 0) (y 1) (y 2)) 81

theorem accFun_eq (x0 : (⟨5, ![1, 1, 81, 128, 128]⟩ : Shape).Idx → EReal) (x1 : (⟨4, ![1, 8, 136, 136]⟩ : Shape).Idx → EReal)
    (y : S8x128x128.Idx) (k : Fin 8) (h w : Fin 128) (h0 : (y 0).val = k.val) (h1 : (y 1).val = h.val) (h2 : (y 2).val = w.val) :
    accFun x0 x1 y = chain (ktap x0 x1 k h w) 81 := by
  have hy : y = ix3 k h w := by
    funext a
    match a with
    | ⟨0, _⟩ => exact Fin.ext h0
    | ⟨1, _⟩ => exact Fin.ext h1
    | ⟨2, _⟩ => exact Fin.ext h2
  subst hy
  rfl

section
variable (𝒱 : Variants) (c : Dev nD) (bd : Option 𝒱.V) (i : grid0.Coords) (arg1 : Memref sig .tc .vmem S1x1x81x128x128 .f32) (harg1 : arg1.IsWhole) (arg2 : Memref sig .tc .vmem S1x8x136x136 .f32) (harg2 : arg2.IsWhole) (arg3 : Memref sig .tc .vmem S1x8x128x128 .f32) (harg3 : arg3.IsWhole) (arg4 : Memref sig .tc .vmem S1x1x128x128 .f32) (harg4 : arg4.IsWhole) (arg5 : Memref sig .tc .vmem S1x1x8 .f32) (harg5 : arg5.IsWhole) (arg6 : Memref sig .tc .vmem S1x1x8 .f32) (harg6 : arg6.IsWhole) (arg7 : Memref sig .tc .vmem S8x128x128 .f32) (harg7 : arg7.IsWhole) (X1 : BufTy.Contents (Elt Ideal) arg1.view.ty) (X2 : BufTy.Contents (Elt Ideal) arg2.view.ty)

/-- Trip k writes ONE piece: its slab, at row k. -/
theorem tripL_eq (k : Fin k0_t1_loop.trips) :
    tripL_k0_t1 (F := Ideal) 𝒱 c bd i arg1 harg1 arg2 harg2 arg3 harg3 arg4 harg4 arg5 harg5 arg6 harg6 arg7 harg7 X1 X2 k
      = [⟨Rect.unit (s := S8x128x128) (k0_off82 k) S1x128x128.size (k0_off82_inb k), tripVal arg1 arg2 X1 X2 k⟩] := by
  unfold tripL_k0_t1 trip_k0_t1
  rfl

/-- The slab of trip k is the scratch function on row k. -/
theorem trip_piece (k : Fin k0_t1_loop.trips)
    (x : (Rect.unit (s := S8x128x128) (k0_off82 k) S1x128x128.size (k0_off82_inb k)).shape.Idx) :
    tripVal arg1 arg2 X1 X2 k x
      = accFun (arg1.view.read (Elt Ideal) X1) (arg2.view.read (Elt Ideal) X2)
          ((Rect.unit (s := S8x128x128) (k0_off82 k) S1x128x128.size (k0_off82_inb k)).emb x) := by
  have hk8 : k.val < 8 := lt_of_lt_of_eq k.isLt trips_eq
  obtain ⟨u, a, b, rfl⟩ : ∃ (u : Fin 1) (a : Fin 128) (b : Fin 128), x = ix3 u a b := ⟨x 0, x 1, x 2, eq_ix3 x⟩
  obtain rfl : u = 0 := Subsingleton.elim _ _
  rw [tripVal_apply arg1 arg2 X1 X2 k ⟨k.val, hk8⟩ rfl a b]
  refine (accFun_eq _ _ _ ⟨k.val, hk8⟩ a b ?_ ?_ ?_).symm
  · show k0_off82 k 0 + 1 * 0 = k.val
    rw [k0_off82_eq]; rfl
  · show k0_off82 k 1 + 1 * a.val = a.val
    rw [k0_off82_eq]; show 0 + 1 * a.val = a.val; omega
  · show k0_off82 k 2 + 1 * b.val = b.val
    rw [k0_off82_eq]; show 0 + 1 * b.val = b.val; omega

/-- Every piece the trips before n wrote is the scratch function on its rectangle. -/
theorem pb_pieces : ∀ (n : Nat) (p : View.Piece (Elt Ideal) S8x128x128 .f32),
    p ∈ pb_k0_t1 (F := Ideal) 𝒱 c bd i arg1 harg1 arg2 harg2 arg3 harg3 arg4 harg4 arg5 harg5 arg6 harg6 arg7 harg7 X1 X2 n →
      ∀ x : p.1.shape.Idx, p.2 x = accFun (arg1.view.read (Elt Ideal) X1) (arg2.view.read (Elt Ideal) X2) (p.1.emb x)
  | 0, p, hp => by rw [pb_k0_t1.eq_1] at hp; exact absurd hp List.not_mem_nil
  | n + 1, p, hp => by
    rw [pb_k0_t1.eq_2] at hp
    unfold pb_k0_t1Step at hp
    by_cases hn : n < k0_t1_loop.trips
    · rw [dif_pos hn, List.mem_append] at hp
      rcases hp with hp | hp
      · rw [tripL_eq, List.mem_singleton] at hp
        subst hp
        exact trip_piece arg1 arg2 X1 X2 ⟨n, hn⟩
      · exact pb_pieces n p hp
    · rw [dif_neg hn] at hp
      exact pb_pieces n p hp

/-- The piece of trip k is among the pieces of the trips before n, for k < n. -/
theorem trip_mem_pb (k : Fin k0_t1_loop.trips) : ∀ (n : Nat), k.val < n →
    (⟨Rect.unit (s := S8x128x128) (k0_off82 k) S1x128x128.size (k0_off82_inb k), tripVal arg1 arg2 X1 X2 k⟩ : View.Piece (Elt Ideal) S8x128x128 .f32)
      ∈ pb_k0_t1 (F := Ideal) 𝒱 c bd i arg1 harg1 arg2 harg2 arg3 harg3 arg4 harg4 arg5 harg5 arg6 harg6 arg7 harg7 X1 X2 n
  | 0, h => absurd h (Nat.not_lt_zero _)
  | n + 1, h => by
    rw [pb_k0_t1.eq_2]
    unfold pb_k0_t1Step
    by_cases hn : n < k0_t1_loop.trips
    · rw [dif_pos hn, List.mem_append]
      by_cases hkn : k.val = n
      · left
        have hk : k = ⟨n, hn⟩ := Fin.ext hkn
        subst hk
        rw [tripL_eq]
        exact List.mem_singleton_self _
      · right
        exact trip_mem_pb k n (by omega)
    · rw [dif_neg hn]
      exact trip_mem_pb k n (by have := k.isLt; omega)

/-- After all eight trips, the pieces read back at (k, h, w) as the running total of class k at pixel (h, w). -/
theorem canon_pb (k : Fin 8) (h w : Fin 128) :
    View.canon (pb_k0_t1 (F := Ideal) 𝒱 c bd i arg1 harg1 arg2 harg2 arg3 harg3 arg4 harg4 arg5 harg5 arg6 harg6 arg7 harg7 X1 X2 k0_t1_loop.trips) (ix3 k h w)
      = chain (ktap (arg1.view.read (Elt Ideal) X1) (arg2.view.read (Elt Ideal) X2) k h w) 81 := by
  have hk : k.val < k0_t1_loop.trips := lt_of_lt_of_eq k.isLt trips_eq.symm
  rw [View.canon_apply_of_pieces (accFun (arg1.view.read (Elt Ideal) X1) (arg2.view.read (Elt Ideal) X2)) _
    (pb_pieces 𝒱 c bd i arg1 harg1 arg2 harg2 arg3 harg3 arg4 harg4 arg5 harg5 arg6 harg6 arg7 harg7 X1 X2 k0_t1_loop.trips) (ix3 k h w)
    ⟨_, trip_mem_pb 𝒱 c bd i arg1 harg1 arg2 harg2 arg3 harg3 arg4 harg4 arg5 harg5 arg6 harg6 arg7 harg7 X1 X2 ⟨k.val, hk⟩ k0_t1_loop.trips hk, by
      rw [Rect.mem_set_unit]
      intro a
      rw [k0_off82_eq]
      match a with
      | ⟨0, _⟩ => exact ⟨Nat.le_refl _, Nat.lt_succ_self _⟩
      | ⟨1, _⟩ => exact ⟨Nat.zero_le _, by show h.val < 0 + 128; omega⟩
      | ⟨2, _⟩ => exact ⟨Nat.zero_le _, by show w.val < 0 + 128; omega⟩⟩]
  exact accFun_eq _ _ _ k h w rfl rfl rfl

end

end Cert.NCut.Loop

end
-- ==== Proof.KOut.lean ====
/-
  The two outputs of one grid point, read at a class.

  Both multiply a [8, 128, 128] array by the segmentation block viewed [8, 128, 128], sum over the columns, then over the
  rows, and view the eight sums as [1, 1, 8].  For the first output the array is the scratch; for the second it is the
  per-pixel weight total, one [128, 128] slab repeated for every class.
-/
import proofs.«420815_j6201932775660_3_alg».proof.Proof.KPay

noncomputable section

open scoped BigOperators

namespace Cert.NCut.Pay

open Idealize.ShloMosaic Idealize.ShloMosaic.ValueIdx
open Cert.KernelIdeal Cert.KernelIdeal.Gen Cert.NCut

/-- Summing a [8, 128, 128] array over its columns and then its rows, viewed [1, 1, 8], read at class k. -/
theorem sums_apply (v : FVec Ideal S8x128x128 .f32) (k : Fin 8) :
    shapeCast S1x1x8
        (shapeCast S1x8
          (multiReduction (F := Ideal) .add [1] S8
            (multiReduction (F := Ideal) .add [2] S8x128 v 0x00000000#32 reduces_S8x128x128_S8x128 (.inl rfl) rfl)
            0x00000000#32 reduces_S8x128_S8 (.inl rfl) rfl)
          shapeCasts_S8_S1x8)
        shapeCasts_S1x8_S1x1x8 (ix3 0 0 k)
      = ∑ h : Fin 128, ∑ w : Fin 128, v (ix3 k h w) := by
  rw [shapeCast_ab_1ab_apply, shapeCast_a_1a_apply]
  refine (Ideal.multiReduction_add_single (a := 1) _ 0x00000000#32 reduces_S8x128_S8 (.inl rfl) rfl (ix1 k)).trans ?_
  refine Finset.sum_congr rfl (fun h _ => ?_)
  refine (Ideal.multiReduction_add_single (a := 2) v 0x00000000#32 reduces_S8x128x128_S8x128 (.inl rfl) rfl _).trans ?_
  refine Finset.sum_congr rfl (fun w _ => ?_)
  congr 1
  funext a
  match a with
  | ⟨0, _⟩ => rfl
  | ⟨1, _⟩ => rfl
  | ⟨2, _⟩ => rfl

/-- The first output at class k: the scratch against the segmentation block, summed over the pixels. -/
theorem pay3_apply (v1 : Vec Ideal S1x8x128x128 .f32) (v3 : Vec Ideal S8x128x128 .f32) (k : Fin 8) :
    k0_pay3 (F := Ideal) v1 v3 (ix3 0 0 k) = ∑ h : Fin 128, ∑ w : Fin 128, v3 (ix3 k h w) * v1 (ix4 0 k h w) := by
  show shapeCast S1x1x8 (shapeCast S1x8 (multiReduction (F := Ideal) .add [1] S8
      (multiReduction (F := Ideal) .add [2] S8x128 (mulf v3 (shapeCast S8x128x128 v1 shapeCasts_S1x8x128x128_S8x128x128))
        0x00000000#32 reduces_S8x128x128_S8x128 (.inl rfl) rfl) 0x00000000#32 reduces_S8x128_S8 (.inl rfl) rfl)
      shapeCasts_S8_S1x8) shapeCasts_S1x8_S1x1x8 (ix3 0 0 k) = _
  rw [sums_apply]
  refine Finset.sum_congr rfl (fun h _ => Finset.sum_congr rfl (fun w _ => ?_))
  rw [mulf_apply, cast_1abc]

/-- The second output at class k: the per-pixel weight total against the segmentation block, summed over the pixels. -/
theorem pay4_apply (v1 : Vec Ideal S1x8x128x128 .f32) (v7 : Vec Ideal S1x1x128x128 .f32) (k : Fin 8) :
    k0_pay4 (F := Ideal) v1 v7 (ix3 0 0 k) = ∑ h : Fin 128, ∑ w : Fin 128, v7 (ix4 0 0 h w) * v1 (ix4 0 k h w) := by
  show shapeCast S1x1x8 (shapeCast S1x8 (multiReduction (F := Ideal) .add [1] S8
      (multiReduction (F := Ideal) .add [2] S8x128
        (mulf (broadcastTo S8x128x128 (shapeCast S1x128x128 (shapeCast S128x128 v7 shapeCasts_S1x1x128x128_S128x128) shapeCasts_S128x128_S1x128x128) broadcasts_S1x128x128_S8x128x128)
          (shapeCast S8x128x128 v1 shapeCasts_S1x8x128x128_S8x128x128))
        0x00000000#32 reduces_S8x128x128_S8x128 (.inl rfl) rfl) 0x00000000#32 reduces_S8x128_S8 (.inl rfl) rfl)
      shapeCasts_S8_S1x8) shapeCasts_S1x8_S1x1x8 (ix3 0 0 k) = _
  rw [sums_apply]
  refine Finset.sum_congr rfl (fun h _ => Finset.sum_congr rfl (fun w _ => ?_))
  rw [mulf_apply, cast_1abc]
  congr 1
  rw [broadcastTo_apply _ _ _ (ix3 0 h w) (fun a => by
    match a with
    | ⟨0, _⟩ => rfl
    | ⟨1, _⟩ => rfl
    | ⟨2, _⟩ => rfl), cast_ab_1ab, cast_11ab]

end Cert.NCut.Pay

end
-- ==== Proof.KBody.lean ====
/-
  What one grid point's body leaves in its two output blocks, as functions of the point's four input blocks.

  The body first fills the scratch [8, 128, 128]: row k is the 81-position running total of the padded block's shifted
  [128, 128] windows of class k times the weight block's slab for the position.  It then multiplies the scratch by the
  segmentation block and sums over the columns and then the rows, giving A[k]; the per-pixel weight total times the
  segmentation block, summed the same way, gives V[k].
-/
import proofs.«420815_j6201932775660_3_alg».proof.Proof.KIFrame
import proofs.«420815_j6201932775660_3_alg».proof.Proof.KLoop
import proofs.«420815_j6201932775660_3_alg».proof.Proof.KOut
import proofs.«420815_j6201932775660_3_alg».proof.Proof.Spec

noncomputable section

open scoped BigOperators

namespace Cert.NCut.Body

open Idealize.ShloMosaic Idealize.ShloMosaic.TcCoe Idealize.ShloMosaic.ValueIdx Idealize.SL.Sem
open Cert.KernelIdeal Cert.KernelIdeal.Gen Cert.KernelIdeal.GenP Cert.NCut Cert.NCut.Pay Cert.NCut.Loop

theorem zero3 : (![0, 0, 0] : Fin 3 → Nat) = fun _ => 0 := by
  funext a; match a with | ⟨0, _⟩ => rfl | ⟨1, _⟩ => rfl | ⟨2, _⟩ => rfl

theorem zero4 : (![0, 0, 0, 0] : Fin 4 → Nat) = fun _ => 0 := by
  funext a; match a with | ⟨0, _⟩ => rfl | ⟨1, _⟩ => rfl | ⟨2, _⟩ => rfl | ⟨3, _⟩ => rfl

/-- A load of a whole block reads the block. -/
theorem whole_read4 {S : Shape} (hS : S.rank = 4) {sig' : RefSig} (mr : Memref sig' .tc .vmem S .f32) (hmr : mr.IsWhole)
    (x : Vec Ideal S .f32) (off : Fin S.rank → Nat) (hoff : off = fun _ => 0) (inb : ∀ a, off a + S.size a ≤ S.size a) :
    View.readAt (Elt Ideal) mr.view (Rect.unit off S.size inb).toLoadRect (hmr.unread x) = x := by
  rw [View.readAt_eq_ld, hmr.read_unread, View.ld_unit_zero hoff]

/-- Output block 4 at class k: the accumulator against the segmentation block, summed over the pixels. -/
theorem out4_apply (c : Dev nD) (i : grid0.Coords) (arg1 : Memref sig .tc .vmem S1x1x81x128x128 .f32) (harg1 : arg1.IsWhole) (arg2 : Memref sig .tc .vmem S1x8x136x136 .f32) (harg2 : arg2.IsWhole) (arg3 : Memref sig .tc .vmem S1x8x128x128 .f32) (harg3 : arg3.IsWhole) (arg4 : Memref sig .tc .vmem S1x1x128x128 .f32) (harg4 : arg4.IsWhole) (arg5 : Memref sig .tc .vmem S1x1x8 .f32) (harg5 : arg5.IsWhole) (arg6 : Memref sig .tc .vmem S1x1x8 .f32) (harg6 : arg6.IsWhole) (arg7 : Memref sig .tc .vmem S8x128x128 .f32) (harg7 : arg7.IsWhole)
    (x0 : Vec Ideal S1x1x81x128x128 .f32) (x1 : Vec Ideal S1x8x136x136 .f32) (x2 : Vec Ideal S1x8x128x128 .f32) (x3 : Vec Ideal S1x1x128x128 .f32) (k : Fin 8) :
    out0_A_4 (F := Ideal) c i arg1 harg1 arg2 harg2 arg3 harg3 arg4 harg4 arg5 harg5 arg6 harg6 arg7 harg7 x0 x1 x2 x3 (ix3 0 0 k)
      = ∑ h : Fin 128, ∑ w : Fin 128, chain (ktap x0 x1 k h w) 81 * x2 (ix4 0 k h w) := by
  unfold out0_A_4
  rw [View.read_writes_eq_canon _ _ _ (fun y => cover0_A_4 c i arg1 harg1 arg2 harg2 arg3 harg3 arg4 harg4 arg5 harg5 arg6 harg6 arg7 harg7 x0 x1 x2 x3 y)]
  show View.canon (kernelRun0_A_L4 (F := Ideal) c i arg1 harg1 arg2 harg2 arg3 harg3 arg4 harg4 arg5 harg5 arg6 harg6 arg7 harg7 x0 x1 x2 x3) (ix3 0 0 k) = _
  unfold kernelRun0_A_L4
  rw [View.canon_unit_zero zero3, pay3_apply]
  refine Finset.sum_congr rfl (fun h _ => Finset.sum_congr rfl (fun w _ => ?_))
  congr 1
  · have hidx : (Rect.unit (s := S8x128x128) ![0, 0, 0] S8x128x128.size inb_S8x128x128_S8x128x128_0_0_0).toLoadRect.idx (ix3 k h w)
        = ix3 k h w := by
      funext a
      apply Fin.ext
      match a with
      | ⟨0, _⟩ => show 0 + 1 * k.val = k.val; omega
      | ⟨1, _⟩ => show 0 + 1 * h.val = h.val; omega
      | ⟨2, _⟩ => show 0 + 1 * w.val = w.val; omega
    show View.canon _ ((Rect.unit (s := S8x128x128) ![0, 0, 0] S8x128x128.size inb_S8x128x128_S8x128x128_0_0_0).toLoadRect.idx (ix3 k h w)) = _
    rw [hidx]
    refine (canon_pb Variants.none c none i arg1 harg1 arg2 harg2 arg3 harg3 arg4 harg4 arg5 harg5 arg6 harg6 arg7 harg7
      (harg1.unread x0) (harg2.unread x1) k h w).trans ?_
    rw [harg1.read_unread, harg2.read_unread]
  · rw [whole_read4 rfl arg3 harg3 x2 _ zero4]

/-- Output block 5 at class k: the per-pixel weight total against the segmentation block, summed over the pixels. -/
theorem out5_apply (c : Dev nD) (i : grid0.Coords) (arg1 : Memref sig .tc .vmem S1x1x81x128x128 .f32) (harg1 : arg1.IsWhole) (arg2 : Memref sig .tc .vmem S1x8x136x136 .f32) (harg2 : arg2.IsWhole) (arg3 : Memref sig .tc .vmem S1x8x128x128 .f32) (harg3 : arg3.IsWhole) (arg4 : Memref sig .tc .vmem S1x1x128x128 .f32) (harg4 : arg4.IsWhole) (arg5 : Memref sig .tc .vmem S1x1x8 .f32) (harg5 : arg5.IsWhole) (arg6 : Memref sig .tc .vmem S1x1x8 .f32) (harg6 : arg6.IsWhole) (arg7 : Memref sig .tc .vmem S8x128x128 .f32) (harg7 : arg7.IsWhole)
    (x0 : Vec Ideal S1x1x81x128x128 .f32) (x1 : Vec Ideal S1x8x136x136 .f32) (x2 : Vec Ideal S1x8x128x128 .f32) (x3 : Vec Ideal S1x1x128x128 .f32) (k : Fin 8) :
    out0_A_5 (F := Ideal) c i arg1 harg1 arg2 harg2 arg3 harg3 arg4 harg4 arg5 harg5 arg6 harg6 arg7 harg7 x0 x1 x2 x3 (ix3 0 0 k)
      = ∑ h : Fin 128, ∑ w : Fin 128, x3 (ix4 0 0 h w) * x2 (ix4 0 k h w) := by
  unfold out0_A_5
  rw [View.read_writes_eq_canon _ _ _ (fun y => cover0_A_5 c i arg1 harg1 arg2 harg2 arg3 harg3 arg4 harg4 arg5 harg5 arg6 harg6 arg7 harg7 x0 x1 x2 x3 y)]
  show View.canon (kernelRun0_A_L5 (F := Ideal) c i arg1 harg1 arg2 harg2 arg3 harg3 arg4 harg4 arg5 harg5 arg6 harg6 arg7 harg7 x0 x1 x2 x3) (ix3 0 0 k) = _
  unfold kernelRun0_A_L5
  rw [View.canon_unit_zero zero3, pay4_apply]
  refine Finset.sum_congr rfl (fun h _ => Finset.sum_congr rfl (fun w _ => ?_))
  rw [whole_read4 rfl arg3 harg3 x2 _ zero4, whole_read4 rfl arg4 harg4 x3 _ zero4]

end Cert.NCut.Body

end
-- ==== Proof.KValueA.lean ====
/-
  The kernel's arrays and blocks read at an index, and one batch item's blocks against the whole arrays.

  Before the region the weight argument `[16, 1, 128, 128, 9, 9]` has its two window axes merged into one axis of 81
  positions, `j = 9 m + n`, and that axis is moved in front of the two pixel axes: entry `(b, 0, j, h, w)` of the array
  the region finds is the argument's entry `(b, 0, h, w, j / 9, j % 9)`.  At grid point `t` every window's block is batch
  item `t` of its array.  So a window position read from point `t`'s blocks is the specification's position at batch
  item `t`, and the two pixel sums over the blocks are `A[t, k]` and `V[t, k]`.
-/
import proofs.«420815_j6201932775660_3_alg».proof.Proof.KBody
import Idealize.ShloMosaic.Lib.Pipeline.Value
import Idealize.ShloMosaic.Lib.ValueIdx
import Idealize.ShloMosaic.Lib.ValueIdxRank6
import Idealize.ShloMosaic.Lib.StableHlo.Run
import Idealize.ShloMosaic.Lib.Tactic

noncomputable section

open scoped BigOperators

namespace Cert.NCut.Kern

open Idealize.ShloMosaic Idealize.ShloMosaic.TcCoe Idealize.ShloMosaic.ValueIdx Idealize.SL.Sem
open Cert.KernelIdeal Cert.KernelIdeal.Gen Cert.KernelIdeal.GenP Cert.NCut

variable (m : (ℓ : Loc nD τ sig) → Buf (Elt Ideal) ℓ)

/-! ## The arrays and the blocks read at an index -/

/-- A grid point as a batch index. -/
abbrev pt (t : Fin cfg0.N) : Fin 16 := t.cast N_0

/-- The weight array as the region finds it: the argument with its two window axes merged into one of 81 positions, and
    that axis then moved in front of the two pixel axes. -/
theorem wt_arr (c : Dev nD) :
    (V (F := Ideal) m c main_v1 : S16x1x81x128x128.Idx → EReal)
      = transpose S16x1x81x128x128 [0, 1, 4, 2, 3]
          (shapeCast S16x1x128x128x81 (m ((c : Thread nD τ).loc main_arg2)) shapeCasts_S16x1x128x128x9x9_S16x1x128x128x81)
          transposes_S16x1x128x128x81_S16x1x81x128x128_0_1_4_2_3 := by
  show StableHlo.after hostOps0 (fun b => m (c, b)) (Proc.devRef .tc main_v1) = _
  after_results
  rfl

/-- Read at an index: position `j` of pixel `(h, w)` is the argument's entry at window position `(j / 9, j % 9)`. -/
theorem wt_arr_apply (c : Dev nD) (b : Fin 16) (j : Fin 81) (h w : Fin 128) :
    (V (F := Ideal) m c main_v1 : S16x1x81x128x128.Idx → EReal) (ix5 b 0 j h w)
      = (m ((c : Thread nD τ).loc main_arg2) : S16x1x128x128x9x9.Idx → EReal)
          (ix6 b 0 h w ⟨j.val / 9, by omega⟩ ⟨j.val % 9, by omega⟩) := by
  rw [wt_arr]
  refine (transpose_apply [0, 1, 4, 2, 3] _ _ (ix5 b 0 j h w) (ix5 b 0 h w j) (fun a => ?_)).trans ?_
  · match a with
    | ⟨0, _⟩ => rfl
    | ⟨1, _⟩ => rfl
    | ⟨2, _⟩ => rfl
    | ⟨3, _⟩ => rfl
    | ⟨4, _⟩ => rfl
  · refine shapeCast_apply _ _ (ix5 b 0 h w j) (ix6 b 0 h w ⟨j.val / 9, by omega⟩ ⟨j.val % 9, by omega⟩) ?_
    rw [Shape.rowMajor_val_six, Shape.rowMajor_val_five]
    show ((((b.val * 1 + 0) * 128 + h.val) * 128 + w.val) * 9 + j.val / 9) * 9 + j.val % 9
      = (((b.val * 1 + 0) * 128 + h.val) * 128 + w.val) * 81 + j.val
    omega

/-- The printed index maps, decided once over the grid: every window's block index at point `t` is `t` on the batch
    axis and zero on the others. -/
theorem idx_facts : ∀ t : Fin cfg0.N,
    (win0_0.index t (0 : Fin 5) = t.val ∧ win0_0.index t (1 : Fin 5) = 0 ∧ win0_0.index t (2 : Fin 5) = 0
      ∧ win0_0.index t (3 : Fin 5) = 0 ∧ win0_0.index t (4 : Fin 5) = 0)
    ∧ (win0_1.index t (0 : Fin 4) = t.val ∧ win0_1.index t (1 : Fin 4) = 0 ∧ win0_1.index t (2 : Fin 4) = 0
      ∧ win0_1.index t (3 : Fin 4) = 0)
    ∧ (win0_2.index t (0 : Fin 4) = t.val ∧ win0_2.index t (1 : Fin 4) = 0 ∧ win0_2.index t (2 : Fin 4) = 0
      ∧ win0_2.index t (3 : Fin 4) = 0)
    ∧ (win0_3.index t (0 : Fin 4) = t.val ∧ win0_3.index t (1 : Fin 4) = 0 ∧ win0_3.index t (2 : Fin 4) = 0
      ∧ win0_3.index t (3 : Fin 4) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0) :=
  (by decide +kernel : ∀ t : Fin grid0.N, _)

/-- The padded block at point `t` is batch item `t` of the padded argument. -/
theorem blk1_apply (c : Dev nD) (t : Fin cfg0.N) (k : Fin 8) (r s : Fin 136) :
    (iblk (F := Ideal) m c 1 t : Vec Ideal S1x8x136x136 .f32) (ix4 0 k r s)
      = (m ((c : Thread nD τ).loc main_arg1) : S16x8x136x136.Idx → EReal) (ix4 (pt t) k r s) := by
  obtain ⟨-, ⟨e0, e1, e2, e3⟩, -, -, -, -⟩ := idx_facts t
  unfold iblk
  rw [View.read_apply]
  show V m c main_arg1 _ = _
  rw [V_main_arg1]
  congr 1
  funext a
  apply Fin.ext
  match a with
  | ⟨0, _⟩ => show win0_1.index t (0 : Fin 4) * 1 + 1 * 0 = t.val; omega
  | ⟨1, _⟩ => show win0_1.index t (1 : Fin 4) * 8 + 1 * k.val = k.val; omega
  | ⟨2, _⟩ => show win0_1.index t (2 : Fin 4) * 136 + 1 * r.val = r.val; omega
  | ⟨3, _⟩ => show win0_1.index t (3 : Fin 4) * 136 + 1 * s.val = s.val; omega

/-- The weight block at point `t`: position `j` of pixel `(h, w)` is batch item `t`'s window entry `(j / 9, j % 9)`. -/
theorem blk0_apply (c : Dev nD) (t : Fin cfg0.N) (j : Fin 81) (h w : Fin 128) :
    (iblk (F := Ideal) m c 0 t : Vec Ideal S1x1x81x128x128 .f32) (ix5 0 0 j h w)
      = (m ((c : Thread nD τ).loc main_arg2) : S16x1x128x128x9x9.Idx → EReal)
          (ix6 (pt t) 0 h w ⟨j.val / 9, by omega⟩ ⟨j.val % 9, by omega⟩) := by
  obtain ⟨⟨e0, e1, e2, e3, e4⟩, -, -, -, -, -⟩ := idx_facts t
  unfold iblk
  rw [View.read_apply]
  show V m c main_v1 _ = _
  refine Eq.trans ?_ (wt_arr_apply m c (pt t) j h w)
  congr 1
  funext a
  apply Fin.ext
  match a with
  | ⟨0, _⟩ => show win0_0.index t (0 : Fin 5) * 1 + 1 * 0 = t.val; omega
  | ⟨1, _⟩ => show win0_0.index t (1 : Fin 5) * 1 + 1 * 0 = 0; omega
  | ⟨2, _⟩ => show win0_0.index t (2 : Fin 5) * 81 + 1 * j.val = j.val; omega
  | ⟨3, _⟩ => show win0_0.index t (3 : Fin 5) * 128 + 1 * h.val = h.val; omega
  | ⟨4, _⟩ => show win0_0.index t (4 : Fin 5) * 128 + 1 * w.val = w.val; omega

/-- The segmentation block at point `t` is batch item `t` of the segmentation argument. -/
theorem blk2_apply (c : Dev nD) (t : Fin cfg0.N) (k : Fin 8) (h w : Fin 128) :
    (iblk (F := Ideal) m c 2 t : Vec Ideal S1x8x128x128 .f32) (ix4 0 k h w)
      = (m ((c : Thread nD τ).loc main_arg0) : S16x8x128x128.Idx → EReal) (ix4 (pt t) k h w) := by
  obtain ⟨-, -, ⟨e0, e1, e2, e3⟩, -, -, -⟩ := idx_facts t
  unfold iblk
  rw [View.read_apply]
  show V m c main_arg0 _ = _
  rw [V_main_arg0]
  congr 1
  funext a
  apply Fin.ext
  match a with
  | ⟨0, _⟩ => show win0_2.index t (0 : Fin 4) * 1 + 1 * 0 = t.val; omega
  | ⟨1, _⟩ => show win0_2.index t (1 : Fin 4) * 8 + 1 * k.val = k.val; omega
  | ⟨2, _⟩ => show win0_2.index t (2 : Fin 4) * 128 + 1 * h.val = h.val; omega
  | ⟨3, _⟩ => show win0_2.index t (3 : Fin 4) * 128 + 1 * w.val = w.val; omega

/-- The weight-total block at point `t` is batch item `t` of the weight-total argument. -/
theorem blk3_apply (c : Dev nD) (t : Fin cfg0.N) (h w : Fin 128) :
    (iblk (F := Ideal) m c 3 t : Vec Ideal S1x1x128x128 .f32) (ix4 0 0 h w)
      = (m ((c : Thread nD τ).loc main_arg3) : S16x1x128x128.Idx → EReal) (ix4 (pt t) 0 h w) := by
  obtain ⟨-, -, -, ⟨e0, e1, e2, e3⟩, -, -⟩ := idx_facts t
  unfold iblk
  rw [View.read_apply]
  show V m c main_arg3 _ = _
  rw [V_main_arg3]
  congr 1
  funext a
  apply Fin.ext
  match a with
  | ⟨0, _⟩ => show win0_3.index t (0 : Fin 4) * 1 + 1 * 0 = t.val; omega
  | ⟨1, _⟩ => show win0_3.index t (1 : Fin 4) * 1 + 1 * 0 = 0; omega
  | ⟨2, _⟩ => show win0_3.index t (2 : Fin 4) * 128 + 1 * h.val = h.val; omega
  | ⟨3, _⟩ => show win0_3.index t (3 : Fin 4) * 128 + 1 * w.val = w.val; omega

/-! ## One batch item's blocks against the whole arrays -/

/-- A window position read from batch item `b`'s blocks is the position read from the arrays at `b`. -/
theorem ktap_eq_tap (pad : ShPad.Idx → EReal) (wt : ShWt.Idx → EReal)
    (x0 : Vec Ideal S1x1x81x128x128 .f32) (x1 : Vec Ideal S1x8x136x136 .f32) (b : Fin 16)
    (h0 : ∀ (j : Fin 81) (h w : Fin 128),
      x0 (ix5 0 0 j h w) = wt (ix6 b 0 h w ⟨j.val / 9, by omega⟩ ⟨j.val % 9, by omega⟩))
    (h1 : ∀ (k : Fin 8) (r s : Fin 136), x1 (ix4 0 k r s) = pad (ix4 b k r s))
    (k : Fin 8) (h w : Fin 128) (j : Nat) (hj : j < 81) : ktap x0 x1 k h w j = tap pad wt b k h w j := by
  unfold ktap tap tapMN
  rw [dif_pos hj, dif_pos hj, h1, h0 ⟨j, hj⟩]

/-- The accumulator against the segmentation block, summed over the pixels, is `A[b, k]`. -/
theorem blockA_eq (pad : ShPad.Idx → EReal) (wt : ShWt.Idx → EReal) (seg : ShSeg.Idx → EReal)
    (x0 : Vec Ideal S1x1x81x128x128 .f32) (x1 : Vec Ideal S1x8x136x136 .f32) (x2 : Vec Ideal S1x8x128x128 .f32) (b : Fin 16)
    (h0 : ∀ (j : Fin 81) (h w : Fin 128),
      x0 (ix5 0 0 j h w) = wt (ix6 b 0 h w ⟨j.val / 9, by omega⟩ ⟨j.val % 9, by omega⟩))
    (h1 : ∀ (k : Fin 8) (r s : Fin 136), x1 (ix4 0 k r s) = pad (ix4 b k r s))
    (h2 : ∀ (k : Fin 8) (h w : Fin 128), x2 (ix4 0 k h w) = seg (ix4 b k h w)) (k : Fin 8) :
    (∑ h : Fin 128, ∑ w : Fin 128, chain (ktap x0 x1 k h w) 81 * x2 (ix4 0 k h w)) = assocA pad wt seg b k := by
  unfold assocA acc accN
  refine Finset.sum_congr rfl fun h _ => Finset.sum_congr rfl fun w _ => ?_
  rw [h2, chain_congr 81 (fun j hj => ktap_eq_tap pad wt x0 x1 b h0 h1 k h w j hj)]

/-- The weight-total block against the segmentation block, summed over the pixels, is `V[b, k]`. -/
theorem blockV_eq (seg : ShSeg.Idx → EReal) (sw : ShSw.Idx → EReal)
    (x2 : Vec Ideal S1x8x128x128 .f32) (x3 : Vec Ideal S1x1x128x128 .f32) (b : Fin 16)
    (h2 : ∀ (k : Fin 8) (h w : Fin 128), x2 (ix4 0 k h w) = seg (ix4 b k h w))
    (h3 : ∀ (h w : Fin 128), x3 (ix4 0 0 h w) = sw (ix4 b 0 h w)) (k : Fin 8) :
    (∑ h : Fin 128, ∑ w : Fin 128, x3 (ix4 0 0 h w) * x2 (ix4 0 k h w)) = assocV seg sw b k := by
  unfold assocV
  refine Finset.sum_congr rfl fun h _ => Finset.sum_congr rfl fun w _ => ?_
  rw [h2, h3]

end Cert.NCut.Kern

end
-- ==== Proof.KValue.lean ====
/-
  The kernel's run read as a value: the result buffer is the specification's closing operations of the two association
  arrays of the four arguments.

  After grid point `t` the two output blocks `[1, 1, 8]` hold `A[t, k]` and `V[t, k]` at class `k`; point `t` writes them
  back as block `t` of the result arrays `[16, 1, 8]`, and the sixteen blocks cover those arrays, so after the region the
  arrays hold `A` and `V` with a unit axis between the batch and the class.  The host operations that follow reshape
  both to `[16, 8]`, which drops the unit axis, and then form `8 - Σ_k A[b, k] / V[b, k]` exactly as the specification does.
-/
import proofs.«420815_j6201932775660_3_alg».proof.Proof.KValueA
import Idealize.ShloMosaic.Lib.Pipeline.Value
import Idealize.ShloMosaic.Lib.ValueIdx
import Idealize.ShloMosaic.Lib.StableHlo.Run
import Idealize.ShloMosaic.Lib.Tactic

noncomputable section

open scoped BigOperators

namespace Cert.NCut.Kern

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.NCut

variable (m : (ℓ : Loc nD τ sig) → Buf (Elt Ideal) ℓ)

/-! ## What each point leaves, and the two result arrays -/

/-- The four argument arrays on core `c`. -/
abbrev padA (c : Dev nD) : ShPad.Idx → EReal := m ((c : Thread nD τ).loc main_arg1)
abbrev wtA (c : Dev nD) : ShWt.Idx → EReal := m ((c : Thread nD τ).loc main_arg2)
abbrev segA (c : Dev nD) : ShSeg.Idx → EReal := m ((c : Thread nD τ).loc main_arg0)
abbrev swA (c : Dev nD) : ShSw.Idx → EReal := m ((c : Thread nD τ).loc main_arg3)

/-- After point `t` the first output block holds `A[t, k]` at class `k`. -/
theorem after4_apply (c : Dev nD) (t : Fin cfg0.N) (y : S1x1x8.Idx) :
    ((dats (F := Ideal) m 0 c).after 4 t : Vec Ideal S1x1x8 .f32) y
      = assocA (padA m c) (wtA m c) (segA m c) (pt t) (y 2) := by
  obtain ⟨a, b, k, rfl⟩ : ∃ (a b : Fin 1) (k : Fin 8), y = ix3 a b k := ⟨y 0, y 1, y 2, eq_ix3 y⟩
  obtain rfl : a = 0 := Subsingleton.elim _ _
  obtain rfl : b = 0 := Subsingleton.elim _ _
  refine (congrFun (after0_4 m c t) (ix3 0 0 k)).trans ?_
  unfold outsAt0
  dsimp only
  refine (Body.out4_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk (F := Ideal) m c 0 t) (iblk (F := Ideal) m c 1 t) (iblk (F := Ideal) m c 2 t) (iblk (F := Ideal) m c 3 t) k).trans ?_
  exact blockA_eq (padA m c) (wtA m c) (segA m c) (iblk (F := Ideal) m c 0 t) (iblk (F := Ideal) m c 1 t) (iblk (F := Ideal) m c 2 t) (pt t) (blk0_apply m c t) (blk1_apply m c t) (blk2_apply m c t) k

/-- After point `t` the second output block holds `V[t, k]` at class `k`. -/
theorem after5_apply (c : Dev nD) (t : Fin cfg0.N) (y : S1x1x8.Idx) :
    ((dats (F := Ideal) m 0 c).after 5 t : Vec Ideal S1x1x8 .f32) y
      = assocV (segA m c) (swA m c) (pt t) (y 2) := by
  obtain ⟨a, b, k, rfl⟩ : ∃ (a b : Fin 1) (k : Fin 8), y = ix3 a b k := ⟨y 0, y 1, y 2, eq_ix3 y⟩
  obtain rfl : a = 0 := Subsingleton.elim _ _
  obtain rfl : b = 0 := Subsingleton.elim _ _
  refine (congrFun (after0_5 m c t) (ix3 0 0 k)).trans ?_
  unfold outsAt0
  dsimp only
  refine (Body.out5_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk (F := Ideal) m c 0 t) (iblk (F := Ideal) m c 1 t) (iblk (F := Ideal) m c 2 t) (iblk (F := Ideal) m c 3 t) k).trans ?_
  exact blockV_eq (segA m c) (swA m c) (iblk (F := Ideal) m c 2 t) (iblk (F := Ideal) m c 3 t) (pt t) (blk2_apply m c t) (blk3_apply m c t) k

/-- The two result arrays `[16, 1, 8]`: `A` and `V` with a unit axis between the batch and the class. -/
abbrev resA (c : Dev nD) : S16x1x8.Idx → EReal := fun i => assocA (padA m c) (wtA m c) (segA m c) (i 0) (i 2)
abbrev resV (c : Dev nD) : S16x1x8.Idx → EReal := fun i => assocV (segA m c) (swA m c) (i 0) (i 2)

/-- What point `t` writes back to the first result array is block `t` of `resA`. -/
theorem flushed4_eq (c : Dev nD) (t : Fin cfg0.N) :
    (dats (F := Ideal) m 0 c).flushed 4 t = ((cfg0.win 4).blk t).view.read (Elt Ideal) (resA m c) := by
  obtain ⟨-, -, -, -, ⟨e0, e1, e2⟩, -⟩ := idx_facts t
  funext y
  rw [View.read_apply]
  refine (after4_apply m c t y).trans ?_
  have h0 : (y 0).val < 1 := (y 0).isLt
  show assocA (padA m c) (wtA m c) (segA m c) (pt t) (y 2) = assocA (padA m c) (wtA m c) (segA m c) _ _
  congr 1
  · apply Fin.ext
    show t.val = win0_4.index t (0 : Fin 3) * 1 + 1 * (y 0).val
    omega
  · apply Fin.ext
    show (y 2).val = win0_4.index t (2 : Fin 3) * 8 + 1 * (y 2).val
    omega

/-- What point `t` writes back to the second result array is block `t` of `resV`. -/
theorem flushed5_eq (c : Dev nD) (t : Fin cfg0.N) :
    (dats (F := Ideal) m 0 c).flushed 5 t = ((cfg0.win 5).blk t).view.read (Elt Ideal) (resV m c) := by
  obtain ⟨-, -, -, -, -, ⟨e0, e1, e2⟩⟩ := idx_facts t
  funext y
  rw [View.read_apply]
  refine (after5_apply m c t y).trans ?_
  have h0 : (y 0).val < 1 := (y 0).isLt
  show assocV (segA m c) (swA m c) (pt t) (y 2) = assocV (segA m c) (swA m c) _ _
  congr 1
  · apply Fin.ext
    show t.val = win0_5.index t (0 : Fin 3) * 1 + 1 * (y 0).val
    omega
  · apply Fin.ext
    show (y 2).val = win0_5.index t (2 : Fin 3) * 8 + 1 * (y 2).val
    omega

/-- Every entry of the first result array lies in the block of the point its batch coordinate names. -/
theorem cover4 (i : S16x1x8.Idx) :
    ∃ t : Fin cfg0.N, (cfg0.win 4).flush t = true ∧ i ∈ ((cfg0.win 4).blk t).view.set := by
  have hN : cfg0.N = 16 := N_0
  have h0 : (i 0).val < 16 := (i 0).isLt
  have h1 : (i 1).val < 1 := (i 1).isLt
  have h2 : (i 2).val < 8 := (i 2).isLt
  obtain ⟨t, ht⟩ : ∃ t : Fin cfg0.N, t.val = (i 0).val := ⟨⟨(i 0).val, by omega⟩, rfl⟩
  obtain ⟨-, -, -, -, ⟨e0, e1, e2⟩, -⟩ := idx_facts t
  refine ⟨t, flush0_4 t, ?_⟩
  show i ∈ ((View.whole main_v2_0).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 8 ≤ (i 2).val ∧ (i 2).val < win0_4.index t (2 : Fin 3) * 8 + 8; omega

/-- Every entry of the second result array lies in the block of the point its batch coordinate names. -/
theorem cover5 (i : S16x1x8.Idx) :
    ∃ t : Fin cfg0.N, (cfg0.win 5).flush t = true ∧ i ∈ ((cfg0.win 5).blk t).view.set := by
  have hN : cfg0.N = 16 := N_0
  have h0 : (i 0).val < 16 := (i 0).isLt
  have h1 : (i 1).val < 1 := (i 1).isLt
  have h2 : (i 2).val < 8 := (i 2).isLt
  obtain ⟨t, ht⟩ : ∃ t : Fin cfg0.N, t.val = (i 0).val := ⟨⟨(i 0).val, by omega⟩, rfl⟩
  obtain ⟨-, -, -, -, -, ⟨e0, e1, e2⟩⟩ := idx_facts t
  refine ⟨t, flush0_5 t, ?_⟩
  show i ∈ ((View.whole main_v2_1).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 8 ≤ (i 2).val ∧ (i 2).val < win0_5.index t (2 : Fin 3) * 8 + 8; omega

/-- The first result array after the region. -/
theorem final4 (c : Dev nD) : (dats (F := Ideal) m 0 c).arrAt 4 cfg0.N = resA m c :=
  (dats (F := Ideal) m 0 c).arrAt_eq_of_cover 4 (resA m c) (fun t _ => flushed4_eq m c t) cover4

/-- The second result array after the region. -/
theorem final5 (c : Dev nD) : (dats (F := Ideal) m 0 c).arrAt 5 cfg0.N = resV m c :=
  (dats (F := Ideal) m 0 c).arrAt_eq_of_cover 5 (resV m c) (fun t _ => flushed5_eq m c t) cover5

/-! ## The host operations after the region -/

/-- The eight closing host operations as printed, as one function of the two result arrays `[16, 1, 8]`: each array
    reshaped to `[16, 8]`, their quotient, its sum over the classes from zero, and that sum taken from eight. -/
def tailOf (X Y : S16x1x8.Idx → EReal) : S16.Idx → EReal :=
  subf (F := Ideal) (φ := .f32) (broadcastInDim S16 ![] bcast_S_S16 (constant (F := Ideal) S_ .f32 0x41000000#32))
    (Host.reduceAdd (F := Ideal) (φ := .f32)
      (Host.divf (F := Ideal) (φ := .f32) (shapeCast S16x8 X shapeCasts_S16x1x8_S16x8) (shapeCast S16x8 Y shapeCasts_S16x1x8_S16x8))
      (constant (F := Ideal) S_ .f32 0x00000000#32) reducesTo_S16x8_S16_d1 h_S_)

/-- The first result array reshaped to `[16, 8]` is `A`. -/
theorem reshape_resA (c : Dev nD) :
    shapeCast S16x8 (resA m c) shapeCasts_S16x1x8_S16x8 = arrA (padA m c) (wtA m c) (segA m c) := by
  funext j
  obtain ⟨b, k, rfl⟩ : ∃ (b : Fin 16) (k : Fin 8), j = ix2 b k := ⟨j 0, j 1, eq_ix2 j⟩
  refine (shapeCast_apply _ _ (ix2 b k) (ix3 b 0 k) ?_).trans rfl
  rw [Shape.rowMajor_val_three, Shape.rowMajor_val_two]
  show (b.val * 1 + 0) * 8 + k.val = b.val * 8 + k.val
  omega

/-- The second result array reshaped to `[16, 8]` is `V`. -/
theorem reshape_resV (c : Dev nD) :
    shapeCast S16x8 (resV m c) shapeCasts_S16x1x8_S16x8 = arrV (segA m c) (swA m c) := by
  funext j
  obtain ⟨b, k, rfl⟩ : ∃ (b : Fin 16) (k : Fin 8), j = ix2 b k := ⟨j 0, j 1, eq_ix2 j⟩
  refine (shapeCast_apply _ _ (ix2 b k) (ix3 b 0 k) ?_).trans rfl
  rw [Shape.rowMajor_val_three, Shape.rowMajor_val_two]
  show (b.val * 1 + 0) * 8 + k.val = b.val * 8 + k.val
  omega

/-- The closing operations of the two result arrays are the specification's closing operations of `A` and `V`. -/
theorem tailOf_res (c : Dev nD) :
    tailOf (resA m c) (resV m c) = finish (arrA (padA m c) (wtA m c) (segA m c)) (arrV (segA m c) (swA m c)) := by
  unfold tailOf finish
  rw [reshape_resA, reshape_resV]

/-- The result buffer after the host operations that follow the region. -/
theorem tail_eq (c : Dev nD) :
    Pipeline.afterTail₀ cfgs (dats (F := Ideal) m) 0 (V0 m) [hostOps1] c main_v8
      = finish (arrA (padA m c) (wtA m c) (segA m c)) (arrV (segA m c) (swA m c)) := by
  unfold Pipeline.afterTail₀
  show StableHlo.after hostOps1 _ (Proc.devRef .tc main_v8) = _
  after_results
  refine Eq.trans (?_ : _ = tailOf (resA m c) (resV m c)) (tailOf_res m c)
  exact congrArg₂ tailOf
    ((Pipeline.withArrays_arr spec0 launch0.win.arr_inj c (V0 m c) (fun w => (dats (F := Ideal) m 0 c).arrAt w cfg0.N) 4).trans (final4 m c))
    ((Pipeline.withArrays_arr spec0 launch0.win.arr_inj c (V0 m c) (fun w => (dats (F := Ideal) m 0 c).arrAt w cfg0.N) 5).trans (final5 m c))

/-! ## The run -/

/-- At the compiled mesh, from any memory with zero counters: every weakly fair execution of @main terminates with the
    result buffer at the specification's closing operations of `A` and `V` of the four argument arrays, and the
    arguments as launched. -/
theorem run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v8)
        = finish (arrA (m ((c.tc : Thread _ _).loc Cert.KernelIdeal.main_arg1)) (m ((c.tc : Thread _ _).loc Cert.KernelIdeal.main_arg2)) (m ((c.tc : Thread _ _).loc Cert.KernelIdeal.main_arg0))) (arrV (m ((c.tc : Thread _ _).loc Cert.KernelIdeal.main_arg0)) (m ((c.tc : Thread _ _).loc Cert.KernelIdeal.main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v8 (Pipeline.mem_restRefs_of main_v8 (by decide) (by decide))).trans (tail_eq m c),
      ((h c).1 2).trans (((dats m 0 c).arrAt_in 2 rfl _).trans ((A_eq m c 2).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩)
    (run_main m ρ)

end Cert.NCut.Kern

end
-- ==== Proof.RefTap.lean ====
/-
  The reference program's operations read at one index of the arrays.

  One window position: a slice of the padded array at offsets (0, 0, m, n) times the broadcast of the
  weight array's slice at (0, 0, 0, 0, m, n), added onto a running total, is at the index (b, k, h, w)
  the running total there plus `pad[b, k, h + m, w + n] * wt[b, 0, h, w, m, n]`.  The reduction over the two
  pixel axes is the double sum over rows and columns.  The broadcast zero reads zero, and the broadcast of the
  per-pixel weight total reads that total at the pixel.
-/
import Idealize.ShloMosaic.PureOps.Ideal
import Idealize.ShloMosaic.PureOps.Ideal.Laws
import Idealize.ShloMosaic.Lib.ValueIdx
import Idealize.ShloMosaic.Lib.ValueIdxRank6
import Idealize.ShloMosaic.Lib.Pipeline.Value
import Idealize.ShloMosaic.Lib.IdealHost
import proofs.«420815_j6201932775660_3_alg».proof.Proof.Spec

noncomputable section

open scoped BigOperators

namespace Cert.NCut.Ref

open Idealize.ShloMosaic Idealize.ShloMosaic.ValueIdx Cert.NCut

/-- One window position's block of the weight array, `[16, 1, 128, 128, 1, 1]`. -/
abbrev ShWt1 : Shape := ⟨6, ![16, 1, 128, 128, 1, 1]⟩
/-- The array of the two association sums, `[16, 8]`. -/
abbrev ShBK : Shape := ⟨2, ![16, 8]⟩
/-- The scalar shape. -/
abbrev Sh0 : Shape := ⟨0, ![]⟩

/-! ## One window position at an index -/

/-- The padded array's slice at offsets `(0, 0, m, n)` reads the padded array at `(b, k, h + m, w + n)`. -/
theorem padSlice_apply (pad : ShPad.Idx → EReal) (m n : Fin 9) (hs : ShPad.Slices ![0, 0, m.val, n.val] ShSeg)
    (b : Fin 16) (k : Fin 8) (h w : Fin 128) :
    extractStridedSlice ShSeg ![0, 0, m.val, n.val] pad hs (ix4 b k h w)
      = pad (ix4 b k ⟨h.val + m.val, by omega⟩ ⟨w.val + n.val, by omega⟩) :=
  extractStridedSlice_apply _ pad hs _ _ fun a =>
    match a with
    | ⟨0, _⟩ => by show b.val = 0 + b.val; omega
    | ⟨1, _⟩ => by show k.val = 0 + k.val; omega
    | ⟨2, _⟩ => by show h.val + m.val = m.val + h.val; omega
    | ⟨3, _⟩ => by show w.val + n.val = n.val + w.val; omega

/-- The weight array's slice at offsets `(0, 0, 0, 0, m, n)`, reshaped to `[16, 1, 128, 128]` and broadcast along the
    classes, reads the weight array at `(b, 0, h, w, m, n)`. -/
theorem wtSlice_apply (wt : ShWt.Idx → EReal) (m n : Fin 9) (hs' : ShWt.Slices ![0, 0, 0, 0, m.val, n.val] ShWt1)
    (hc : ShWt1.ShapeCasts ShSw) (hb : ShSw.BroadcastsInDim ShSeg ![0, 1, 2, 3])
    (b : Fin 16) (k : Fin 8) (h w : Fin 128) :
    broadcastInDim ShSeg ![0, 1, 2, 3] hb (shapeCast ShSw (extractStridedSlice ShWt1 ![0, 0, 0, 0, m.val, n.val] wt hs') hc)
      (ix4 b k h w) = wt (ix6 b 0 h w m n) := by
  refine (broadcastInDim_apply _ hb _ (ix4 b k h w) (ix4 b 0 h w) fun a => ?_).trans ?_
  · match a with
    | ⟨0, _⟩ => rfl
    | ⟨1, _⟩ => rfl
    | ⟨2, _⟩ => rfl
    | ⟨3, _⟩ => rfl
  refine (shapeCast_apply _ hc (ix4 b 0 h w) (ix6 b 0 h w 0 0) ?_).trans ?_
  · rw [Shape.rowMajor_val_six, Shape.rowMajor_val_four]
    show ((((b.val * 1 + 0) * 128 + h.val) * 128 + w.val) * 1 + 0) * 1 + 0 = ((b.val * 1 + 0) * 128 + h.val) * 128 + w.val
    omega
  exact extractStridedSlice_apply _ wt hs' _ _ fun a =>
    match a with
    | ⟨0, _⟩ => by show b.val = 0 + b.val; omega
    | ⟨1, _⟩ => by show 0 = 0 + 0; rfl
    | ⟨2, _⟩ => by show h.val = 0 + h.val; omega
    | ⟨3, _⟩ => by show w.val = 0 + w.val; omega
    | ⟨4, _⟩ => by show m.val = m.val + 0; omega
    | ⟨5, _⟩ => by show n.val = n.val + 0; omega

/-- ONE WINDOW POSITION added onto a running total `A`, read at `(b, k, h, w)`: the total there plus the flat position
    `j = 9 m + n` of the specification. -/
theorem tap_apply (A : ShSeg.Idx → EReal) (pad : ShPad.Idx → EReal) (wt : ShWt.Idx → EReal) (m n j : Nat)
    (hm : m < 9) (hn : n < 9) (hj : j = 9 * m + n)
    (hs : ShPad.Slices ![0, 0, m, n] ShSeg) (hs' : ShWt.Slices ![0, 0, 0, 0, m, n] ShWt1)
    (hc : ShWt1.ShapeCasts ShSw) (hb : ShSw.BroadcastsInDim ShSeg ![0, 1, 2, 3])
    (b : Fin 16) (k : Fin 8) (h w : Fin 128) :
    addf (F := Ideal) (φ := .f32) A (mulf (F := Ideal) (φ := .f32) (extractStridedSlice ShSeg ![0, 0, m, n] pad hs)
        (broadcastInDim ShSeg ![0, 1, 2, 3] hb (shapeCast ShSw (extractStridedSlice ShWt1 ![0, 0, 0, 0, m, n] wt hs') hc)))
      (ix4 b k h w) = A (ix4 b k h w) + tap pad wt b k h w j := by
  rw [addf_apply, mulf_apply, tap_of_mn pad wt b k h w j ⟨m, hm⟩ ⟨n, hn⟩ hj,
    padSlice_apply pad ⟨m, hm⟩ ⟨n, hn⟩ hs, wtSlice_apply wt ⟨m, hm⟩ ⟨n, hn⟩ hs' hc hb]
  rfl

/-! ## The reduction over the two pixel axes -/

/-- Dropping the two pixel axes of `(b, k, h, w)` leaves `(b, k)`. -/
theorem drop_ix4 (h' : ShSeg.ReducesTo [2, 3] ShBK) (b : Fin 16) (k : Fin 8) (h w : Fin 128) :
    h'.drop (ix4 b k h w) = ix2 b k := by
  funext a
  refine Fin.ext ?_
  match a with
  | ⟨0, _⟩ => exact Shape.ReducesTo.drop_apply_val_of_eq h' (ix4 b k h w) ⟨0, by decide⟩ 0 (by decide) (by decide)
  | ⟨1, _⟩ => exact Shape.ReducesTo.drop_apply_val_of_eq h' (ix4 b k h w) ⟨1, by decide⟩ 1 (by decide) (by decide)

/-- An index whose two leading coordinates are `(b, k)` is `(b, k, h, w)` of its two trailing ones. -/
theorem eq_ix4_of_drop (h' : ShSeg.ReducesTo [2, 3] ShBK) (b : Fin 16) (k : Fin 8) (i : ShSeg.Idx)
    (hi : h'.drop i = ix2 b k) : ix4 b k (i 2 : Fin 128) (i 3 : Fin 128) = i := by
  have h0 : (i 0).val = b.val :=
    (Shape.ReducesTo.drop_apply_val_of_eq h' i ⟨0, by decide⟩ 0 (by decide) (by decide)).symm.trans
      (congrArg Fin.val (congrFun hi ⟨0, by decide⟩))
  have h1 : (i 1).val = k.val :=
    (Shape.ReducesTo.drop_apply_val_of_eq h' i ⟨1, by decide⟩ 1 (by decide) (by decide)).symm.trans
      (congrArg Fin.val (congrFun hi ⟨1, by decide⟩))
  funext a
  refine Fin.ext ?_
  match a with
  | ⟨0, _⟩ => exact h0.symm
  | ⟨1, _⟩ => exact h1.symm
  | ⟨2, _⟩ => rfl
  | ⟨3, _⟩ => rfl

/-- THE REDUCTION OVER THE TWO PIXEL AXES from the zero initial value, read at `(b, k)`: the sum over the rows of the
    sum over the columns. -/
theorem reducePixels_apply (x : ShSeg.Idx → EReal) (h' : ShSeg.ReducesTo [2, 3] ShBK) (hu : 0 < Sh0.numel)
    (b : Fin 16) (k : Fin 8) :
    Host.reduceAdd (F := Ideal) (φ := .f32) x (constant (F := Ideal) Sh0 .f32 0x00000000#32) h' hu (ix2 b k)
      = ∑ h : Fin 128, ∑ w : Fin 128, x (ix4 b k h w) := by
  rw [hostReduceAdd_apply, constant_apply, Ideal.ofBits_zero_f32]
  unfold Ideal.hostReduceAdd
  rw [zero_add]
  refine Eq.trans ?_ (Fintype.sum_prod_type' fun (h w : Fin 128) => x (ix4 b k h w))
  refine Finset.sum_bij' (fun i _ => ((i 2 : Fin 128), (i 3 : Fin 128))) (fun p _ => ix4 b k p.1 p.2)
    (fun _ _ => Finset.mem_univ _) (fun p _ => ?_) (fun i hi => ?_) (fun _ _ => rfl) (fun i hi => ?_)
  · exact Finset.mem_filter.2 ⟨Finset.mem_univ _, drop_ix4 h' b k p.1 p.2⟩
  · exact eq_ix4_of_drop h' b k i (Finset.mem_filter.1 hi).2
  · exact congrArg x (eq_ix4_of_drop h' b k i (Finset.mem_filter.1 hi).2).symm

/-! ## The two broadcasts -/

/-- The broadcast of the zero scalar reads zero. -/
theorem zero_apply (hb0 : Sh0.BroadcastsInDim ShSeg ![]) (i : ShSeg.Idx) :
    broadcastInDim ShSeg ![] hb0 (constant (F := Ideal) Sh0 .f32 0x00000000#32) i = 0 := by
  rw [broadcastInDim_scalar_apply, constant_apply, Ideal.ofBits_zero_f32]

/-- The broadcast of the per-pixel weight total along the classes reads the total at the pixel. -/
theorem swBroadcast_apply (sw : ShSw.Idx → EReal) (hb : ShSw.BroadcastsInDim ShSeg ![0, 1, 2, 3])
    (b : Fin 16) (k : Fin 8) (h w : Fin 128) :
    broadcastInDim ShSeg ![0, 1, 2, 3] hb sw (ix4 b k h w) = sw (ix4 b 0 h w) :=
  broadcastInDim_apply _ hb sw (ix4 b k h w) (ix4 b 0 h w) fun a =>
    match a with
    | ⟨0, _⟩ => rfl
    | ⟨1, _⟩ => rfl
    | ⟨2, _⟩ => rfl
    | ⟨3, _⟩ => rfl

/-! ## Ten more terms of a running total -/

/-- One more window position onto a running total that is the specification's after `j` positions is the
    specification's after `j + 1`. -/
theorem tap_step (A : ShSeg.Idx → EReal) (pad : ShPad.Idx → EReal) (wt : ShWt.Idx → EReal) (m n j : Nat)
    (hm : m < 9) (hn : n < 9) (hj : j = 9 * m + n)
    (hs : ShPad.Slices ![0, 0, m, n] ShSeg) (hs' : ShWt.Slices ![0, 0, 0, 0, m, n] ShWt1)
    (hc : ShWt1.ShapeCasts ShSw) (hb : ShSw.BroadcastsInDim ShSeg ![0, 1, 2, 3])
    (b : Fin 16) (k : Fin 8) (h w : Fin 128) (hA : A (ix4 b k h w) = chain (tap pad wt b k h w) j) :
    addf (F := Ideal) (φ := .f32) A (mulf (F := Ideal) (φ := .f32) (extractStridedSlice ShSeg ![0, 0, m, n] pad hs)
        (broadcastInDim ShSeg ![0, 1, 2, 3] hb (shapeCast ShSw (extractStridedSlice ShWt1 ![0, 0, 0, 0, m, n] wt hs') hc)))
      (ix4 b k h w) = chain (tap pad wt b k h w) (j + 1) := by
  rw [tap_apply A pad wt m n j hm hn hj hs hs' hc hb, hA, chain_succ]

/-! ## The two association arrays and the closing operations -/

/-- The array of the results, `[16]`. -/
abbrev Sh16 : Shape := ⟨1, ![16]⟩

/-- A running total that is the specification's after eighty window positions, with the last position added, times
    the segmentation and reduced over the pixels, is the specification's `A`. -/
theorem arrA_eq (R : ShSeg.Idx → EReal) (pad : ShPad.Idx → EReal) (wt : ShWt.Idx → EReal) (seg : ShSeg.Idx → EReal)
    (hs : ShPad.Slices ![0, 0, 8, 8] ShSeg) (hs' : ShWt.Slices ![0, 0, 0, 0, 8, 8] ShWt1)
    (hc : ShWt1.ShapeCasts ShSw) (hb : ShSw.BroadcastsInDim ShSeg ![0, 1, 2, 3])
    (h' : ShSeg.ReducesTo [2, 3] ShBK) (hu : 0 < Sh0.numel)
    (hR : ∀ (b : Fin 16) (k : Fin 8) (h w : Fin 128), R (ix4 b k h w) = chain (tap pad wt b k h w) 80) :
    Host.reduceAdd (F := Ideal) (φ := .f32)
        (mulf (F := Ideal) (φ := .f32)
          (addf (F := Ideal) (φ := .f32) R
            (mulf (F := Ideal) (φ := .f32) (extractStridedSlice ShSeg ![0, 0, 8, 8] pad hs)
              (broadcastInDim ShSeg ![0, 1, 2, 3] hb
                (shapeCast ShSw (extractStridedSlice ShWt1 ![0, 0, 0, 0, 8, 8] wt hs') hc))))
          seg)
        (constant (F := Ideal) Sh0 .f32 0x00000000#32) h' hu
      = arrA pad wt seg := by
  funext j
  obtain ⟨b, k, rfl⟩ : ∃ (b : Fin 16) (k : Fin 8), j = ix2 b k := ⟨j 0, j 1, eq_ix2 j⟩
  rw [reducePixels_apply]
  show _ = ∑ h : Fin 128, ∑ w : Fin 128, acc pad wt b k h w * seg (ix4 b k h w)
  refine Finset.sum_congr rfl fun h _ => Finset.sum_congr rfl fun w _ => ?_
  rw [mulf_apply]
  refine congrArg (· * seg (ix4 b k h w)) ?_
  exact tap_step R pad wt 8 8 80 (by decide) (by decide) rfl hs hs' hc hb b k h w (hR b k h w)

/-- The broadcast weight total times the segmentation, reduced over the pixels, is the specification's `V`. -/
theorem arrV_eq (seg : ShSeg.Idx → EReal) (sw : ShSw.Idx → EReal) (hb : ShSw.BroadcastsInDim ShSeg ![0, 1, 2, 3])
    (h' : ShSeg.ReducesTo [2, 3] ShBK) (hu : 0 < Sh0.numel) :
    Host.reduceAdd (F := Ideal) (φ := .f32)
        (mulf (F := Ideal) (φ := .f32) (broadcastInDim ShSeg ![0, 1, 2, 3] hb sw) seg)
        (constant (F := Ideal) Sh0 .f32 0x00000000#32) h' hu
      = arrV seg sw := by
  funext j
  obtain ⟨b, k, rfl⟩ : ∃ (b : Fin 16) (k : Fin 8), j = ix2 b k := ⟨j 0, j 1, eq_ix2 j⟩
  rw [reducePixels_apply]
  show _ = ∑ h : Fin 128, ∑ w : Fin 128, sw (ix4 b 0 h w) * seg (ix4 b k h w)
  refine Finset.sum_congr rfl fun h _ => Finset.sum_congr rfl fun w _ => ?_
  rw [mulf_apply, swBroadcast_apply]

/-- THE REFERENCE'S RESULT TERM over any arrays: with a running total that is the specification's after eighty window
    positions, it is the specification's result. -/
theorem result_eq (R : ShSeg.Idx → EReal) (pad : ShPad.Idx → EReal) (wt : ShWt.Idx → EReal) (seg : ShSeg.Idx → EReal)
    (sw : ShSw.Idx → EReal)
    (hs : ShPad.Slices ![0, 0, 8, 8] ShSeg) (hs' : ShWt.Slices ![0, 0, 0, 0, 8, 8] ShWt1)
    (hc : ShWt1.ShapeCasts ShSw) (hb : ShSw.BroadcastsInDim ShSeg ![0, 1, 2, 3])
    (h' : ShSeg.ReducesTo [2, 3] ShBK) (hu : 0 < Sh0.numel)
    (hb8 : Sh0.BroadcastsInDim Sh16 ![]) (h1 : ShBK.ReducesTo [1] Sh16)
    (hR : ∀ (b : Fin 16) (k : Fin 8) (h w : Fin 128), R (ix4 b k h w) = chain (tap pad wt b k h w) 80) :
    subf (F := Ideal) (φ := .f32) (broadcastInDim Sh16 ![] hb8 (constant (F := Ideal) Sh0 .f32 0x41000000#32))
        (Host.reduceAdd (F := Ideal) (φ := .f32)
          (Host.divf (F := Ideal) (φ := .f32)
            (Host.reduceAdd (F := Ideal) (φ := .f32)
              (mulf (F := Ideal) (φ := .f32)
                (addf (F := Ideal) (φ := .f32) R
                  (mulf (F := Ideal) (φ := .f32) (extractStridedSlice ShSeg ![0, 0, 8, 8] pad hs)
                    (broadcastInDim ShSeg ![0, 1, 2, 3] hb
                      (shapeCast ShSw (extractStridedSlice ShWt1 ![0, 0, 0, 0, 8, 8] wt hs') hc))))
                seg)
              (constant (F := Ideal) Sh0 .f32 0x00000000#32) h' hu)
            (Host.reduceAdd (F := Ideal) (φ := .f32)
              (mulf (F := Ideal) (φ := .f32) (broadcastInDim ShSeg ![0, 1, 2, 3] hb sw) seg)
              (constant (F := Ideal) Sh0 .f32 0x00000000#32) h' hu))
          (constant (F := Ideal) Sh0 .f32 0x00000000#32) h1 hu)
      = finish (arrA pad wt seg) (arrV seg sw) := by
  rw [arrA_eq R pad wt seg hs hs' hc hb h' hu hR, arrV_eq seg sw hb h' hu]
  rfl

end Cert.NCut.Ref

end
-- ==== Proof.RefValue.lean ====
/-
  The reference program's result is the specification's.

  Its running total after 10, 20, …, 80 window positions is, at every index, the specification's running total;
  with the last position the accumulator is the specification's, the two reductions over the pixel axes are the two
  association arrays, and the three closing operations are the specification's own.
-/
import proofs.«420815_j6201932775660_3_alg».proof.Proof.Gen.ReferenceIdeal.Run
import proofs.«420815_j6201932775660_3_alg».proof.Proof.RefTap
import proofs.«420815_j6201932775660_3_alg».proof.Proof.Spec

noncomputable section

open scoped BigOperators

namespace Cert.NCut.Ref

open Idealize.ShloMosaic Idealize.ShloMosaic.ValueIdx Idealize.ShloMosaic.TcCoe Idealize.SL.Sem Idealize.ShloMosaic.StableHlo
open Cert.NCut Cert.ReferenceIdeal Cert.ReferenceIdeal.Gen

/-! ## The running total after every ten window positions -/

/-- After the first ten window positions. -/
theorem res60_apply (V0 : Valuation τ sig (Elt Ideal)) (b : Fin 16) (k : Fin 8) (h w : Fin 128) :
    Cert.ReferenceIdeal.Value.res_main_v60 (F := Ideal) V0 (ix4 b k h w)
      = chain (tap (V0 (Proc.devRef .tc main_arg1)) (V0 (Proc.devRef .tc main_arg2)) b k h w) 10 := by
  unfold Cert.ReferenceIdeal.Value.res_main_v60
  refine tap_step _ _ _ 1 0 9 (by decide) (by decide) rfl _ _ _ _ b k h w ?_
  refine tap_step _ _ _ 0 8 8 (by decide) (by decide) rfl _ _ _ _ b k h w ?_
  refine tap_step _ _ _ 0 7 7 (by decide) (by decide) rfl _ _ _ _ b k h w ?_
  refine tap_step _ _ _ 0 6 6 (by decide) (by decide) rfl _ _ _ _ b k h w ?_
  refine tap_step _ _ _ 0 5 5 (by decide) (by decide) rfl _ _ _ _ b k h w ?_
  refine tap_step _ _ _ 0 4 4 (by decide) (by decide) rfl _ _ _ _ b k h w ?_
  refine tap_step _ _ _ 0 3 3 (by decide) (by decide) rfl _ _ _ _ b k h w ?_
  refine tap_step _ _ _ 0 2 2 (by decide) (by decide) rfl _ _ _ _ b k h w ?_
  refine tap_step _ _ _ 0 1 1 (by decide) (by decide) rfl _ _ _ _ b k h w ?_
  refine tap_step _ _ _ 0 0 0 (by decide) (by decide) rfl _ _ _ _ b k h w ?_
  exact zero_apply _ _

/-- After the first twenty window positions. -/
theorem res120_apply (V0 : Valuation τ sig (Elt Ideal)) (b : Fin 16) (k : Fin 8) (h w : Fin 128) :
    Cert.ReferenceIdeal.Value.res_main_v120 (F := Ideal) V0 (ix4 b k h w)
      = chain (tap (V0 (Proc.devRef .tc main_arg1)) (V0 (Proc.devRef .tc main_arg2)) b k h w) 20 := by
  unfold Cert.ReferenceIdeal.Value.res_main_v120
  refine tap_step _ _ _ 2 1 19 (by decide) (by decide) rfl _ _ _ _ b k h w ?_
  refine tap_step _ _ _ 2 0 18 (by decide) (by decide) rfl _ _ _ _ b k h w ?_
  refine tap_step _ _ _ 1 8 17 (by decide) (by decide) rfl _ _ _ _ b k h w ?_
  refine tap_step _ _ _ 1 7 16 (by decide) (by decide) rfl _ _ _ _ b k h w ?_
  refine tap_step _ _ _ 1 6 15 (by decide) (by decide) rfl _ _ _ _ b k h w ?_
  refine tap_step _ _ _ 1 5 14 (by decide) (by decide) rfl _ _ _ _ b k h w ?_
  refine tap_step _ _ _ 1 4 13 (by decide) (by decide) rfl _ _ _ _ b k h w ?_
  refine tap_step _ _ _ 1 3 12 (by decide) (by decide) rfl _ _ _ _ b k h w ?_
  refine tap_step _ _ _ 1 2 11 (by decide) (by decide) rfl _ _ _ _ b k h w ?_
  refine tap_step _ _ _ 1 1 10 (by decide) (by decide) rfl _ _ _ _ b k h w ?_
  exact res60_apply V0 b k h w

/-- After the first thirty window positions. -/
theorem res180_apply (V0 : Valuation τ sig (Elt Ideal)) (b : Fin 16) (k : Fin 8) (h w : Fin 128) :
    Cert.ReferenceIdeal.Value.res_main_v180 (F := Ideal) V0 (ix4 b k h w)
      = chain (tap (V0 (Proc.devRef .tc main_arg1)) (V0 (Proc.devRef .tc main_arg2)) b k h w) 30 := by
  unfold Cert.ReferenceIdeal.Value.res_main_v180
  refine tap_step _ _ _ 3 2 29 (by decide) (by decide) rfl _ _ _ _ b k h w ?_
  refine tap_step _ _ _ 3 1 28 (by decide) (by decide) rfl _ _ _ _ b k h w ?_
  refine tap_step _ _ _ 3 0 27 (by decide) (by decide) rfl _ _ _ _ b k h w ?_
  refine tap_step _ _ _ 2 8 26 (by decide) (by decide) rfl _ _ _ _ b k h w ?_
  refine tap_step _ _ _ 2 7 25 (by decide) (by decide) rfl _ _ _ _ b k h w ?_
  refine tap_step _ _ _ 2 6 24 (by decide) (by decide) rfl _ _ _ _ b k h w ?_
  refine tap_step _ _ _ 2 5 23 (by decide) (by decide) rfl _ _ _ _ b k h w ?_
  refine tap_step _ _ _ 2 4 22 (by decide) (by decide) rfl _ _ _ _ b k h w ?_
  refine tap_step _ _ _ 2 3 21 (by decide) (by decide) rfl _ _ _ _ b k h w ?_
  refine tap_step _ _ _ 2 2 20 (by decide) (by decide) rfl _ _ _ _ b k h w ?_
  exact res120_apply V0 b k h w

/-- After the first forty window positions. -/
theorem res240_apply (V0 : Valuation τ sig (Elt Ideal)) (b : Fin 16) (k : Fin 8) (h w : Fin 128) :
    Cert.ReferenceIdeal.Value.res_main_v240 (F := Ideal) V0 (ix4 b k h w)
      = chain (tap (V0 (Proc.devRef .tc main_arg1)) (V0 (Proc.devRef .tc main_arg2)) b k h w) 40 := by
  unfold Cert.ReferenceIdeal.Value.res_main_v240
  refine tap_step _ _ _ 4 3 39 (by decide) (by decide) rfl _ _ _ _ b k h w ?_
  refine tap_step _ _ _ 4 2 38 (by decide) (by decide) rfl _ _ _ _ b k h w ?_
  refine tap_step _ _ _ 4 1 37 (by decide) (by decide) rfl _ _ _ _ b k h w ?_
  refine tap_step _ _ _ 4 0 36 (by decide) (by decide) rfl _ _ _ _ b k h w ?_
  refine tap_step _ _ _ 3 8 35 (by decide) (by decide) rfl _ _ _ _ b k h w ?_
  refine tap_step _ _ _ 3 7 34 (by decide) (by decide) rfl _ _ _ _ b k h w ?_
  refine tap_step _ _ _ 3 6 33 (by decide) (by decide) rfl _ _ _ _ b k h w ?_
  refine tap_step _ _ _ 3 5 32 (by decide) (by decide) rfl _ _ _ _ b k h w ?_
  refine tap_step _ _ _ 3 4 31 (by decide) (by decide) rfl _ _ _ _ b k h w ?_
  refine tap_step _ _ _ 3 3 30 (by decide) (by decide) rfl _ _ _ _ b k h w ?_
  exact res180_apply V0 b k h w

/-- After the first fifty window positions. -/
theorem res300_apply (V0 : Valuation τ sig (Elt Ideal)) (b : Fin 16) (k : Fin 8) (h w : Fin 128) :
    Cert.ReferenceIdeal.Value.res_main_v300 (F := Ideal) V0 (ix4 b k h w)
      = chain (tap (V0 (Proc.devRef .tc main_arg1)) (V0 (Proc.devRef .tc main_arg2)) b k h w) 50 := by
  unfold Cert.ReferenceIdeal.Value.res_main_v300
  refine tap_step _ _ _ 5 4 49 (by decide) (by decide) rfl _ _ _ _ b k h w ?_
  refine tap_step _ _ _ 5 3 48 (by decide) (by decide) rfl _ _ _ _ b k h w ?_
  refine tap_step _ _ _ 5 2 47 (by decide) (by decide) rfl _ _ _ _ b k h w ?_
  refine tap_step _ _ _ 5 1 46 (by decide) (by decide) rfl _ _ _ _ b k h w ?_
  refine tap_step _ _ _ 5 0 45 (by decide) (by decide) rfl _ _ _ _ b k h w ?_
  refine tap_step _ _ _ 4 8 44 (by decide) (by decide) rfl _ _ _ _ b k h w ?_
  refine tap_step _ _ _ 4 7 43 (by decide) (by decide) rfl _ _ _ _ b k h w ?_
  refine tap_step _ _ _ 4 6 42 (by decide) (by decide) rfl _ _ _ _ b k h w ?_
  refine tap_step _ _ _ 4 5 41 (by decide) (by decide) rfl _ _ _ _ b k h w ?_
  refine tap_step _ _ _ 4 4 40 (by decide) (by decide) rfl _ _ _ _ b k h w ?_
  exact res240_apply V0 b k h w

/-- After the first sixty window positions. -/
theorem res360_apply (V0 : Valuation τ sig (Elt Ideal)) (b : Fin 16) (k : Fin 8) (h w : Fin 128) :
    Cert.ReferenceIdeal.Value.res_main_v360 (F := Ideal) V0 (ix4 b k h w)
      = chain (tap (V0 (Proc.devRef .tc main_arg1)) (V0 (Proc.devRef .tc main_arg2)) b k h w) 60 := by
  unfold Cert.ReferenceIdeal.Value.res_main_v360
  refine tap_step _ _ _ 6 5 59 (by decide) (by decide) rfl _ _ _ _ b k h w ?_
  refine tap_step _ _ _ 6 4 58 (by decide) (by decide) rfl _ _ _ _ b k h w ?_
  refine tap_step _ _ _ 6 3 57 (by decide) (by decide) rfl _ _ _ _ b k h w ?_
  refine tap_step _ _ _ 6 2 56 (by decide) (by decide) rfl _ _ _ _ b k h w ?_
  refine tap_step _ _ _ 6 1 55 (by decide) (by decide) rfl _ _ _ _ b k h w ?_
  refine tap_step _ _ _ 6 0 54 (by decide) (by decide) rfl _ _ _ _ b k h w ?_
  refine tap_step _ _ _ 5 8 53 (by decide) (by decide) rfl _ _ _ _ b k h w ?_
  refine tap_step _ _ _ 5 7 52 (by decide) (by decide) rfl _ _ _ _ b k h w ?_
  refine tap_step _ _ _ 5 6 51 (by decide) (by decide) rfl _ _ _ _ b k h w ?_
  refine tap_step _ _ _ 5 5 50 (by decide) (by decide) rfl _ _ _ _ b k h w ?_
  exact res300_apply V0 b k h w

/-- After the first seventy window positions. -/
theorem res420_apply (V0 : Valuation τ sig (Elt Ideal)) (b : Fin 16) (k : Fin 8) (h w : Fin 128) :
    Cert.ReferenceIdeal.Value.res_main_v420 (F := Ideal) V0 (ix4 b k h w)
      = chain (tap (V0 (Proc.devRef .tc main_arg1)) (V0 (Proc.devRef .tc main_arg2)) b k h w) 70 := by
  unfold Cert.ReferenceIdeal.Value.res_main_v420
  refine tap_step _ _ _ 7 6 69 (by decide) (by decide) rfl _ _ _ _ b k h w ?_
  refine tap_step _ _ _ 7 5 68 (by decide) (by decide) rfl _ _ _ _ b k h w ?_
  refine tap_step _ _ _ 7 4 67 (by decide) (by decide) rfl _ _ _ _ b k h w ?_
  refine tap_step _ _ _ 7 3 66 (by decide) (by decide) rfl _ _ _ _ b k h w ?_
  refine tap_step _ _ _ 7 2 65 (by decide) (by decide) rfl _ _ _ _ b k h w ?_
  refine tap_step _ _ _ 7 1 64 (by decide) (by decide) rfl _ _ _ _ b k h w ?_
  refine tap_step _ _ _ 7 0 63 (by decide) (by decide) rfl _ _ _ _ b k h w ?_
  refine tap_step _ _ _ 6 8 62 (by decide) (by decide) rfl _ _ _ _ b k h w ?_
  refine tap_step _ _ _ 6 7 61 (by decide) (by decide) rfl _ _ _ _ b k h w ?_
  refine tap_step _ _ _ 6 6 60 (by decide) (by decide) rfl _ _ _ _ b k h w ?_
  exact res360_apply V0 b k h w

/-- After the first eighty window positions. -/
theorem res480_apply (V0 : Valuation τ sig (Elt Ideal)) (b : Fin 16) (k : Fin 8) (h w : Fin 128) :
    Cert.ReferenceIdeal.Value.res_main_v480 (F := Ideal) V0 (ix4 b k h w)
      = chain (tap (V0 (Proc.devRef .tc main_arg1)) (V0 (Proc.devRef .tc main_arg2)) b k h w) 80 := by
  unfold Cert.ReferenceIdeal.Value.res_main_v480
  refine tap_step _ _ _ 8 7 79 (by decide) (by decide) rfl _ _ _ _ b k h w ?_
  refine tap_step _ _ _ 8 6 78 (by decide) (by decide) rfl _ _ _ _ b k h w ?_
  refine tap_step _ _ _ 8 5 77 (by decide) (by decide) rfl _ _ _ _ b k h w ?_
  refine tap_step _ _ _ 8 4 76 (by decide) (by decide) rfl _ _ _ _ b k h w ?_
  refine tap_step _ _ _ 8 3 75 (by decide) (by decide) rfl _ _ _ _ b k h w ?_
  refine tap_step _ _ _ 8 2 74 (by decide) (by decide) rfl _ _ _ _ b k h w ?_
  refine tap_step _ _ _ 8 1 73 (by decide) (by decide) rfl _ _ _ _ b k h w ?_
  refine tap_step _ _ _ 8 0 72 (by decide) (by decide) rfl _ _ _ _ b k h w ?_
  refine tap_step _ _ _ 7 8 71 (by decide) (by decide) rfl _ _ _ _ b k h w ?_
  refine tap_step _ _ _ 7 7 70 (by decide) (by decide) rfl _ _ _ _ b k h w ?_
  exact res420_apply V0 b k h w

/-! ## The run -/

/-- Every weakly fair execution of the reference ends with its result at the specification's value of the four argument
    arrays, the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v495)
          = finish
              (arrA (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
                (m ((c.tc : Thread Cert.ReferenceIdeal.nD Cert.ReferenceIdeal.τ).loc Cert.ReferenceIdeal.main_arg0)))
              (arrV (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg3)))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3)
            = m ((c.tc : Thread Cert.ReferenceIdeal.nD Cert.ReferenceIdeal.τ).loc Cert.ReferenceIdeal.main_arg3)) :=
  (θ_run (Cert.ReferenceIdeal.defs (F := Ideal)) _ _).mono
    (fun _ h c => ⟨(h c).1.trans (result_eq _ _ _ _ _ _ _ _ _ _ _ _ _ (res480_apply (launchContents m c))), (h c).2⟩)
    (Cert.ReferenceIdeal.Value.run (F := Ideal) m ρ)

end Cert.NCut.Ref

end
-- ==== Proof.lean ====
/-
  The certificate of the windowed affinity sum: the kernel against its reference over the extended reals.

  For every batch item b and class k both programs form the accumulator acc[b, k, h, w], the running total over the 81
  window positions (m, n), in increasing 9 m + n and started from zero, of pad[b, k, h + m, w + n] * wt[b, 0, h, w, m, n];
  then A[b, k] = Σ_h Σ_w acc[b, k, h, w] * seg[b, k, h, w] and V[b, k] = Σ_h Σ_w sw[b, 0, h, w] * seg[b, k, h, w]; and
  the result 8 - Σ_k A[b, k] / V[b, k] by the same three closing host operations.  The kernel computes acc one class at a
  time in a scratch, one batch item per grid point, from a weight array laid out with the 81 positions as an axis, and
  sums over the columns before the rows; the reference computes it for the whole arrays at once and sums over the pixels
  in one reduction.  Over the extended reals addition is commutative and associative, so the two orders of summation
  agree with no condition on the inputs, and every product and sum is taken in the same order on both sides.

  The three frames are the generated runs (two of them through repaired copies of a generated module); the idealization
  rewrote nothing, so its conjunct is trivial; the value conjunct joins the kernel's run and the reference's run, both
  stated over ONE term of the argument arrays.
-/
import proofs.«420815_j6201932775660_3_alg».proof.Defs
import proofs.«420815_j6201932775660_3_alg».proof.Proof.Gen.Kernel
import proofs.«420815_j6201932775660_3_alg».proof.Proof.Gen.KernelIdeal
import proofs.«420815_j6201932775660_3_alg».proof.Proof.Gen.ReferenceIdeal
import proofs.«420815_j6201932775660_3_alg».proof.Proof.Gen.ReferenceIdeal.Run
import proofs.«420815_j6201932775660_3_alg».proof.Proof.Gen.Pre_finite_inputs
import proofs.«420815_j6201932775660_3_alg».proof.Proof.KFrame
import proofs.«420815_j6201932775660_3_alg».proof.Proof.KIFrame
import proofs.«420815_j6201932775660_3_alg».proof.Proof.KValue
import proofs.«420815_j6201932775660_3_alg».proof.Proof.RefValue
import Idealize.ShloMosaic.Adequacy
import Idealize.ShloMosaic.Init

noncomputable section

namespace Cert.Proof

open Idealize.ShloMosaic Idealize.SL.Sem Cert.NCut

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the same term of the argument arrays, which agree. -/
theorem algebraic : Cert.algebraic_KernelIdeal_ReferenceIdeal := by
  intro m ρ m' ρ' _ hagree
  refine ⟨_, Cert.NCut.Kern.run m ρ, ?_⟩
  refine (θ_run Cert.ReferenceIdeal.defs _ _).mono (fun _ h c => ⟨(h c).1.trans ?_, (h c).2⟩) (Cert.NCut.Ref.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
